-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S64 : Shape := ⟨1, ![64]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S2x800000 32) (main_v13 : IVec S_ 1) (main_v15 : IVec S800000 32) (main_v16 : IVec S800000 32) : IVec S_ 1 :=
  let main_v17 : IVec S800000 1 := cmpi .sge main_v15 main_v16
  let main_v18 : IVec S1x800000 32 := (extractStridedSlice S1x800000 ![0, 0] · slices_S2x800000_S1x800000_0_0) main_arg3
  let main_v19 : IVec S800000 32 := shapeCast S800000 main_v18 shapeCasts_S1x800000_S800000
  let main_c_5 : IVec S_ 32 := constantI S_ 32 50000#32
  let main_v20 : IVec S800000 32 := broadcastInDim S800000 ![] bcast_S_S800000 main_c_5
  let main_v21 : IVec S800000 1 := cmpi .slt main_v19 main_v20
  let main_v22 : IVec S800000 1 := andi main_v17 main_v21
  let main_c_6 : IVec S_ 1 := constantI S_ 1 1#1
  let main_v23 : IVec S_ 1 := (fun x v => Host.reduce IntOp.andi x v reducesTo_S800000_S_d0 h_S_) main_v22 main_c_6
  let main_v24 : IVec S_ 1 := andi main_v13 main_v23
  main_v24

def fn {F : FTy → Type} [FloatOps F] (main_arg0 : FVec F S50000x256 .f32) (main_arg1 : FVec F S256x64 .f32) (main_arg2 : FVec F S64 .f32) (main_arg3 : IVec S2x800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : IVec S1x800000 32 := (extractStridedSlice S1x800000 ![0, 0] · slices_S2x800000_S1x800000_0_0) main_arg3
  let main_v15 : IVec S800000 32 := shapeCast S800000 main_v14 shapeCasts_S1x800000_S800000
  let main_c_4 : IVec S_ 32 := constantI S_ 32 0#32
  let main_v16 : IVec S800000 32 := broadcastInDim S800000 ![] bcast_S_S800000 main_c_4
  fn_part1 (F := F) main_arg3 main_v13 main_v15 main_v16
-- ==== Kernel.lean ====
abbrev S50000x256 : Shape := ⟨2, ![50000, 256]⟩
abbrev S256x64 : Shape := ⟨2, ![256, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S1000x256 : Shape := ⟨2, ![1000, 256]⟩
abbrev S1000x1 : Shape := ⟨2, ![1000, 1]⟩
abbrev S1000x64 : Shape := ⟨2, ![1000, 64]⟩
abbrev S800000x64 : Shape := ⟨2, ![800000, 64]⟩
abbrev S3200x1 : Shape := ⟨2, ![3200, 1]⟩
abbrev S3200x64 : Shape := ⟨2, ![3200, 64]⟩
abbrev S1x1000 : Shape := ⟨2, ![1, 1000]⟩
abbrev S3200x1000 : Shape := ⟨2, ![3200, 1000]⟩
abbrev S1x64 : Shape := ⟨2, ![1, 64]⟩
abbrev S1x3200 : Shape := ⟨2, ![1, 3200]⟩
abbrev S1000x3200 : Shape := ⟨2, ![1000, 3200]⟩

abbrev nBuf : Space → Nat
  | .hbm => 28
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x64, .f32⟩
  | .hbm, ⟨23, _⟩ => ⟨S800000x1, .i32⟩
  | .hbm, ⟨24, _⟩ => ⟨S1x800000, .i32⟩
  | .hbm, ⟨25, _⟩ => ⟨S800000x64, .f32⟩
  | .hbm, ⟨26, _⟩ => ⟨S1x64, .f32⟩
  | .hbm, ⟨27, _⟩ => ⟨S50000x64, .f32⟩
  | .local _ .vmem, ⟨0, _⟩ => ⟨S1000x256, .f32⟩
  | .local _ .vmem, ⟨1, _⟩ => ⟨S1000x256, .f32⟩
  | .local _ .vmem, ⟨2, _⟩ => ⟨S1000x1, .f32⟩
  | .local _ .vmem, ⟨3, _⟩ => ⟨S1000x1, .f32⟩
  | .local _ .vmem, ⟨4, _⟩ => ⟨S256x64, .f32⟩
  | .local _ .vmem, ⟨5, _⟩ => ⟨S1000x64, .f32⟩
  | .local _ .vmem, ⟨6, _⟩ => ⟨S1000x64, .f32⟩
  | .local _ .vmem, ⟨7, _⟩ => ⟨S3200x1, .i32⟩
  | .local _ .vmem, ⟨8, _⟩ => ⟨S3200x1, .i32⟩
  | .local _ .vmem, ⟨9, _⟩ => ⟨S1000x64, .f32⟩
  | .local _ .vmem, ⟨10, _⟩ => ⟨S1000x64, .f32⟩
  | .local _ .vmem, ⟨11, _⟩ => ⟨S3200x64, .f32⟩
  | .local _ .vmem, ⟨12, _⟩ => ⟨S3200x64, .f32⟩
  | .local _ .vmem, ⟨13, _⟩ => ⟨S3200x64, .f32⟩
  | .local _ .vmem, ⟨14, _⟩ => ⟨S1x3200, .i32⟩
  | .local _ .vmem, ⟨15, _⟩ => ⟨S1x3200, .i32⟩
  | .local _ .vmem, ⟨16, _⟩ => ⟨S3200x64, .f32⟩
  | .local _ .vmem, ⟨17, _⟩ => ⟨S3200x64, .f32⟩
  | .local _ .vmem, ⟨18, _⟩ => ⟨S1000x1, .f32⟩
  | .local _ .vmem, ⟨19, _⟩ => ⟨S1000x1, .f32⟩
  | .local _ .vmem, ⟨20, _⟩ => ⟨S1x64, .f32⟩
  | .local _ .vmem, ⟨21, _⟩ => ⟨S1000x64, .f32⟩
  | .local _ .vmem, ⟨22, _⟩ => ⟨S1000x64, .f32⟩
  | .local _ .vmem, ⟨23, _⟩ => ⟨S1000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![250, 50], ![false, false]⟩

def k1_cond2 (i : grid1.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_8 : BitVec 32 := 0#32
  let v26 : BitVec 1 := Scalar.cmpi .ne v25 c0_i32_8
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S3200x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![50, 250], ![false, false]⟩

def k2_cond2 (i : grid2.Coords) : BitVec 1 :=
  let arg1 : BitVec 32 := BitVec.ofNat 32 (i 1).val
  let c249_i32 : BitVec 32 := 249#32
  let v24 : BitVec 1 := Scalar.cmpi .eq arg1 c249_i32
  let v25 : BitVec 32 := Scalar.extui v24
  let c0_i32_8 : BitVec 32 := 0#32
  let v26 : BitVec 1 := Scalar.cmpi .ne v25 c0_i32_8
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x3200 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S3200x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S1000x256_S1000x256_0_0 : ∀ a, (![0, 0] : Fin 2 → Nat) a + S1000x256.size a ≤ S1000x256.size a
  h_S1000x256 : 0 < S1000x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1000x64_S1000x64_0_0 : ∀ a, (![0, 0] : Fin 2 → Nat) a + S1000x64.size a ≤ S1000x64.size a
  h_S1000x64 : 0 < S1000x64.numel
  shapeCasts_S800000_S800000x1 : S800000.ShapeCasts S800000x1
  shapeCasts_S800000_S1x800000 : S800000.ShapeCasts S1x800000
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  iota_S1x1000_d1_w32 : S1x1000.Iotas .tc 32 [1]
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  broadcasts_S3200x1_S3200x1000 : S3200x1.Broadcasts S3200x1000
  broadcasts_S1x1000_S3200x1000 : S1x1000.Broadcasts S3200x1000
  natLt_1_32 : 1 < 32
  shapeCasts_S1000x64_S1000x64 : S1000x64.ShapeCasts S1000x64
  shapeCasts_S64_S1x64 : S64.ShapeCasts S1x64
  iota_S1000x1_d0_w32 : S1000x1.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1000x1_S1000x3200 : S1000x1.Broadcasts S1000x3200
  broadcasts_S1x3200_S1000x3200 : S1x3200.Broadcasts S1000x3200
  broadcasts_S1000x1_S1000x64 : S1000x1.Broadcasts S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  scatter_S50000_S800000x1_S800000_n_0_0_1_wf : ScatterDims.WF S50000 S800000x1 S800000 [] [0] [0] 1
  dot_S1000x256_S256x64_S1000x64_1_0_0_1_n_n_wf : DotDims.WF S1000x256 S256x64 S1000x64 [1] [0] [0] [1] [] []
  dot_S3200x1000_S1000x64_S3200x64_1_0_0_1_n_n_wf : DotDims.WF S3200x1000 S1000x64 S3200x64 [1] [0] [0] [1] [] []
  dot_S1000x3200_S3200x64_S1000x64_1_0_0_1_n_n_wf : DotDims.WF S1000x3200 S3200x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .f32 = 32 ∨ (Rect.block (s := S50000x1) S1000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x1.size a ≤ S800000x1.size a
  hwx1_0 : ∀ i : grid1.Coords, EltTy.bits .i32 = 32 ∨ (Rect.block (s := S800000x1) S3200x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x64.size a ≤ S800000x64.size a
  hwx1_2 : ∀ i : grid1.Coords, EltTy.bits .f32 = 32 ∨ (Rect.block (s := S800000x64) S3200x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x3200.size a ≤ S1x800000.size a
  hwx2_0 : ∀ i : grid2.Coords, EltTy.bits .i32 = 32 ∨ (Rect.block (s := S1x800000) S1x3200.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x64.size a ≤ S800000x64.size a
  hwx2_1 : ∀ i : grid2.Coords, EltTy.bits .f32 = 32 ∨ (Rect.block (s := S800000x64) S3200x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .f32 = 32 ∨ (Rect.block (s := S50000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x64.size a ≤ S50000x64.size a
  hwx2_4 : ∀ i : grid2.Coords, EltTy.bits .f32 = 32 ∨ (Rect.block (s := S50000x64) S1000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def dot_S3200x1000_S1000x64_S3200x64_1_0_0_1_n_n : DotDims S3200x1000 S1000x64 S3200x64 where
  lhsContracting := [1]
  rhsContracting := [0]
  lhsNonContracting := [0]
  rhsNonContracting := [1]
  lhsBatch := []
  rhsBatch := []
  wf := dot_S3200x1000_S1000x64_S3200x64_1_0_0_1_n_n_wf
def dot_S1000x3200_S3200x64_S1000x64_1_0_0_1_n_n : DotDims S1000x3200 S3200x64 S1000x64 where
  lhsContracting := [1]
  rhsContracting := [0]
  lhsNonContracting := [0]
  rhsNonContracting := [1]
  lhsBatch := []
  rhsBatch := []
  wf := dot_S1000x3200_S3200x64_S1000x64_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S3200x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S3200x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v14) S1x3200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S3200x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S50000x256 : Shape := ⟨2, ![50000, 256]⟩
abbrev S256x64 : Shape := ⟨2, ![256, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x256, .f32⟩
  | .hbm, ⟨23, _⟩ => ⟨S50000x256, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x1, .f32⟩
  | .hbm, ⟨39, _⟩ => ⟨S50000x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.FB.Call0.lean ====
/-
  The first call (h = (feat · norm) @ weight, one block of 1000 rows per grid point), stated at the
  buffer contents V the call finds: each window's block at a point, what the body leaves in the
  result's staging buffer (one whole-block store of the product), the body's run, the proof data
  and the body obligation. Nothing is kept between points.
-/
import proofs.«418634_j45483703664784_1_alg».proof.Proof.Gen.Kernel.Launch
import proofs.«418634_j45483703664784_1_alg».proof.Proof.Gen.Kernel.Skeleton
import proofs.«418634_j45483703664784_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the first call, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's staging buffer holds its block at every point, whether or not that point fetched it
    (an unfetched point has the same block index as the one before). -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangle of the result block. -/
abbrev rH0 : Rect S1000x64 := Rect.unit (s := S1000x64) ![0, 0] S1000x64.size inb_S1000x64_S1000x64_0_0

/-- Both offsets of a whole-buffer rectangle are zero. -/
theorem off2_0 : (![0, 0] : Fin 2 → ℕ) = fun _ => 0 := by
  funext a; match a with
  | ⟨0, _⟩ => rfl
  | ⟨1, _⟩ => rfl

/-- What the body leaves in the result's staging buffer: the product block (feature rows x scaled by the
    column n, times the weights w), stored whole. -/
abbrev hOut0 (x : Vec F S1000x256 .f32) (n : Vec F S1000x1 .f32) (w : Vec F S256x64 .f32) : Vec F S1000x64 .f32 :=
  k0_pay1 x n w

theorem hOut0_cover (p : Vec F S1000x64 .f32) (L : List (View.Piece (Elt F) S1000x64 .f32)) (y : S1000x64.Idx) :
    ∃ pc ∈ ((⟨rH0, p⟩ : View.Piece (Elt F) S1000x64 .f32) :: L), y ∈ pc.1.set :=
  ⟨_, List.mem_cons_self, View.mem_set_unit_zero off2_0 inb_S1000x64_S1000x64_0_0 y⟩

set_option maxHeartbeats 1000000 in
/-- The body on whole staging memrefs: the three operand buffers are read and left as they were, the result's
    buffer (read once, its value unused) ends at the stored product. -/
theorem run0 (c : Dev nD) (E : Set ℕ) (i : grid0.Coords)
    (a1 : Memref sig .tc .vmem S1000x256 .f32) (h1 : a1.IsWhole) (a2 : Memref sig .tc .vmem S1000x1 .f32) (h2 : a2.IsWhole)
    (a3 : Memref sig .tc .vmem S256x64 .f32) (h3 : a3.IsWhole) (a4 : Memref sig .tc .vmem S1000x64 .f32) (h4 : a4.IsWhole)
    (x : Vec F S1000x256 .f32) (n : Vec F S1000x1 .f32) (w : Vec F S256x64 .f32) (K : PUnit → sProp 𝕄) :
    iprop(owns (c : Thread nD τ) a1 fullShare x ∗ owns (c : Thread nD τ) a2 fullShare n ∗ owns (c : Thread nD τ) a3 fullShare w
        ∗ (∃ d, owns (c : Thread nD τ) a4 fullShare d)
        ∗ (iprop(owns (c : Thread nD τ) a1 fullShare x ∗ owns (c : Thread nD τ) a2 fullShare n ∗ owns (c : Thread nD τ) a3 fullShare w
            ∗ owns (c : Thread nD τ) a4 fullShare (hOut0 x n w)) -∗ K ⟨⟩))
      ⊢ wp frame (wpE (defs₀ (F := F)) Variants.none c none) E (cc0__matmul_norm_kernel i a1 h1 a2 h2 a3 h3 a4 h4) K := by
  simp only [cc0__matmul_norm_kernel_eq_skeleton]; unfold cc0__matmul_norm_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (hOut0_cover _ _)).trans ?_
  rw [View.canon_cons_unit_zero off2_0]
  try sl_unfold_words
  simp only [View.readAt_eq_ld, View.ld_unit_zero (S := S1000x256) off2_0, View.ld_unit_zero (S := S1000x1) off2_0, View.ld_unit_zero (S := S256x64) off2_0]

/-- The first call's proof data on core c: its arrays as found; after the body each operand's buffer at its block
    and the result's at the product of the operand blocks; between points only the untouched scoped rest. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hOut0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = hOut0 (blk0 V c 0 t) (blk0 V c 1 t) (blk0 V c 2 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d

/-- What the body is handed at point t, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (run0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the first call, at every point. -/
theorem obligation0 (c : Dev nD) : BodyObligation (dat0 (F := F) V c) (defs₀ (F := F)) Variants.none () Set.univ := fun t => by
  rw [bigSep_W0, bigSep_W0]
  exact body0 V c t

end Cert.Kernel.Hand

end
-- ==== Proof.FB.Conds.lean ====
/-
  The two branch conditions of the second and of the third call's body, as functions of the grid point:
  "first tile of the reduction axis" and "last tile of the reduction axis", decided over each grid.
-/
import proofs.«418634_j45483703664784_1_alg».proof.Proof.Gen.Kernel.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Second call: "this is node tile 0" (the accumulator is reset). -/
abbrev first1 (i : grid1.Coords) : Prop := (Scalar.cmpi .ne (Scalar.extui (Scalar.cmpi .eq (BitVec.ofNat 32 (i 1).val) 0#32)) 0#32) = 1#1
/-- Second call: "this is node tile 49" (the accumulator is copied out). -/
abbrev last1 (i : grid1.Coords) : Prop := k1_cond2 i = 1#1

theorem first1_iff : ∀ t : Fin cfg1.N, first1 (grid1.coords t) ↔ t.val % 50 = 0 :=
  (by decide +kernel : ∀ t : Fin grid1.N, first1 (grid1.coords t) ↔ t.val % 50 = 0)
theorem last1_iff : ∀ t : Fin cfg1.N, last1 (grid1.coords t) ↔ t.val % 50 = 49 :=
  (by decide +kernel : ∀ t : Fin grid1.N, last1 (grid1.coords t) ↔ t.val % 50 = 49)

/-- Third call: "this is edge tile 0" (the accumulator is reset). -/
abbrev first2 (i : grid2.Coords) : Prop := (Scalar.cmpi .ne (Scalar.extui (Scalar.cmpi .eq (BitVec.ofNat 32 (i 1).val) 0#32)) 0#32) = 1#1
/-- Third call: "this is edge tile 249" (the result block is produced). -/
abbrev last2 (i : grid2.Coords) : Prop := k2_cond2 i = 1#1

theorem first2_iff : ∀ t : Fin cfg2.N, first2 (grid2.coords t) ↔ t.val % 250 = 0 :=
  (by decide +kernel : ∀ t : Fin grid2.N, first2 (grid2.coords t) ↔ t.val % 250 = 0)
theorem last2_iff : ∀ t : Fin cfg2.N, last2 (grid2.coords t) ↔ t.val % 250 = 249 :=
  (by decide +kernel : ∀ t : Fin grid2.N, last2 (grid2.coords t) ↔ t.val % 250 = 249)

/-- Where the second call's result window is idle, live, and written back. -/
theorem idle1_2 (t : Fin cfg1.N) (h : ¬ last1 (grid1.coords t)) : cfg1.idle 2 (grid1.coords t) = true := by
  show (!(k1_cond2 (grid1.coords t) == 1#1)) = true
  simp only [Bool.not_eq_true', beq_eq_false_iff_ne, ne_eq]; exact h
theorem live1_2 (t : Fin cfg1.N) (h : last1 (grid1.coords t)) : cfg1.idle 2 (grid1.coords t) = false := by
  show (!(k1_cond2 (grid1.coords t) == 1#1)) = false
  simp only [Bool.not_eq_false', beq_iff_eq]; exact h
theorem noflush1_2 (t : Fin cfg1.N) (h : ¬ last1 (grid1.coords t)) : (cfg1.win 2).flush t = false := by
  rw [last1_iff] at h
  exact Bool.eq_false_iff.mpr fun hf => h ((flush1_2 t).mp hf)

/-- Where the third call's result window is idle, live, and written back. -/
theorem idle2_4 (t : Fin cfg2.N) (h : ¬ last2 (grid2.coords t)) : cfg2.idle 4 (grid2.coords t) = true := by
  show (!(k2_cond2 (grid2.coords t) == 1#1)) = true
  simp only [Bool.not_eq_true', beq_eq_false_iff_ne, ne_eq]; exact h
theorem live2_4 (t : Fin cfg2.N) (h : last2 (grid2.coords t)) : cfg2.idle 4 (grid2.coords t) = false := by
  show (!(k2_cond2 (grid2.coords t) == 1#1)) = false
  simp only [Bool.not_eq_false', beq_iff_eq]; exact h
theorem noflush2_4 (t : Fin cfg2.N) (h : ¬ last2 (grid2.coords t)) : (cfg2.win 4).flush t = false := by
  rw [last2_iff] at h
  exact Bool.eq_false_iff.mpr fun hf => h ((flush2_4 t).mp hf)

end Cert.Kernel.Hand

end
-- ==== Proof.FB.Call1.lean ====
/-
  The second call (gathered[e] = h[src[e]] as a one-hot product accumulated over the 50 node tiles),
  stated at the buffer contents V the call finds. Its grid is (edge tile, node tile), node tile fastest.
  A scratch accumulator is reset at node tile 0, added into at every node tile, and copied into the
  result's staging buffer at node tile 49, the only points whose result block is written back.
-/
import proofs.«418634_j45483703664784_1_alg».proof.Proof.Gen.Kernel.Launch
import proofs.«418634_j45483703664784_1_alg».proof.Proof.Gen.Kernel.Skeleton
import proofs.«418634_j45483703664784_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«418634_j45483703664784_1_alg».proof.Proof.FB.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the second call, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the accumulator -/

/-- The accumulator, a whole scoped buffer of the call's own. -/
abbrev scr1 : Memref sig .tc .vmem S3200x64 .f32 := Memref.whole cc1_scratch0

/-- The accumulator after the reset: the zero block. -/
abbrev zero1 : Vec F S3200x64 .f32 := k1_pay1 (F := F)
/-- The accumulator after one node tile's product (edge indices x against that tile's node numbers, times the
    tile h of rows) is added to contents s. -/
abbrev add1 (i : grid1.Coords) (x : Vec F S3200x1 .i32) (h : Vec F S1000x64 .f32) (s : Vec F S3200x64 .f32) : Vec F S3200x64 .f32 :=
  k1_pay2 i x h s

/-- The whole-buffer rectangle of the accumulator and of the result block. -/
abbrev rG1 : Rect S3200x64 := Rect.unit (s := S3200x64) ![0, 0] S3200x64.size inb_S3200x64_S3200x64_0_0

/-- Both offsets of a whole-buffer rectangle are zero. -/
theorem off2 : (![0, 0] : Fin 2 → ℕ) = fun _ => 0 := by
  funext a; match a with
  | ⟨0, _⟩ => rfl
  | ⟨1, _⟩ => rfl

/-- A list of stores whose last one is through the whole-buffer rectangle covers the buffer. -/
theorem coverG1 (p : Vec F S3200x64 .f32) (L : List (View.Piece (Elt F) S3200x64 .f32)) (y : S3200x64.Idx) :
    ∃ pc ∈ ((⟨rG1, p⟩ : View.Piece (Elt F) S3200x64 .f32) :: L), y ∈ pc.1.set :=
  ⟨_, List.mem_cons_self, View.mem_set_unit_zero off2 inb_S3200x64_S3200x64_0_0 y⟩

/-- THE ACCUMULATOR after the body at position n: the sum so far over the node tiles of this edge tile. -/
def acc1 (c : Dev nD) : (n : ℕ) → n < cfg1.N → Vec F S3200x64 .f32
  | 0, hn => add1 (grid1.coords ⟨0, hn⟩) (blk1 V c 0 ⟨0, hn⟩) (blk1 V c 1 ⟨0, hn⟩) zero1
  | n + 1, hn => add1 (grid1.coords ⟨n + 1, hn⟩) (blk1 V c 0 ⟨n + 1, hn⟩) (blk1 V c 1 ⟨n + 1, hn⟩)
      (if (n + 1) % 50 = 0 then zero1 else acc1 c n (Nat.lt_of_succ_lt hn))

theorem acc1_first (c : Dev nD) (t : Fin cfg1.N) (h : t.val % 50 = 0) :
    acc1 V c t.val t.isLt = add1 (grid1.coords t) (blk1 V c 0 t) (blk1 V c 1 t) zero1 := by
  obtain ⟨n, hn⟩ := t
  cases n with
  | zero => rfl
  | succ n => show add1 _ _ _ (if (n + 1) % 50 = 0 then _ else _) = _; rw [if_pos h]
theorem acc1_next (c : Dev nD) (t : Fin cfg1.N) (h : ¬ t.val % 50 = 0) :
    acc1 V c t.val t.isLt = add1 (grid1.coords t) (blk1 V c 0 t) (blk1 V c 1 t)
      (acc1 V c (t.val - 1) (Nat.lt_of_le_of_lt (Nat.sub_le _ _) t.isLt)) := by
  obtain ⟨n, hn⟩ := t
  cases n with
  | zero => exact absurd (Nat.zero_mod _) h
  | succ n => show add1 _ _ _ (if (n + 1) % 50 = 0 then _ else _) = _; rw [if_neg h]; rfl

/-! ## The invariant between points -/

/-- Every scoped buffer the call neither stages nor accumulates in, each at some contents. -/
abbrev others1 (c : Dev nD) : sProp 𝕄 :=
  Pipeline.scopedRestBut (Ix := Unit) (Name := ℕ) (U := UR sig nD τ) (Lvl := ℕ) (Val := Elt F) spec1 c [cc1_scratch0]

/-- The class invariant with the accumulator split off. -/
theorem PhiA1_split (c : Dev nD) :
    (Pipeline.ΦA spec1 c : sProp 𝕄) = iprop(((∃ d, owns (c : Thread nD τ) scr1 fullShare d) ∗ others1 c) ∗ ∃ r, prngReg c r) := by
  unfold Pipeline.ΦA
  rw [Pipeline.scopedRest_split_of_list spec1 c [cc1_scratch0] (by decide) (by decide)]
  simp only [scr1, owns_whole, bigSepL, others1]
  try rfl

/-- Before the first point the class invariant; afterwards the accumulator at what the point before left. -/
def inv1 (c : Dev nD) : (n : ℕ) → n ≤ cfg1.N → sProp 𝕄
  | 0, _ => Pipeline.ΦA spec1 c
  | n + 1, hn => iprop((owns (c : Thread nD τ) scr1 fullShare (acc1 V c n hn) ∗ others1 c) ∗ ∃ r, prngReg c r)

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop((owns (c : Thread nD τ) scr1 fullShare (acc1 V c n hn) ∗ others1 c) ∗ ∃ r, prngReg c r) := rfl
theorem inv1_pos (c : Dev nD) (n : ℕ) (h : n ≤ cfg1.N) (hz : n ≠ 0) :
    inv1 V c n h = iprop((owns (c : Thread nD τ) scr1 fullShare (acc1 V c (n - 1) (by omega)) ∗ others1 c) ∗ ∃ r, prngReg c r) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = acc1 V c t.val t.isLt := by dsimp only [dat1]
theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_inv_start (c : Dev nD) (t : Fin cfg1.N) :
    (dat1 V c).Φ t.castSucc = inv1 V c t.val (Nat.le_of_lt t.isLt) := by
  dsimp only [dat1]; simp only [Fin.coe_castSucc]

/-! ## The body's run, by case -/

set_option maxHeartbeats 2000000 in
/-- Node tile 0 (not 49): the accumulator, at anything, ends at the first product over zero. -/
theorem run1_first (c : Dev nD) (E : Set ℕ) (i : grid1.Coords) (hf : first1 i) (hl : ¬ last1 i)
    (a2 : Memref sig .tc .vmem S3200x1 .i32) (h2 : a2.IsWhole) (a3 : Memref sig .tc .vmem S1000x64 .f32) (h3 : a3.IsWhole)
    (a4 : Memref sig .tc .vmem S3200x64 .f32) (h4 : a4.IsWhole) (a5 : Memref sig .tc .vmem S3200x64 .f32) (h5 : a5.IsWhole)
    (x : Vec F S3200x1 .i32) (h : Vec F S1000x64 .f32) (K : PUnit → sProp 𝕄) :
    iprop(owns (c : Thread nD τ) a2 fullShare x ∗ owns (c : Thread nD τ) a3 fullShare h ∗ (∃ d, owns (c : Thread nD τ) a5 fullShare d)
        ∗ (iprop(owns (c : Thread nD τ) a2 fullShare x ∗ owns (c : Thread nD τ) a3 fullShare h
            ∗ owns (c : Thread nD τ) a5 fullShare (add1 i x h zero1)) -∗ K ⟨⟩))
      ⊢ wp frame (wpE (defs₀ (F := F)) Variants.none c none) E (cc1__gather_kernel i a2 h2 a3 h3 a4 h4 a5 h5) K := by
  simp only [cc1__gather_kernel_eq_skeleton]; unfold cc1__gather_kernel_skel
  unfold owns
  iintro ⟨⟨%f2, %hf2, H2⟩, ⟨%f3, %hf3, H3⟩, ⟨%d5, %f5, -, H5⟩, Hk⟩
  subst hf2; subst hf3
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  refine (View.read_writes_eq_canon _ _ _ (coverG1 _ _)).trans ?_
  rw [View.canon_cons_unit_zero off2]
  sl_unfold_words
  simp only [View.readAt_eq_ld, View.ld_unit_zero (S := S3200x1) off2, View.ld_unit_zero (S := S1000x64) off2, View.ld_unit_zero (S := S3200x64) off2, View.readCov_unit_zero (S := S3200x64) _ off2]

set_option maxHeartbeats 2000000 in
/-- A node tile strictly between 0 and 49: the accumulator at s ends at s plus this tile's product. -/
theorem run1_mid (c : Dev nD) (E : Set ℕ) (i : grid1.Coords) (hf : ¬ first1 i) (hl : ¬ last1 i)
    (a2 : Memref sig .tc .vmem S3200x1 .i32) (h2 : a2.IsWhole) (a3 : Memref sig .tc .vmem S1000x64 .f32) (h3 : a3.IsWhole)
    (a4 : Memref sig .tc .vmem S3200x64 .f32) (h4 : a4.IsWhole) (a5 : Memref sig .tc .vmem S3200x64 .f32) (h5 : a5.IsWhole)
    (x : Vec F S3200x1 .i32) (h : Vec F S1000x64 .f32) (s : Vec F S3200x64 .f32) (K : PUnit → sProp 𝕄) :
    iprop(owns (c : Thread nD τ) a2 fullShare x ∗ owns (c : Thread nD τ) a3 fullShare h ∗ owns (c : Thread nD τ) a5 fullShare s
        ∗ (iprop(owns (c : Thread nD τ) a2 fullShare x ∗ owns (c : Thread nD τ) a3 fullShare h
            ∗ owns (c : Thread nD τ) a5 fullShare (add1 i x h s)) -∗ K ⟨⟩))
      ⊢ wp frame (wpE (defs₀ (F := F)) Variants.none c none) E (cc1__gather_kernel i a2 h2 a3 h3 a4 h4 a5 h5) K := by
  simp only [cc1__gather_kernel_eq_skeleton]; unfold cc1__gather_kernel_skel
  unfold owns
  iintro ⟨⟨%f2, %hf2, H2⟩, ⟨%f3, %hf3, H3⟩, ⟨%f5, %hf5, H5⟩, Hk⟩
  subst hf2; subst hf3; subst hf5
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  refine (View.read_writes_eq_canon _ _ _ (coverG1 _ _)).trans ?_
  rw [View.canon_cons_unit_zero off2]
  try sl_unfold_words
  simp only [View.readAt_eq_ld, View.ld_unit_zero (S := S3200x1) off2, View.ld_unit_zero (S := S1000x64) off2, View.ld_unit_zero (S := S3200x64) off2, View.readCov_unit_zero (S := S3200x64) _ off2]

set_option maxHeartbeats 2000000 in
/-- Node tile 49 (not 0): the accumulator at s ends at s plus this tile's product, and the result's staging buffer,
    at anything, ends at that same block. -/
theorem run1_last (c : Dev nD) (E : Set ℕ) (i : grid1.Coords) (hf : ¬ first1 i) (hl : last1 i)
    (a2 : Memref sig .tc .vmem S3200x1 .i32) (h2 : a2.IsWhole) (a3 : Memref sig .tc .vmem S1000x64 .f32) (h3 : a3.IsWhole)
    (a4 : Memref sig .tc .vmem S3200x64 .f32) (h4 : a4.IsWhole) (a5 : Memref sig .tc .vmem S3200x64 .f32) (h5 : a5.IsWhole)
    (x : Vec F S3200x1 .i32) (h : Vec F S1000x64 .f32) (s : Vec F S3200x64 .f32) (K : PUnit → sProp 𝕄) :
    iprop(owns (c : Thread nD τ) a2 fullShare x ∗ owns (c : Thread nD τ) a3 fullShare h ∗ (∃ d, owns (c : Thread nD τ) a4 fullShare d)
        ∗ owns (c : Thread nD τ) a5 fullShare s
        ∗ (iprop(owns (c : Thread nD τ) a2 fullShare x ∗ owns (c : Thread nD τ) a3 fullShare h
            ∗ owns (c : Thread nD τ) a4 fullShare (add1 i x h s)
            ∗ owns (c : Thread nD τ) a5 fullShare (add1 i x h s)) -∗ K ⟨⟩))
      ⊢ wp frame (wpE (defs₀ (F := F)) Variants.none c none) E (cc1__gather_kernel i a2 h2 a3 h3 a4 h4 a5 h5) K := by
  simp only [cc1__gather_kernel_eq_skeleton]; unfold cc1__gather_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (coverG1 _ _)).trans ?_
    rw [View.canon_cons_unit_zero off2]
    try sl_unfold_words
    simp only [View.readAt_eq_ld, View.ld_unit_zero (S := S3200x1) off2, View.ld_unit_zero (S := S1000x64) off2, View.ld_unit_zero (S := S3200x64) off2, View.readCov_unit_zero (S := S3200x64) _ off2]
  iexists _; isplitr
  swap; · iexact H5
  ipureintro
  refine (View.read_writes_eq_canon _ _ _ (coverG1 _ _)).trans ?_
  rw [View.canon_cons_unit_zero off2]
  try sl_unfold_words
  simp only [View.readAt_eq_ld, View.ld_unit_zero (S := S3200x1) off2, View.ld_unit_zero (S := S1000x64) off2, View.ld_unit_zero (S := S3200x64) off2, View.readCov_unit_zero (S := S3200x64) _ off2]

/-! ## The body obligation -/

/-- What the body is handed at point t, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (st1_0 t) fullShare ((dat1 V c).after 0 t) from rfl, dat1_after0]
  rw [show (dat1 V c).leavesExact 1 t = owns (c : Thread nD τ) (st1_1 t) fullShare ((dat1 V c).after 1 t) from rfl, dat1_after1]
  have hN : t.val < 12500 := lt_of_lt_of_eq t.isLt (show cfg1.N = 12500 from N_1)
  by_cases h0 : t.val % 50 = 0
  · have hf' : first1 (grid1.coords t) := (first1_iff t).mpr h0
    have hl' : ¬ last1 (grid1.coords t) := fun h => by have := (last1_iff t).mp h; omega
    rw [Dat.leavesExact_idle (dat1 V c) 2 t (idle1_2 t hl') (noflush1_2 t hl')]
    rw [acc1_first V c t h0]
    by_cases hz : t.val = 0
    · rw [dat1_inv_start V c t, inv1_zero V c _ _ hz, PhiA1_split]
      iintro ⟨⟨⟨HS, Hb⟩, Hr⟩, Ho, ⟨%d0, H0⟩, ⟨%d1, H1⟩, ⟨%d2, H2⟩⟩
      iapply (run1_first c Set.univ _ hf' hl' _ _ _ _ _ _ _ _ (blk1 V c 0 t) (blk1 V c 1 t) _)
      isplitl [H0]; · iexact H0
      isplitl [H1]; · iexact H1
      isplitl [HS]; · iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      iexists _; iexact H2
    · rw [dat1_inv_start V c t, inv1_pos V c _ _ hz]
      iintro ⟨⟨⟨HS, Hb⟩, Hr⟩, Ho, ⟨%d0, H0⟩, ⟨%d1, H1⟩, ⟨%d2, H2⟩⟩
      iapply (run1_first c Set.univ _ hf' hl' _ _ _ _ _ _ _ _ (blk1 V c 0 t) (blk1 V c 1 t) _)
      isplitl [H0]; · iexact H0
      isplitl [H1]; · iexact H1
      isplitl [HS]; · iexists _; iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      iexists _; iexact H2
  · have hf' : ¬ first1 (grid1.coords t) := fun h => h0 ((first1_iff t).mp h)
    have hz : t.val ≠ 0 := fun h => h0 (by rw [h])
    rw [acc1_next V c t h0, dat1_inv_start V c t, inv1_pos V c _ _ hz]
    by_cases h1 : t.val % 50 = 49
    · have hl' : last1 (grid1.coords t) := (last1_iff t).mpr h1
      rw [show (dat1 V c).leavesExact 2 t = owns (c : Thread nD τ) (st1_2 t) fullShare ((dat1 V c).after 2 t) from by
        unfold Dat.leavesExact; rw [live1_2 t hl'], dat1_after2, acc1_next V c t h0]
      iintro ⟨⟨⟨HS, Hb⟩, Hr⟩, Ho, ⟨%d0, H0⟩, ⟨%d1, H1⟩, ⟨%d2, H2⟩⟩
      iapply (run1_last c Set.univ _ hf' hl' _ _ _ _ _ _ _ _ (blk1 V c 0 t) (blk1 V c 1 t) _ _)
      isplitl [H0]; · iexact H0
      isplitl [H1]; · iexact H1
      isplitl [H2]; · iexists _; iexact H2
      isplitl [HS]; · iexact HS
      iintro ⟨H0, H1, H2, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      iexact H2
    · have hl' : ¬ last1 (grid1.coords t) := fun h => h1 ((last1_iff t).mp h)
      rw [Dat.leavesExact_idle (dat1 V c) 2 t (idle1_2 t hl') (noflush1_2 t hl')]
      iintro ⟨⟨⟨HS, Hb⟩, Hr⟩, Ho, ⟨%d0, H0⟩, ⟨%d1, H1⟩, ⟨%d2, H2⟩⟩
      iapply (run1_mid c Set.univ _ hf' hl' _ _ _ _ _ _ _ _ (blk1 V c 0 t) (blk1 V c 1 t) _ _)
      isplitl [H0]; · iexact H0
      isplitl [H1]; · iexact H1
      isplitl [HS]; · iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      iexists _; iexact H2

/-- The library's body obligation for the second call, at every point. -/
theorem obligation1 (c : Dev nD) : BodyObligation (dat1 (F := F) V c) (defs₀ (F := F)) Variants.none () Set.univ := fun t => by
  rw [bigSep_W1, bigSep_W1]
  exact body1 V c t

/-- What the launch hands the call is the invariant before the first point. -/
theorem inv1_in (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives the class invariant back: the accumulator's contents are forgotten. -/
theorem inv1_out (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 12500 := N_1; omega), PhiA1_split]
  iintro ⟨⟨HS, Hb⟩, Hr⟩
  isplitl [HS Hb]
  · isplitl [HS]
    · iexists _; iexact HS
    iexact Hb
  iexact Hr

end Cert.Kernel.Hand

end
-- ==== Proof.FB.Call2.lean ====
/-
  The third call (out[n] = (Σ over edges with dst[e] = n of gathered[e]) · norm[n] + bias, as a one-hot
  product accumulated over the 250 edge tiles), stated at the buffer contents V the call finds. Its grid
  is (node tile, edge tile), edge tile fastest. A scratch accumulator is reset at edge tile 0, added
  into at every edge tile, and at edge tile 249 scaled, shifted and stored into the result's staging
  buffer, the only points whose result block is written back.
-/
import proofs.«418634_j45483703664784_1_alg».proof.Proof.Gen.Kernel.Launch
import proofs.«418634_j45483703664784_1_alg».proof.Proof.Gen.Kernel.Skeleton
import proofs.«418634_j45483703664784_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«418634_j45483703664784_1_alg».proof.Proof.FB.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the third call, read off its array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the accumulator and in the result's buffer -/

/-- The whole-buffer rectangle of the accumulator and of the result block. -/
abbrev rO2 : Rect S1000x64 := Rect.unit (s := S1000x64) ![0, 0] S1000x64.size inb_S1000x64_S1000x64_0_0

/-- Both offsets of a whole-buffer rectangle are zero. -/
theorem off2_2 : (![0, 0] : Fin 2 → ℕ) = fun _ => 0 := by
  funext a; match a with
  | ⟨0, _⟩ => rfl
  | ⟨1, _⟩ => rfl

/-- The accumulator, a whole scoped buffer of the call's own. -/
abbrev scr2 : Memref sig .tc .vmem S1000x64 .f32 := Memref.whole cc2_scratch0

/-- The accumulator after the reset: the zero block. -/
abbrev zero2 : Vec F S1000x64 .f32 := k2_pay1 (F := F)
/-- The accumulator after one edge tile's product (this tile's node numbers against the destination indices d,
    times the tile g of gathered rows) is added to contents s. -/
abbrev add2 (i : grid2.Coords) (d : Vec F S1x3200 .i32) (g : Vec F S3200x64 .f32) (s : Vec F S1000x64 .f32) : Vec F S1000x64 .f32 :=
  k2_pay2 i d g s
/-- The result block: the accumulator s scaled by the norm column n and shifted by the bias row b. -/
abbrev fin2 (s : Vec F S1000x64 .f32) (n : Vec F S1000x1 .f32) (b : Vec F S1x64 .f32) : Vec F S1000x64 .f32 :=
  k2_pay3 s n b

/-- A list of stores whose last one is through the whole-buffer rectangle covers the buffer. -/
theorem coverO2 (p : Vec F S1000x64 .f32) (L : List (View.Piece (Elt F) S1000x64 .f32)) (y : S1000x64.Idx) :
    ∃ pc ∈ ((⟨rO2, p⟩ : View.Piece (Elt F) S1000x64 .f32) :: L), y ∈ pc.1.set :=
  ⟨_, List.mem_cons_self, View.mem_set_unit_zero off2_2 inb_S1000x64_S1000x64_0_0 y⟩

/-- THE ACCUMULATOR after the body at position n: the sum so far over the edge tiles of this node tile. -/
def acc2 (c : Dev nD) : (n : ℕ) → n < cfg2.N → Vec F S1000x64 .f32
  | 0, hn => add2 (grid2.coords ⟨0, hn⟩) (blk2 V c 0 ⟨0, hn⟩) (blk2 V c 1 ⟨0, hn⟩) zero2
  | n + 1, hn => add2 (grid2.coords ⟨n + 1, hn⟩) (blk2 V c 0 ⟨n + 1, hn⟩) (blk2 V c 1 ⟨n + 1, hn⟩)
      (if (n + 1) % 250 = 0 then zero2 else acc2 c n (Nat.lt_of_succ_lt hn))

theorem acc2_first (c : Dev nD) (t : Fin cfg2.N) (h : t.val % 250 = 0) :
    acc2 V c t.val t.isLt = add2 (grid2.coords t) (blk2 V c 0 t) (blk2 V c 1 t) zero2 := by
  obtain ⟨n, hn⟩ := t
  cases n with
  | zero => rfl
  | succ n => show add2 _ _ _ (if (n + 1) % 250 = 0 then _ else _) = _; rw [if_pos h]
theorem acc2_next (c : Dev nD) (t : Fin cfg2.N) (h : ¬ t.val % 250 = 0) :
    acc2 V c t.val t.isLt = add2 (grid2.coords t) (blk2 V c 0 t) (blk2 V c 1 t)
      (acc2 V c (t.val - 1) (Nat.lt_of_le_of_lt (Nat.sub_le _ _) t.isLt)) := by
  obtain ⟨n, hn⟩ := t
  cases n with
  | zero => exact absurd (Nat.zero_mod _) h
  | succ n => show add2 _ _ _ (if (n + 1) % 250 = 0 then _ else _) = _; rw [if_neg h]; rfl

/-! ## The invariant between points -/

/-- Every scoped buffer the call neither stages nor accumulates in, each at some contents. -/
abbrev others2 (c : Dev nD) : sProp 𝕄 :=
  Pipeline.scopedRestBut (Ix := Unit) (Name := ℕ) (U := UR sig nD τ) (Lvl := ℕ) (Val := Elt F) spec2 c [cc2_scratch0]

/-- The class invariant with the accumulator split off. -/
theorem PhiA2_split (c : Dev nD) :
    (Pipeline.ΦA spec2 c : sProp 𝕄) = iprop(((∃ d, owns (c : Thread nD τ) scr2 fullShare d) ∗ others2 c) ∗ ∃ r, prngReg c r) := by
  unfold Pipeline.ΦA
  rw [Pipeline.scopedRest_split_of_list spec2 c [cc2_scratch0] (by decide) (by decide)]
  simp only [scr2, owns_whole, bigSepL, others2]
  try rfl

/-- Before the first point the class invariant; afterwards the accumulator at what the point before left. -/
def inv2 (c : Dev nD) : (n : ℕ) → n ≤ cfg2.N → sProp 𝕄
  | 0, _ => Pipeline.ΦA spec2 c
  | n + 1, hn => iprop((owns (c : Thread nD τ) scr2 fullShare (acc2 V c n hn) ∗ others2 c) ∗ ∃ r, prngReg c r)

theorem inv2_zero (c : Dev nD) (n : ℕ) (h : n ≤ cfg2.N) (hz : n = 0) : inv2 V c n h = Pipeline.ΦA spec2 c := by
  subst hz; rfl
theorem inv2_succ (c : Dev nD) (n : ℕ) (hn : n < cfg2.N) :
    inv2 V c (n + 1) hn = iprop((owns (c : Thread nD τ) scr2 fullShare (acc2 V c n hn) ∗ others2 c) ∗ ∃ r, prngReg c r) := rfl
theorem inv2_pos (c : Dev nD) (n : ℕ) (h : n ≤ cfg2.N) (hz : n ≠ 0) :
    inv2 V c n h = iprop((owns (c : Thread nD τ) scr2 fullShare (acc2 V c (n - 1) (by omega)) ∗ others2 c) ∗ ∃ r, prngReg c r) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => fin2 (acc2 V c t.val t.isLt) (blk2 V c 2 t) (blk2 V c 3 t)
  Φ t := inv2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) :
    (dat2 V c).after 4 t = fin2 (acc2 V c t.val t.isLt) (blk2 V c 2 t) (blk2 V c 3 t) := by dsimp only [dat2]
theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d
theorem dat2_before3 (c : Dev nD) (t : Fin cfg2.N) (d) : (dat2 V c).before 3 t d = blk2 V c 3 t :=
  found2_3 V (dat2 V c) (dat2_A V c 3) (dat2_after3 V c) t d
theorem dat2_inv_start (c : Dev nD) (t : Fin cfg2.N) :
    (dat2 V c).Φ t.castSucc = inv2 V c t.val (Nat.le_of_lt t.isLt) := by
  dsimp only [dat2]; simp only [Fin.coe_castSucc]

/-! ## The body's run, by case -/

set_option maxHeartbeats 2000000 in
/-- Edge tile 0 (not 249): the accumulator, at anything, ends at the first product over zero. -/
theorem run2_first (c : Dev nD) (E : Set ℕ) (i : grid2.Coords) (hf : first2 i) (hl : ¬ last2 i)
    (a2 : Memref sig .tc .vmem S1x3200 .i32) (h2 : a2.IsWhole) (a3 : Memref sig .tc .vmem S3200x64 .f32) (h3 : a3.IsWhole)
    (a4 : Memref sig .tc .vmem S1000x1 .f32) (h4 : a4.IsWhole) (a5 : Memref sig .tc .vmem S1x64 .f32) (h5 : a5.IsWhole)
    (a6 : Memref sig .tc .vmem S1000x64 .f32) (h6 : a6.IsWhole) (a7 : Memref sig .tc .vmem S1000x64 .f32) (h7 : a7.IsWhole)
    (d : Vec F S1x3200 .i32) (g : Vec F S3200x64 .f32) (K : PUnit → sProp 𝕄) :
    iprop(owns (c : Thread nD τ) a2 fullShare d ∗ owns (c : Thread nD τ) a3 fullShare g ∗ (∃ s, owns (c : Thread nD τ) a7 fullShare s)
        ∗ (iprop(owns (c : Thread nD τ) a2 fullShare d ∗ owns (c : Thread nD τ) a3 fullShare g
            ∗ owns (c : Thread nD τ) a7 fullShare (add2 i d g zero2)) -∗ K ⟨⟩))
      ⊢ wp frame (wpE (defs₀ (F := F)) Variants.none c none) E (cc2__scatter_kernel i a2 h2 a3 h3 a4 h4 a5 h5 a6 h6 a7 h7) K := by
  simp only [cc2__scatter_kernel_eq_skeleton]; unfold cc2__scatter_kernel_skel
  unfold owns
  iintro ⟨⟨%f2, %hf2, H2⟩, ⟨%f3, %hf3, H3⟩, ⟨%s7, %f7, -, H7⟩, Hk⟩
  subst hf2; subst hf3
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  refine (View.read_writes_eq_canon _ _ _ (coverO2 _ _)).trans ?_
  rw [View.canon_cons_unit_zero off2_2]
  try sl_unfold_words
  simp only [View.readAt_eq_ld, View.ld_unit_zero (S := S1x3200) off2_2, View.ld_unit_zero (S := S3200x64) off2_2, View.ld_unit_zero (S := S1000x64) off2_2, View.ld_unit_zero (S := S1000x1) off2_2, View.ld_unit_zero (S := S1x64) off2_2, View.readCov_unit_zero (S := S1000x64) _ off2_2]

set_option maxHeartbeats 2000000 in
/-- An edge tile strictly between 0 and 249: the accumulator at s ends at s plus this tile's product. -/
theorem run2_mid (c : Dev nD) (E : Set ℕ) (i : grid2.Coords) (hf : ¬ first2 i) (hl : ¬ last2 i)
    (a2 : Memref sig .tc .vmem S1x3200 .i32) (h2 : a2.IsWhole) (a3 : Memref sig .tc .vmem S3200x64 .f32) (h3 : a3.IsWhole)
    (a4 : Memref sig .tc .vmem S1000x1 .f32) (h4 : a4.IsWhole) (a5 : Memref sig .tc .vmem S1x64 .f32) (h5 : a5.IsWhole)
    (a6 : Memref sig .tc .vmem S1000x64 .f32) (h6 : a6.IsWhole) (a7 : Memref sig .tc .vmem S1000x64 .f32) (h7 : a7.IsWhole)
    (d : Vec F S1x3200 .i32) (g : Vec F S3200x64 .f32) (s : Vec F S1000x64 .f32) (K : PUnit → sProp 𝕄) :
    iprop(owns (c : Thread nD τ) a2 fullShare d ∗ owns (c : Thread nD τ) a3 fullShare g ∗ owns (c : Thread nD τ) a7 fullShare s
        ∗ (iprop(owns (c : Thread nD τ) a2 fullShare d ∗ owns (c : Thread nD τ) a3 fullShare g
            ∗ owns (c : Thread nD τ) a7 fullShare (add2 i d g s)) -∗ K ⟨⟩))
      ⊢ wp frame (wpE (defs₀ (F := F)) Variants.none c none) E (cc2__scatter_kernel i a2 h2 a3 h3 a4 h4 a5 h5 a6 h6 a7 h7) K := by
  simp only [cc2__scatter_kernel_eq_skeleton]; unfold cc2__scatter_kernel_skel
  unfold owns
  iintro ⟨⟨%f2, %hf2, H2⟩, ⟨%f3, %hf3, H3⟩, ⟨%f7, %hf7, H7⟩, Hk⟩
  subst hf2; subst hf3; subst hf7
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  refine (View.read_writes_eq_canon _ _ _ (coverO2 _ _)).trans ?_
  rw [View.canon_cons_unit_zero off2_2]
  try sl_unfold_words
  simp only [View.readAt_eq_ld, View.ld_unit_zero (S := S1x3200) off2_2, View.ld_unit_zero (S := S3200x64) off2_2, View.ld_unit_zero (S := S1000x64) off2_2, View.ld_unit_zero (S := S1000x1) off2_2, View.ld_unit_zero (S := S1x64) off2_2, View.readCov_unit_zero (S := S1000x64) _ off2_2]

set_option maxHeartbeats 2000000 in
/-- Edge tile 249 (not 0): the accumulator at s ends at s plus this tile's product, and the result's staging buffer,
    at anything, ends at that sum scaled by the norm column n and shifted by the bias row b. -/
theorem run2_last (c : Dev nD) (E : Set ℕ) (i : grid2.Coords) (hf : ¬ first2 i) (hl : last2 i)
    (a2 : Memref sig .tc .vmem S1x3200 .i32) (h2 : a2.IsWhole) (a3 : Memref sig .tc .vmem S3200x64 .f32) (h3 : a3.IsWhole)
    (a4 : Memref sig .tc .vmem S1000x1 .f32) (h4 : a4.IsWhole) (a5 : Memref sig .tc .vmem S1x64 .f32) (h5 : a5.IsWhole)
    (a6 : Memref sig .tc .vmem S1000x64 .f32) (h6 : a6.IsWhole) (a7 : Memref sig .tc .vmem S1000x64 .f32) (h7 : a7.IsWhole)
    (d : Vec F S1x3200 .i32) (g : Vec F S3200x64 .f32) (n : Vec F S1000x1 .f32) (b : Vec F S1x64 .f32)
    (s : Vec F S1000x64 .f32) (K : PUnit → sProp 𝕄) :
    iprop(owns (c : Thread nD τ) a2 fullShare d ∗ owns (c : Thread nD τ) a3 fullShare g
        ∗ owns (c : Thread nD τ) a4 fullShare n ∗ owns (c : Thread nD τ) a5 fullShare b
        ∗ (∃ o, owns (c : Thread nD τ) a6 fullShare o)
        ∗ owns (c : Thread nD τ) a7 fullShare s
        ∗ (iprop(owns (c : Thread nD τ) a2 fullShare d ∗ owns (c : Thread nD τ) a3 fullShare g
            ∗ owns (c : Thread nD τ) a4 fullShare n ∗ owns (c : Thread nD τ) a5 fullShare b
            ∗ owns (c : Thread nD τ) a6 fullShare (fin2 (add2 i d g s) n b)
            ∗ owns (c : Thread nD τ) a7 fullShare (add2 i d g s)) -∗ K ⟨⟩))
      ⊢ wp frame (wpE (defs₀ (F := F)) Variants.none c none) E (cc2__scatter_kernel i a2 h2 a3 h3 a4 h4 a5 h5 a6 h6 a7 h7) K := by
  simp only [cc2__scatter_kernel_eq_skeleton]; unfold cc2__scatter_kernel_skel
  unfold owns
  iintro ⟨⟨%f2, %hf2, H2⟩, ⟨%f3, %hf3, H3⟩, ⟨%f4, %hf4, H4⟩, ⟨%f5, %hf5, H5⟩, ⟨%o6, %f6, -, H6⟩, ⟨%f7, %hf7, H7⟩, Hk⟩
  subst hf2; subst hf3; subst hf4; subst hf5; subst hf7
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverO2 _ _)).trans ?_
    rw [View.canon_cons_unit_zero off2_2]
    try sl_unfold_words
    simp only [View.readAt_eq_ld, View.ld_unit_zero (S := S1x3200) off2_2, View.ld_unit_zero (S := S3200x64) off2_2, View.ld_unit_zero (S := S1000x64) off2_2, View.ld_unit_zero (S := S1000x1) off2_2, View.ld_unit_zero (S := S1x64) off2_2, View.readCov_unit_zero (S := S1000x64) _ off2_2]
  iexists _; isplitr
  swap; · iexact H7
  ipureintro
  refine (View.read_writes_eq_canon _ _ _ (coverO2 _ _)).trans ?_
  rw [View.canon_cons_unit_zero off2_2]
  try sl_unfold_words
  simp only [View.readAt_eq_ld, View.ld_unit_zero (S := S1x3200) off2_2, View.ld_unit_zero (S := S3200x64) off2_2, View.ld_unit_zero (S := S1000x64) off2_2, View.ld_unit_zero (S := S1000x1) off2_2, View.ld_unit_zero (S := S1x64) off2_2, View.readCov_unit_zero (S := S1000x64) _ off2_2]

/-! ## The body obligation -/

/-- What the body is handed at point t, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it hands back. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).owesAt () t.succ = (dat2 V c).owesAt () t.castSucc from rfl]
  rw [show (dat2 V c).Φ t.succ = inv2 V c (t.val + 1) t.isLt from rfl, inv2_succ]
  rw [show (dat2 V c).leavesExact 0 t = owns (c : Thread nD τ) (st2_0 t) fullShare ((dat2 V c).after 0 t) from rfl, dat2_after0]
  rw [show (dat2 V c).leavesExact 1 t = owns (c : Thread nD τ) (st2_1 t) fullShare ((dat2 V c).after 1 t) from rfl, dat2_after1]
  rw [show (dat2 V c).leavesExact 2 t = owns (c : Thread nD τ) (st2_2 t) fullShare ((dat2 V c).after 2 t) from rfl, dat2_after2]
  rw [show (dat2 V c).leavesExact 3 t = owns (c : Thread nD τ) (st2_3 t) fullShare ((dat2 V c).after 3 t) from rfl, dat2_after3]
  have hN : t.val < 12500 := lt_of_lt_of_eq t.isLt (show cfg2.N = 12500 from N_2)
  by_cases h0 : t.val % 250 = 0
  · have hf' : first2 (grid2.coords t) := (first2_iff t).mpr h0
    have hl' : ¬ last2 (grid2.coords t) := fun h => by have := (last2_iff t).mp h; omega
    rw [Dat.leavesExact_idle (dat2 V c) 4 t (idle2_4 t hl') (noflush2_4 t hl')]
    rw [acc2_first V c t h0]
    by_cases hz : t.val = 0
    · rw [dat2_inv_start V c t, inv2_zero V c _ _ hz, PhiA2_split]
      iintro ⟨⟨⟨HS, Hb⟩, Hr⟩, Ho, ⟨%d0, H0⟩, ⟨%d1, H1⟩, ⟨%d2, H2⟩, ⟨%d3, H3⟩, ⟨%d4, H4⟩⟩
      iapply (run2_first c Set.univ _ hf' hl' _ _ _ _ _ _ _ _ _ _ _ _ (blk2 V c 0 t) (blk2 V c 1 t) _)
      isplitl [H0]; · iexact H0
      isplitl [H1]; · iexact H1
      isplitl [HS]; · iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      isplitl [H2]; · iexact H2
      isplitl [H3]; · iexact H3
      iexists _; iexact H4
    · rw [dat2_inv_start V c t, inv2_pos V c _ _ hz]
      iintro ⟨⟨⟨HS, Hb⟩, Hr⟩, Ho, ⟨%d0, H0⟩, ⟨%d1, H1⟩, ⟨%d2, H2⟩, ⟨%d3, H3⟩, ⟨%d4, H4⟩⟩
      iapply (run2_first c Set.univ _ hf' hl' _ _ _ _ _ _ _ _ _ _ _ _ (blk2 V c 0 t) (blk2 V c 1 t) _)
      isplitl [H0]; · iexact H0
      isplitl [H1]; · iexact H1
      isplitl [HS]; · iexists _; iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      isplitl [H2]; · iexact H2
      isplitl [H3]; · iexact H3
      iexists _; iexact H4
  · have hf' : ¬ first2 (grid2.coords t) := fun h => h0 ((first2_iff t).mp h)
    have hz : t.val ≠ 0 := fun h => h0 (by rw [h])
    rw [acc2_next V c t h0, dat2_inv_start V c t, inv2_pos V c _ _ hz]
    by_cases h1 : t.val % 250 = 249
    · have hl' : last2 (grid2.coords t) := (last2_iff t).mpr h1
      rw [show (dat2 V c).leavesExact 4 t = owns (c : Thread nD τ) (st2_4 t) fullShare ((dat2 V c).after 4 t) from by
        unfold Dat.leavesExact; rw [live2_4 t hl'], dat2_after4, acc2_next V c t h0]
      iintro ⟨⟨⟨HS, Hb⟩, Hr⟩, Ho, ⟨%d0, H0⟩, ⟨%d1, H1⟩, ⟨%d2, H2⟩, ⟨%d3, H3⟩, ⟨%d4, H4⟩⟩
      iapply (run2_last c Set.univ _ hf' hl' _ _ _ _ _ _ _ _ _ _ _ _ (blk2 V c 0 t) (blk2 V c 1 t) (blk2 V c 2 t) (blk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      isplitl [H2]; · iexact H2
      isplitl [H3]; · iexact H3
      iexact H4
    · have hl' : ¬ last2 (grid2.coords t) := fun h => h1 ((last2_iff t).mp h)
      rw [Dat.leavesExact_idle (dat2 V c) 4 t (idle2_4 t hl') (noflush2_4 t hl')]
      iintro ⟨⟨⟨HS, Hb⟩, Hr⟩, Ho, ⟨%d0, H0⟩, ⟨%d1, H1⟩, ⟨%d2, H2⟩, ⟨%d3, H3⟩, ⟨%d4, H4⟩⟩
      iapply (run2_mid c Set.univ _ hf' hl' _ _ _ _ _ _ _ _ _ _ _ _ (blk2 V c 0 t) (blk2 V c 1 t) _ _)
      isplitl [H0]; · iexact H0
      isplitl [H1]; · iexact H1
      isplitl [HS]; · iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      isplitl [H2]; · iexact H2
      isplitl [H3]; · iexact H3
      iexists _; iexact H4

/-- The library's body obligation for the third call, at every point. -/
theorem obligation2 (c : Dev nD) : BodyObligation (dat2 (F := F) V c) (defs₀ (F := F)) Variants.none () Set.univ := fun t => by
  rw [bigSep_W2, bigSep_W2]
  exact body2 V c t

/-- What the launch hands the call is the invariant before the first point. -/
theorem inv2_in (c : Dev nD) : Pipeline.ΦA spec2 c ⊢ (dat2 V c).Φ 0 := by
  rw [show (dat2 V c).Φ 0 = inv2 V c 0 (Nat.zero_le _) from rfl, inv2_zero V c 0 _ rfl]
  try exact Idealize.SL.BI.Entails.refl _

/-- After the last point the invariant gives the class invariant back: the accumulator's contents are forgotten. -/
theorem inv2_out (c : Dev nD) : (dat2 V c).Φ (Fin.last cfg2.N) ⊢ Pipeline.ΦA spec2 c := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 12500 := N_2; omega), PhiA2_split]
  iintro ⟨⟨HS, Hb⟩, Hr⟩
  isplitl [HS Hb]
  · isplitl [HS]
    · iexists _; iexact HS
    iexact Hb
  iexact Hr

end Cert.Kernel.Hand

end
-- ==== Proof.FB.Chain.lean ====
/-
  The buffer contents at every boundary of @main, a fold from the launch memory: a stretch of host
  operations applies them; a call leaves its arrays at what its write-backs leave (the operand arrays
  as entered, the result array at the fold of the written-back blocks) and every other buffer as entered.
  W0 launch, W1..W3 after the three host stretches (W3 is what the first call finds), W4 after the first
  call, W5 after the reshapes of src and dst (what the second call finds), W6 after the second call,
  W7 after the reshape of the bias (what the third call finds), W8 after the third call.
-/
import proofs.«418634_j45483703664784_1_alg».proof.Proof.FB.Call0
import proofs.«418634_j45483703664784_1_alg».proof.Proof.FB.Call1
import proofs.«418634_j45483703664784_1_alg».proof.Proof.FB.Call2
import proofs.«418634_j45483703664784_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- What the first call finds, read at the TensorCore's references. -/
abbrev E3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b

abbrev W5 : Dev nD → Valuation τ sig (Elt F) := fun c => StableHlo.after hostOps1 (W4 m c)
/-- What the second call finds. -/
abbrev E5 : (c : Dev nD) → (b : Ref sig .tc) → Buf (Elt F) ((c : Thread nD τ).loc b) := fun c b => W5 m c b

def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b

abbrev W7 : Dev nD → Valuation τ sig (Elt F) := fun c => StableHlo.after hostOps2 (W6 m c)
/-- What the third call finds. -/
abbrev E7 : (c : Dev nD) → (b : Ref sig .tc) → Buf (Elt F) ((c : Thread nD τ).loc b) := fun c b => W7 m c b

def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev E8 : (c : Dev nD) → (b : Ref sig .tc) → Buf (Elt F) ((c : Thread nD τ).loc b) := fun c b => W8 m c b

end Cert.Kernel.Hand

end
-- ==== Proof.FB.Run.lean ====
/-
  The run of @main from the launch to the return. @main is eight items: three stretches of host
  operations, the first call, a stretch (the reshapes of src and dst), the second call, a stretch (the
  reshape of the bias), the third call. Each item is a segment over one thread state: every unscoped
  buffer of the core at the contents of the boundary before it (W0 .. W8, a fold from the launch
  memory), the core's generator register at some state, and the core owing nothing. A stretch of host
  operations takes the buffers from W to the contents after its operations. A call takes its arrays
  out of the unscoped buffers, hands the generator register and the scoped buffers no window stages
  to its invariant at the first point, gets them back from the invariant at the last point (the second
  and third calls keep an accumulator among them between points and forget its contents at the end),
  and puts its arrays back at what the write-backs leave. Each segment is entered from exactly what
  the one before it left, so the launch runs @main to every unscoped buffer at W8; and an argument of
  @main, which no operation writes and no call has as a result, holds at W8 what it held at launch.
-/
import proofs.«418634_j45483703664784_1_alg».proof.Proof.FB.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What a call leaves: its arrays at the write-backs' fold, every other buffer as found -/

theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)
theorem hF2 (c : Dev nD) (w : Fin cfg2.W) : (dat2 (E7 m) c).arrAt w cfg2.N = E8 m c (Pipeline.arrRef spec2 w) :=
  (W8_arr m c w).symm
theorem hrest2 (c : Dev nD) : ∀ b, b ∉ Finset.univ.image (Pipeline.arrRef spec2) → E8 m c b = E7 m c b :=
  fun b hb => W8_of_ne m c b fun w e => hb (Finset.mem_image.mpr ⟨w, Finset.mem_univ _, e⟩)

/-! ## The arguments end as launched

No host operation writes an argument and no call has one as its result (the first call reads the
features and the weights through operand windows, whose arrays end as entered; the edge list and the
bias bypass every call), so the fold at an argument's buffer walks back to the launch memory. -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (E3 m) c).arrAt_in 0 rfl _).trans (dat0_A (E3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := (W4_arr m c 2).trans (((dat0 (E3 m) c).arrAt_in 2 rfl _).trans (dat0_A (E3 m) c 2))
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-! ## The proof data family and the thread state -/

/-- Every call's proof data, each at the contents its call finds. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the
    core owing nothing. -/
abbrev R (c : Dev nD) : sProp 𝕄 := iprop((∃ r, prngReg c r) ∗ ∃ W, owes (c : Thread nD τ) (0 : CellTallies nD τ sig Unit) W)
/-- A stretch of host operations as a segment: from the unscoped buffers at W to the same buffers after the
    operations, the rest of the thread state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The calls as segments -/

set_option backward.isDefEq.respectTransparency.types false in
/-- The first call over the thread state: entered from every unscoped buffer at W3, left at W4. Its arrays
    are split out of the unscoped buffers and put back at the contents the write-backs leave; the generator
    register goes into the class invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at W5, left at W6. Its arrays
    are split out of the unscoped buffers and put back at the contents the write-backs leave; the generator
    register and the scoped rest make the invariant before the first point, and the invariant after the last point gives them back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E5 m) c).Φ 0 from rfl]
    refine BIBase.Entails.trans ?_ (inv1_in (E5 m) c)
    unfold Pipeline.ΦA
    iintro ⟨Hp, -, Hr⟩
    isplitl [Hr]; · iexact Hr
    iexact Hp
  hout c := by
    rw [Pipeline.ownSems0_none, show (pdats m 1 c).Φ (Fin.last _) = (dat1 (E5 m) c).Φ (Fin.last cfg1.N) from rfl]
    refine BIBase.Entails.trans (inv1_out (E5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call over the thread state: entered from every unscoped buffer at W7, left at W8. Its arrays
    are split out of the unscoped buffers and put back at the contents the write-backs leave; the generator
    register and the scoped rest make the invariant before the first point, and the invariant after the last point gives them back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E7 m) c).Φ 0 from rfl]
    refine BIBase.Entails.trans ?_ (inv2_in (E7 m) c)
    unfold Pipeline.ΦA
    iintro ⟨Hp, -, Hr⟩
    isplitl [Hr]; · iexact Hr
    iexact Hp
  hout c := by
    rw [Pipeline.ownSems0_none, show (pdats m 2 c).Φ (Fin.last _) = (dat2 (E7 m) c).Φ (Fin.last cfg2.N) from rfl]
    refine BIBase.Entails.trans (inv2_out (E7 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]
/-- @main is the run of the segments. -/
theorem main_run (c : Dev nD) : main (F := F) c = Pipeline.Seg.run (segs m) := (main_chain c).trans (by chain_rfl)

set_option backward.isDefEq.respectTransparency.types false in
/-- From any memory with zero counters, every weakly fair execution of @main on the TensorCores terminates, nothing
    faulting, and every final state holds every unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Hand

end
-- ==== Proof.FI.Call0.lean ====
/-
  The first call (h = (feat · norm) @ weight, one block of 1000 rows per grid point), stated at the
  buffer contents V the call finds: each window's block at a point, what the body leaves in the
  result's staging buffer (one whole-block store of the product), the body's run, the proof data
  and the body obligation. Nothing is kept between points.
-/
import proofs.«418634_j45483703664784_1_alg».proof.Proof.Gen.KernelIdeal.Launch
import proofs.«418634_j45483703664784_1_alg».proof.Proof.Gen.KernelIdeal.Skeleton
import proofs.«418634_j45483703664784_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the first call, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's staging buffer holds its block at every point, whether or not that point fetched it
    (an unfetched point has the same block index as the one before). -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangle of the result block. -/
abbrev rH0 : Rect S1000x64 := Rect.unit (s := S1000x64) ![0, 0] S1000x64.size inb_S1000x64_S1000x64_0_0

/-- Both offsets of a whole-buffer rectangle are zero. -/
theorem off2_0 : (![0, 0] : Fin 2 → ℕ) = fun _ => 0 := by
  funext a; match a with
  | ⟨0, _⟩ => rfl
  | ⟨1, _⟩ => rfl

/-- What the body leaves in the result's staging buffer: the product block (feature rows x scaled by the
    column n, times the weights w), stored whole. -/
abbrev hOut0 (x : Vec F S1000x256 .f32) (n : Vec F S1000x1 .f32) (w : Vec F S256x64 .f32) : Vec F S1000x64 .f32 :=
  k0_pay1 x n w

theorem hOut0_cover (p : Vec F S1000x64 .f32) (L : List (View.Piece (Elt F) S1000x64 .f32)) (y : S1000x64.Idx) :
    ∃ pc ∈ ((⟨rH0, p⟩ : View.Piece (Elt F) S1000x64 .f32) :: L), y ∈ pc.1.set :=
  ⟨_, List.mem_cons_self, View.mem_set_unit_zero off2_0 inb_S1000x64_S1000x64_0_0 y⟩

set_option maxHeartbeats 1000000 in
/-- The body on whole staging memrefs: the three operand buffers are read and left as they were, the result's
    buffer (read once, its value unused) ends at the stored product. -/
theorem run0 (c : Dev nD) (E : Set ℕ) (i : grid0.Coords)
    (a1 : Memref sig .tc .vmem S1000x256 .f32) (h1 : a1.IsWhole) (a2 : Memref sig .tc .vmem S1000x1 .f32) (h2 : a2.IsWhole)
    (a3 : Memref sig .tc .vmem S256x64 .f32) (h3 : a3.IsWhole) (a4 : Memref sig .tc .vmem S1000x64 .f32) (h4 : a4.IsWhole)
    (x : Vec F S1000x256 .f32) (n : Vec F S1000x1 .f32) (w : Vec F S256x64 .f32) (K : PUnit → sProp 𝕄) :
    iprop(owns (c : Thread nD τ) a1 fullShare x ∗ owns (c : Thread nD τ) a2 fullShare n ∗ owns (c : Thread nD τ) a3 fullShare w
        ∗ (∃ d, owns (c : Thread nD τ) a4 fullShare d)
        ∗ (iprop(owns (c : Thread nD τ) a1 fullShare x ∗ owns (c : Thread nD τ) a2 fullShare n ∗ owns (c : Thread nD τ) a3 fullShare w
            ∗ owns (c : Thread nD τ) a4 fullShare (hOut0 x n w)) -∗ K ⟨⟩))
      ⊢ wp frame (wpE (defs₀ (F := F)) Variants.none c none) E (cc0__matmul_norm_kernel i a1 h1 a2 h2 a3 h3 a4 h4) K := by
  simp only [cc0__matmul_norm_kernel_eq_skeleton]; unfold cc0__matmul_norm_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (hOut0_cover _ _)).trans ?_
  rw [View.canon_cons_unit_zero off2_0]
  try sl_unfold_words
  simp only [View.readAt_eq_ld, View.ld_unit_zero (S := S1000x256) off2_0, View.ld_unit_zero (S := S1000x1) off2_0, View.ld_unit_zero (S := S256x64) off2_0]

/-- The first call's proof data on core c: its arrays as found; after the body each operand's buffer at its block
    and the result's at the product of the operand blocks; between points only the untouched scoped rest. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hOut0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = hOut0 (blk0 V c 0 t) (blk0 V c 1 t) (blk0 V c 2 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d

/-- What the body is handed at point t, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (run0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the first call, at every point. -/
theorem obligation0 (c : Dev nD) : BodyObligation (dat0 (F := F) V c) (defs₀ (F := F)) Variants.none () Set.univ := fun t => by
  rw [bigSep_W0, bigSep_W0]
  exact body0 V c t

end Cert.KernelIdeal.Hand

end
-- ==== Proof.FI.Conds.lean ====
/-
  The two branch conditions of the second and of the third call's body, as functions of the grid point:
  "first tile of the reduction axis" and "last tile of the reduction axis", decided over each grid.
-/
import proofs.«418634_j45483703664784_1_alg».proof.Proof.Gen.KernelIdeal.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Second call: "this is node tile 0" (the accumulator is reset). -/
abbrev first1 (i : grid1.Coords) : Prop := (Scalar.cmpi .ne (Scalar.extui (Scalar.cmpi .eq (BitVec.ofNat 32 (i 1).val) 0#32)) 0#32) = 1#1
/-- Second call: "this is node tile 49" (the accumulator is copied out). -/
abbrev last1 (i : grid1.Coords) : Prop := k1_cond2 i = 1#1

theorem first1_iff : ∀ t : Fin cfg1.N, first1 (grid1.coords t) ↔ t.val % 50 = 0 :=
  (by decide +kernel : ∀ t : Fin grid1.N, first1 (grid1.coords t) ↔ t.val % 50 = 0)
theorem last1_iff : ∀ t : Fin cfg1.N, last1 (grid1.coords t) ↔ t.val % 50 = 49 :=
  (by decide +kernel : ∀ t : Fin grid1.N, last1 (grid1.coords t) ↔ t.val % 50 = 49)

/-- Third call: "this is edge tile 0" (the accumulator is reset). -/
abbrev first2 (i : grid2.Coords) : Prop := (Scalar.cmpi .ne (Scalar.extui (Scalar.cmpi .eq (BitVec.ofNat 32 (i 1).val) 0#32)) 0#32) = 1#1
/-- Third call: "this is edge tile 249" (the result block is produced). -/
abbrev last2 (i : grid2.Coords) : Prop := k2_cond2 i = 1#1

theorem first2_iff : ∀ t : Fin cfg2.N, first2 (grid2.coords t) ↔ t.val % 250 = 0 :=
  (by decide +kernel : ∀ t : Fin grid2.N, first2 (grid2.coords t) ↔ t.val % 250 = 0)
theorem last2_iff : ∀ t : Fin cfg2.N, last2 (grid2.coords t) ↔ t.val % 250 = 249 :=
  (by decide +kernel : ∀ t : Fin grid2.N, last2 (grid2.coords t) ↔ t.val % 250 = 249)

/-- Where the second call's result window is idle, live, and written back. -/
theorem idle1_2 (t : Fin cfg1.N) (h : ¬ last1 (grid1.coords t)) : cfg1.idle 2 (grid1.coords t) = true := by
  show (!(k1_cond2 (grid1.coords t) == 1#1)) = true
  simp only [Bool.not_eq_true', beq_eq_false_iff_ne, ne_eq]; exact h
theorem live1_2 (t : Fin cfg1.N) (h : last1 (grid1.coords t)) : cfg1.idle 2 (grid1.coords t) = false := by
  show (!(k1_cond2 (grid1.coords t) == 1#1)) = false
  simp only [Bool.not_eq_false', beq_iff_eq]; exact h
theorem noflush1_2 (t : Fin cfg1.N) (h : ¬ last1 (grid1.coords t)) : (cfg1.win 2).flush t = false := by
  rw [last1_iff] at h
  exact Bool.eq_false_iff.mpr fun hf => h ((flush1_2 t).mp hf)

/-- Where the third call's result window is idle, live, and written back. -/
theorem idle2_4 (t : Fin cfg2.N) (h : ¬ last2 (grid2.coords t)) : cfg2.idle 4 (grid2.coords t) = true := by
  show (!(k2_cond2 (grid2.coords t) == 1#1)) = true
  simp only [Bool.not_eq_true', beq_eq_false_iff_ne, ne_eq]; exact h
theorem live2_4 (t : Fin cfg2.N) (h : last2 (grid2.coords t)) : cfg2.idle 4 (grid2.coords t) = false := by
  show (!(k2_cond2 (grid2.coords t) == 1#1)) = false
  simp only [Bool.not_eq_false', beq_iff_eq]; exact h
theorem noflush2_4 (t : Fin cfg2.N) (h : ¬ last2 (grid2.coords t)) : (cfg2.win 4).flush t = false := by
  rw [last2_iff] at h
  exact Bool.eq_false_iff.mpr fun hf => h ((flush2_4 t).mp hf)

end Cert.KernelIdeal.Hand

end
-- ==== Proof.FI.Call1.lean ====
/-
  The second call (gathered[e] = h[src[e]] as a one-hot product accumulated over the 50 node tiles),
  stated at the buffer contents V the call finds. Its grid is (edge tile, node tile), node tile fastest.
  A scratch accumulator is reset at node tile 0, added into at every node tile, and copied into the
  result's staging buffer at node tile 49, the only points whose result block is written back.
-/
import proofs.«418634_j45483703664784_1_alg».proof.Proof.Gen.KernelIdeal.Launch
import proofs.«418634_j45483703664784_1_alg».proof.Proof.Gen.KernelIdeal.Skeleton
import proofs.«418634_j45483703664784_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«418634_j45483703664784_1_alg».proof.Proof.FI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the second call, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the accumulator -/

/-- The accumulator, a whole scoped buffer of the call's own. -/
abbrev scr1 : Memref sig .tc .vmem S3200x64 .f32 := Memref.whole cc1_scratch0

/-- The accumulator after the reset: the zero block. -/
abbrev zero1 : Vec F S3200x64 .f32 := k1_pay1 (F := F)
/-- The accumulator after one node tile's product (edge indices x against that tile's node numbers, times the
    tile h of rows) is added to contents s. -/
abbrev add1 (i : grid1.Coords) (x : Vec F S3200x1 .i32) (h : Vec F S1000x64 .f32) (s : Vec F S3200x64 .f32) : Vec F S3200x64 .f32 :=
  k1_pay2 i x h s

/-- The whole-buffer rectangle of the accumulator and of the result block. -/
abbrev rG1 : Rect S3200x64 := Rect.unit (s := S3200x64) ![0, 0] S3200x64.size inb_S3200x64_S3200x64_0_0

/-- Both offsets of a whole-buffer rectangle are zero. -/
theorem off2 : (![0, 0] : Fin 2 → ℕ) = fun _ => 0 := by
  funext a; match a with
  | ⟨0, _⟩ => rfl
  | ⟨1, _⟩ => rfl

/-- A list of stores whose last one is through the whole-buffer rectangle covers the buffer. -/
theorem coverG1 (p : Vec F S3200x64 .f32) (L : List (View.Piece (Elt F) S3200x64 .f32)) (y : S3200x64.Idx) :
    ∃ pc ∈ ((⟨rG1, p⟩ : View.Piece (Elt F) S3200x64 .f32) :: L), y ∈ pc.1.set :=
  ⟨_, List.mem_cons_self, View.mem_set_unit_zero off2 inb_S3200x64_S3200x64_0_0 y⟩

/-- THE ACCUMULATOR after the body at position n: the sum so far over the node tiles of this edge tile. -/
def acc1 (c : Dev nD) : (n : ℕ) → n < cfg1.N → Vec F S3200x64 .f32
  | 0, hn => add1 (grid1.coords ⟨0, hn⟩) (blk1 V c 0 ⟨0, hn⟩) (blk1 V c 1 ⟨0, hn⟩) zero1
  | n + 1, hn => add1 (grid1.coords ⟨n + 1, hn⟩) (blk1 V c 0 ⟨n + 1, hn⟩) (blk1 V c 1 ⟨n + 1, hn⟩)
      (if (n + 1) % 50 = 0 then zero1 else acc1 c n (Nat.lt_of_succ_lt hn))

theorem acc1_first (c : Dev nD) (t : Fin cfg1.N) (h : t.val % 50 = 0) :
    acc1 V c t.val t.isLt = add1 (grid1.coords t) (blk1 V c 0 t) (blk1 V c 1 t) zero1 := by
  obtain ⟨n, hn⟩ := t
  cases n with
  | zero => rfl
  | succ n => show add1 _ _ _ (if (n + 1) % 50 = 0 then _ else _) = _; rw [if_pos h]
theorem acc1_next (c : Dev nD) (t : Fin cfg1.N) (h : ¬ t.val % 50 = 0) :
    acc1 V c t.val t.isLt = add1 (grid1.coords t) (blk1 V c 0 t) (blk1 V c 1 t)
      (acc1 V c (t.val - 1) (Nat.lt_of_le_of_lt (Nat.sub_le _ _) t.isLt)) := by
  obtain ⟨n, hn⟩ := t
  cases n with
  | zero => exact absurd (Nat.zero_mod _) h
  | succ n => show add1 _ _ _ (if (n + 1) % 50 = 0 then _ else _) = _; rw [if_neg h]; rfl

/-! ## The invariant between points -/

/-- Every scoped buffer the call neither stages nor accumulates in, each at some contents. -/
abbrev others1 (c : Dev nD) : sProp 𝕄 :=
  Pipeline.scopedRestBut (Ix := Unit) (Name := ℕ) (U := UR sig nD τ) (Lvl := ℕ) (Val := Elt F) spec1 c [cc1_scratch0]

/-- The class invariant with the accumulator split off. -/
theorem PhiA1_split (c : Dev nD) :
    (Pipeline.ΦA spec1 c : sProp 𝕄) = iprop(((∃ d, owns (c : Thread nD τ) scr1 fullShare d) ∗ others1 c) ∗ ∃ r, prngReg c r) := by
  unfold Pipeline.ΦA
  rw [Pipeline.scopedRest_split_of_list spec1 c [cc1_scratch0] (by decide) (by decide)]
  simp only [scr1, owns_whole, bigSepL, others1]
  try rfl

/-- Before the first point the class invariant; afterwards the accumulator at what the point before left. -/
def inv1 (c : Dev nD) : (n : ℕ) → n ≤ cfg1.N → sProp 𝕄
  | 0, _ => Pipeline.ΦA spec1 c
  | n + 1, hn => iprop((owns (c : Thread nD τ) scr1 fullShare (acc1 V c n hn) ∗ others1 c) ∗ ∃ r, prngReg c r)

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop((owns (c : Thread nD τ) scr1 fullShare (acc1 V c n hn) ∗ others1 c) ∗ ∃ r, prngReg c r) := rfl
theorem inv1_pos (c : Dev nD) (n : ℕ) (h : n ≤ cfg1.N) (hz : n ≠ 0) :
    inv1 V c n h = iprop((owns (c : Thread nD τ) scr1 fullShare (acc1 V c (n - 1) (by omega)) ∗ others1 c) ∗ ∃ r, prngReg c r) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = acc1 V c t.val t.isLt := by dsimp only [dat1]
theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_inv_start (c : Dev nD) (t : Fin cfg1.N) :
    (dat1 V c).Φ t.castSucc = inv1 V c t.val (Nat.le_of_lt t.isLt) := by
  dsimp only [dat1]; simp only [Fin.coe_castSucc]

/-! ## The body's run, by case -/

set_option maxHeartbeats 2000000 in
/-- Node tile 0 (not 49): the accumulator, at anything, ends at the first product over zero. -/
theorem run1_first (c : Dev nD) (E : Set ℕ) (i : grid1.Coords) (hf : first1 i) (hl : ¬ last1 i)
    (a2 : Memref sig .tc .vmem S3200x1 .i32) (h2 : a2.IsWhole) (a3 : Memref sig .tc .vmem S1000x64 .f32) (h3 : a3.IsWhole)
    (a4 : Memref sig .tc .vmem S3200x64 .f32) (h4 : a4.IsWhole) (a5 : Memref sig .tc .vmem S3200x64 .f32) (h5 : a5.IsWhole)
    (x : Vec F S3200x1 .i32) (h : Vec F S1000x64 .f32) (K : PUnit → sProp 𝕄) :
    iprop(owns (c : Thread nD τ) a2 fullShare x ∗ owns (c : Thread nD τ) a3 fullShare h ∗ (∃ d, owns (c : Thread nD τ) a5 fullShare d)
        ∗ (iprop(owns (c : Thread nD τ) a2 fullShare x ∗ owns (c : Thread nD τ) a3 fullShare h
            ∗ owns (c : Thread nD τ) a5 fullShare (add1 i x h zero1)) -∗ K ⟨⟩))
      ⊢ wp frame (wpE (defs₀ (F := F)) Variants.none c none) E (cc1__gather_kernel i a2 h2 a3 h3 a4 h4 a5 h5) K := by
  simp only [cc1__gather_kernel_eq_skeleton]; unfold cc1__gather_kernel_skel
  unfold owns
  iintro ⟨⟨%f2, %hf2, H2⟩, ⟨%f3, %hf3, H3⟩, ⟨%d5, %f5, -, H5⟩, Hk⟩
  subst hf2; subst hf3
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  refine (View.read_writes_eq_canon _ _ _ (coverG1 _ _)).trans ?_
  rw [View.canon_cons_unit_zero off2]
  sl_unfold_words
  simp only [View.readAt_eq_ld, View.ld_unit_zero (S := S3200x1) off2, View.ld_unit_zero (S := S1000x64) off2, View.ld_unit_zero (S := S3200x64) off2, View.readCov_unit_zero (S := S3200x64) _ off2]

set_option maxHeartbeats 2000000 in
/-- A node tile strictly between 0 and 49: the accumulator at s ends at s plus this tile's product. -/
theorem run1_mid (c : Dev nD) (E : Set ℕ) (i : grid1.Coords) (hf : ¬ first1 i) (hl : ¬ last1 i)
    (a2 : Memref sig .tc .vmem S3200x1 .i32) (h2 : a2.IsWhole) (a3 : Memref sig .tc .vmem S1000x64 .f32) (h3 : a3.IsWhole)
    (a4 : Memref sig .tc .vmem S3200x64 .f32) (h4 : a4.IsWhole) (a5 : Memref sig .tc .vmem S3200x64 .f32) (h5 : a5.IsWhole)
    (x : Vec F S3200x1 .i32) (h : Vec F S1000x64 .f32) (s : Vec F S3200x64 .f32) (K : PUnit → sProp 𝕄) :
    iprop(owns (c : Thread nD τ) a2 fullShare x ∗ owns (c : Thread nD τ) a3 fullShare h ∗ owns (c : Thread nD τ) a5 fullShare s
        ∗ (iprop(owns (c : Thread nD τ) a2 fullShare x ∗ owns (c : Thread nD τ) a3 fullShare h
            ∗ owns (c : Thread nD τ) a5 fullShare (add1 i x h s)) -∗ K ⟨⟩))
      ⊢ wp frame (wpE (defs₀ (F := F)) Variants.none c none) E (cc1__gather_kernel i a2 h2 a3 h3 a4 h4 a5 h5) K := by
  simp only [cc1__gather_kernel_eq_skeleton]; unfold cc1__gather_kernel_skel
  unfold owns
  iintro ⟨⟨%f2, %hf2, H2⟩, ⟨%f3, %hf3, H3⟩, ⟨%f5, %hf5, H5⟩, Hk⟩
  subst hf2; subst hf3; subst hf5
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  refine (View.read_writes_eq_canon _ _ _ (coverG1 _ _)).trans ?_
  rw [View.canon_cons_unit_zero off2]
  try sl_unfold_words
  simp only [View.readAt_eq_ld, View.ld_unit_zero (S := S3200x1) off2, View.ld_unit_zero (S := S1000x64) off2, View.ld_unit_zero (S := S3200x64) off2, View.readCov_unit_zero (S := S3200x64) _ off2]

set_option maxHeartbeats 2000000 in
/-- Node tile 49 (not 0): the accumulator at s ends at s plus this tile's product, and the result's staging buffer,
    at anything, ends at that same block. -/
theorem run1_last (c : Dev nD) (E : Set ℕ) (i : grid1.Coords) (hf : ¬ first1 i) (hl : last1 i)
    (a2 : Memref sig .tc .vmem S3200x1 .i32) (h2 : a2.IsWhole) (a3 : Memref sig .tc .vmem S1000x64 .f32) (h3 : a3.IsWhole)
    (a4 : Memref sig .tc .vmem S3200x64 .f32) (h4 : a4.IsWhole) (a5 : Memref sig .tc .vmem S3200x64 .f32) (h5 : a5.IsWhole)
    (x : Vec F S3200x1 .i32) (h : Vec F S1000x64 .f32) (s : Vec F S3200x64 .f32) (K : PUnit → sProp 𝕄) :
    iprop(owns (c : Thread nD τ) a2 fullShare x ∗ owns (c : Thread nD τ) a3 fullShare h ∗ (∃ d, owns (c : Thread nD τ) a4 fullShare d)
        ∗ owns (c : Thread nD τ) a5 fullShare s
        ∗ (iprop(owns (c : Thread nD τ) a2 fullShare x ∗ owns (c : Thread nD τ) a3 fullShare h
            ∗ owns (c : Thread nD τ) a4 fullShare (add1 i x h s)
            ∗ owns (c : Thread nD τ) a5 fullShare (add1 i x h s)) -∗ K ⟨⟩))
      ⊢ wp frame (wpE (defs₀ (F := F)) Variants.none c none) E (cc1__gather_kernel i a2 h2 a3 h3 a4 h4 a5 h5) K := by
  simp only [cc1__gather_kernel_eq_skeleton]; unfold cc1__gather_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (coverG1 _ _)).trans ?_
    rw [View.canon_cons_unit_zero off2]
    try sl_unfold_words
    simp only [View.readAt_eq_ld, View.ld_unit_zero (S := S3200x1) off2, View.ld_unit_zero (S := S1000x64) off2, View.ld_unit_zero (S := S3200x64) off2, View.readCov_unit_zero (S := S3200x64) _ off2]
  iexists _; isplitr
  swap; · iexact H5
  ipureintro
  refine (View.read_writes_eq_canon _ _ _ (coverG1 _ _)).trans ?_
  rw [View.canon_cons_unit_zero off2]
  try sl_unfold_words
  simp only [View.readAt_eq_ld, View.ld_unit_zero (S := S3200x1) off2, View.ld_unit_zero (S := S1000x64) off2, View.ld_unit_zero (S := S3200x64) off2, View.readCov_unit_zero (S := S3200x64) _ off2]

/-! ## The body obligation -/

/-- What the body is handed at point t, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (st1_0 t) fullShare ((dat1 V c).after 0 t) from rfl, dat1_after0]
  rw [show (dat1 V c).leavesExact 1 t = owns (c : Thread nD τ) (st1_1 t) fullShare ((dat1 V c).after 1 t) from rfl, dat1_after1]
  have hN : t.val < 12500 := lt_of_lt_of_eq t.isLt (show cfg1.N = 12500 from N_1)
  by_cases h0 : t.val % 50 = 0
  · have hf' : first1 (grid1.coords t) := (first1_iff t).mpr h0
    have hl' : ¬ last1 (grid1.coords t) := fun h => by have := (last1_iff t).mp h; omega
    rw [Dat.leavesExact_idle (dat1 V c) 2 t (idle1_2 t hl') (noflush1_2 t hl')]
    rw [acc1_first V c t h0]
    by_cases hz : t.val = 0
    · rw [dat1_inv_start V c t, inv1_zero V c _ _ hz, PhiA1_split]
      iintro ⟨⟨⟨HS, Hb⟩, Hr⟩, Ho, ⟨%d0, H0⟩, ⟨%d1, H1⟩, ⟨%d2, H2⟩⟩
      iapply (run1_first c Set.univ _ hf' hl' _ _ _ _ _ _ _ _ (blk1 V c 0 t) (blk1 V c 1 t) _)
      isplitl [H0]; · iexact H0
      isplitl [H1]; · iexact H1
      isplitl [HS]; · iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      iexists _; iexact H2
    · rw [dat1_inv_start V c t, inv1_pos V c _ _ hz]
      iintro ⟨⟨⟨HS, Hb⟩, Hr⟩, Ho, ⟨%d0, H0⟩, ⟨%d1, H1⟩, ⟨%d2, H2⟩⟩
      iapply (run1_first c Set.univ _ hf' hl' _ _ _ _ _ _ _ _ (blk1 V c 0 t) (blk1 V c 1 t) _)
      isplitl [H0]; · iexact H0
      isplitl [H1]; · iexact H1
      isplitl [HS]; · iexists _; iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      iexists _; iexact H2
  · have hf' : ¬ first1 (grid1.coords t) := fun h => h0 ((first1_iff t).mp h)
    have hz : t.val ≠ 0 := fun h => h0 (by rw [h])
    rw [acc1_next V c t h0, dat1_inv_start V c t, inv1_pos V c _ _ hz]
    by_cases h1 : t.val % 50 = 49
    · have hl' : last1 (grid1.coords t) := (last1_iff t).mpr h1
      rw [show (dat1 V c).leavesExact 2 t = owns (c : Thread nD τ) (st1_2 t) fullShare ((dat1 V c).after 2 t) from by
        unfold Dat.leavesExact; rw [live1_2 t hl'], dat1_after2, acc1_next V c t h0]
      iintro ⟨⟨⟨HS, Hb⟩, Hr⟩, Ho, ⟨%d0, H0⟩, ⟨%d1, H1⟩, ⟨%d2, H2⟩⟩
      iapply (run1_last c Set.univ _ hf' hl' _ _ _ _ _ _ _ _ (blk1 V c 0 t) (blk1 V c 1 t) _ _)
      isplitl [H0]; · iexact H0
      isplitl [H1]; · iexact H1
      isplitl [H2]; · iexists _; iexact H2
      isplitl [HS]; · iexact HS
      iintro ⟨H0, H1, H2, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      iexact H2
    · have hl' : ¬ last1 (grid1.coords t) := fun h => h1 ((last1_iff t).mp h)
      rw [Dat.leavesExact_idle (dat1 V c) 2 t (idle1_2 t hl') (noflush1_2 t hl')]
      iintro ⟨⟨⟨HS, Hb⟩, Hr⟩, Ho, ⟨%d0, H0⟩, ⟨%d1, H1⟩, ⟨%d2, H2⟩⟩
      iapply (run1_mid c Set.univ _ hf' hl' _ _ _ _ _ _ _ _ (blk1 V c 0 t) (blk1 V c 1 t) _ _)
      isplitl [H0]; · iexact H0
      isplitl [H1]; · iexact H1
      isplitl [HS]; · iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      iexists _; iexact H2

/-- The library's body obligation for the second call, at every point. -/
theorem obligation1 (c : Dev nD) : BodyObligation (dat1 (F := F) V c) (defs₀ (F := F)) Variants.none () Set.univ := fun t => by
  rw [bigSep_W1, bigSep_W1]
  exact body1 V c t

/-- What the launch hands the call is the invariant before the first point. -/
theorem inv1_in (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives the class invariant back: the accumulator's contents are forgotten. -/
theorem inv1_out (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 12500 := N_1; omega), PhiA1_split]
  iintro ⟨⟨HS, Hb⟩, Hr⟩
  isplitl [HS Hb]
  · isplitl [HS]
    · iexists _; iexact HS
    iexact Hb
  iexact Hr

end Cert.KernelIdeal.Hand

end
-- ==== Proof.FI.Call2.lean ====
/-
  The third call (out[n] = (Σ over edges with dst[e] = n of gathered[e]) · norm[n] + bias, as a one-hot
  product accumulated over the 250 edge tiles), stated at the buffer contents V the call finds. Its grid
  is (node tile, edge tile), edge tile fastest. A scratch accumulator is reset at edge tile 0, added
  into at every edge tile, and at edge tile 249 scaled, shifted and stored into the result's staging
  buffer, the only points whose result block is written back.
-/
import proofs.«418634_j45483703664784_1_alg».proof.Proof.Gen.KernelIdeal.Launch
import proofs.«418634_j45483703664784_1_alg».proof.Proof.Gen.KernelIdeal.Skeleton
import proofs.«418634_j45483703664784_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«418634_j45483703664784_1_alg».proof.Proof.FI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t of the third call, read off its array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the accumulator and in the result's buffer -/

/-- The whole-buffer rectangle of the accumulator and of the result block. -/
abbrev rO2 : Rect S1000x64 := Rect.unit (s := S1000x64) ![0, 0] S1000x64.size inb_S1000x64_S1000x64_0_0

/-- Both offsets of a whole-buffer rectangle are zero. -/
theorem off2_2 : (![0, 0] : Fin 2 → ℕ) = fun _ => 0 := by
  funext a; match a with
  | ⟨0, _⟩ => rfl
  | ⟨1, _⟩ => rfl

/-- The accumulator, a whole scoped buffer of the call's own. -/
abbrev scr2 : Memref sig .tc .vmem S1000x64 .f32 := Memref.whole cc2_scratch0

/-- The accumulator after the reset: the zero block. -/
abbrev zero2 : Vec F S1000x64 .f32 := k2_pay1 (F := F)
/-- The accumulator after one edge tile's product (this tile's node numbers against the destination indices d,
    times the tile g of gathered rows) is added to contents s. -/
abbrev add2 (i : grid2.Coords) (d : Vec F S1x3200 .i32) (g : Vec F S3200x64 .f32) (s : Vec F S1000x64 .f32) : Vec F S1000x64 .f32 :=
  k2_pay2 i d g s
/-- The result block: the accumulator s scaled by the norm column n and shifted by the bias row b. -/
abbrev fin2 (s : Vec F S1000x64 .f32) (n : Vec F S1000x1 .f32) (b : Vec F S1x64 .f32) : Vec F S1000x64 .f32 :=
  k2_pay3 s n b

/-- A list of stores whose last one is through the whole-buffer rectangle covers the buffer. -/
theorem coverO2 (p : Vec F S1000x64 .f32) (L : List (View.Piece (Elt F) S1000x64 .f32)) (y : S1000x64.Idx) :
    ∃ pc ∈ ((⟨rO2, p⟩ : View.Piece (Elt F) S1000x64 .f32) :: L), y ∈ pc.1.set :=
  ⟨_, List.mem_cons_self, View.mem_set_unit_zero off2_2 inb_S1000x64_S1000x64_0_0 y⟩

/-- THE ACCUMULATOR after the body at position n: the sum so far over the edge tiles of this node tile. -/
def acc2 (c : Dev nD) : (n : ℕ) → n < cfg2.N → Vec F S1000x64 .f32
  | 0, hn => add2 (grid2.coords ⟨0, hn⟩) (blk2 V c 0 ⟨0, hn⟩) (blk2 V c 1 ⟨0, hn⟩) zero2
  | n + 1, hn => add2 (grid2.coords ⟨n + 1, hn⟩) (blk2 V c 0 ⟨n + 1, hn⟩) (blk2 V c 1 ⟨n + 1, hn⟩)
      (if (n + 1) % 250 = 0 then zero2 else acc2 c n (Nat.lt_of_succ_lt hn))

theorem acc2_first (c : Dev nD) (t : Fin cfg2.N) (h : t.val % 250 = 0) :
    acc2 V c t.val t.isLt = add2 (grid2.coords t) (blk2 V c 0 t) (blk2 V c 1 t) zero2 := by
  obtain ⟨n, hn⟩ := t
  cases n with
  | zero => rfl
  | succ n => show add2 _ _ _ (if (n + 1) % 250 = 0 then _ else _) = _; rw [if_pos h]
theorem acc2_next (c : Dev nD) (t : Fin cfg2.N) (h : ¬ t.val % 250 = 0) :
    acc2 V c t.val t.isLt = add2 (grid2.coords t) (blk2 V c 0 t) (blk2 V c 1 t)
      (acc2 V c (t.val - 1) (Nat.lt_of_le_of_lt (Nat.sub_le _ _) t.isLt)) := by
  obtain ⟨n, hn⟩ := t
  cases n with
  | zero => exact absurd (Nat.zero_mod _) h
  | succ n => show add2 _ _ _ (if (n + 1) % 250 = 0 then _ else _) = _; rw [if_neg h]; rfl

/-! ## The invariant between points -/

/-- Every scoped buffer the call neither stages nor accumulates in, each at some contents. -/
abbrev others2 (c : Dev nD) : sProp 𝕄 :=
  Pipeline.scopedRestBut (Ix := Unit) (Name := ℕ) (U := UR sig nD τ) (Lvl := ℕ) (Val := Elt F) spec2 c [cc2_scratch0]

/-- The class invariant with the accumulator split off. -/
theorem PhiA2_split (c : Dev nD) :
    (Pipeline.ΦA spec2 c : sProp 𝕄) = iprop(((∃ d, owns (c : Thread nD τ) scr2 fullShare d) ∗ others2 c) ∗ ∃ r, prngReg c r) := by
  unfold Pipeline.ΦA
  rw [Pipeline.scopedRest_split_of_list spec2 c [cc2_scratch0] (by decide) (by decide)]
  simp only [scr2, owns_whole, bigSepL, others2]
  try rfl

/-- Before the first point the class invariant; afterwards the accumulator at what the point before left. -/
def inv2 (c : Dev nD) : (n : ℕ) → n ≤ cfg2.N → sProp 𝕄
  | 0, _ => Pipeline.ΦA spec2 c
  | n + 1, hn => iprop((owns (c : Thread nD τ) scr2 fullShare (acc2 V c n hn) ∗ others2 c) ∗ ∃ r, prngReg c r)

theorem inv2_zero (c : Dev nD) (n : ℕ) (h : n ≤ cfg2.N) (hz : n = 0) : inv2 V c n h = Pipeline.ΦA spec2 c := by
  subst hz; rfl
theorem inv2_succ (c : Dev nD) (n : ℕ) (hn : n < cfg2.N) :
    inv2 V c (n + 1) hn = iprop((owns (c : Thread nD τ) scr2 fullShare (acc2 V c n hn) ∗ others2 c) ∗ ∃ r, prngReg c r) := rfl
theorem inv2_pos (c : Dev nD) (n : ℕ) (h : n ≤ cfg2.N) (hz : n ≠ 0) :
    inv2 V c n h = iprop((owns (c : Thread nD τ) scr2 fullShare (acc2 V c (n - 1) (by omega)) ∗ others2 c) ∗ ∃ r, prngReg c r) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => fin2 (acc2 V c t.val t.isLt) (blk2 V c 2 t) (blk2 V c 3 t)
  Φ t := inv2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) :
    (dat2 V c).after 4 t = fin2 (acc2 V c t.val t.isLt) (blk2 V c 2 t) (blk2 V c 3 t) := by dsimp only [dat2]
theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d
theorem dat2_before3 (c : Dev nD) (t : Fin cfg2.N) (d) : (dat2 V c).before 3 t d = blk2 V c 3 t :=
  found2_3 V (dat2 V c) (dat2_A V c 3) (dat2_after3 V c) t d
theorem dat2_inv_start (c : Dev nD) (t : Fin cfg2.N) :
    (dat2 V c).Φ t.castSucc = inv2 V c t.val (Nat.le_of_lt t.isLt) := by
  dsimp only [dat2]; simp only [Fin.coe_castSucc]

/-! ## The body's run, by case -/

set_option maxHeartbeats 2000000 in
/-- Edge tile 0 (not 249): the accumulator, at anything, ends at the first product over zero. -/
theorem run2_first (c : Dev nD) (E : Set ℕ) (i : grid2.Coords) (hf : first2 i) (hl : ¬ last2 i)
    (a2 : Memref sig .tc .vmem S1x3200 .i32) (h2 : a2.IsWhole) (a3 : Memref sig .tc .vmem S3200x64 .f32) (h3 : a3.IsWhole)
    (a4 : Memref sig .tc .vmem S1000x1 .f32) (h4 : a4.IsWhole) (a5 : Memref sig .tc .vmem S1x64 .f32) (h5 : a5.IsWhole)
    (a6 : Memref sig .tc .vmem S1000x64 .f32) (h6 : a6.IsWhole) (a7 : Memref sig .tc .vmem S1000x64 .f32) (h7 : a7.IsWhole)
    (d : Vec F S1x3200 .i32) (g : Vec F S3200x64 .f32) (K : PUnit → sProp 𝕄) :
    iprop(owns (c : Thread nD τ) a2 fullShare d ∗ owns (c : Thread nD τ) a3 fullShare g ∗ (∃ s, owns (c : Thread nD τ) a7 fullShare s)
        ∗ (iprop(owns (c : Thread nD τ) a2 fullShare d ∗ owns (c : Thread nD τ) a3 fullShare g
            ∗ owns (c : Thread nD τ) a7 fullShare (add2 i d g zero2)) -∗ K ⟨⟩))
      ⊢ wp frame (wpE (defs₀ (F := F)) Variants.none c none) E (cc2__scatter_kernel i a2 h2 a3 h3 a4 h4 a5 h5 a6 h6 a7 h7) K := by
  simp only [cc2__scatter_kernel_eq_skeleton]; unfold cc2__scatter_kernel_skel
  unfold owns
  iintro ⟨⟨%f2, %hf2, H2⟩, ⟨%f3, %hf3, H3⟩, ⟨%s7, %f7, -, H7⟩, Hk⟩
  subst hf2; subst hf3
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  refine (View.read_writes_eq_canon _ _ _ (coverO2 _ _)).trans ?_
  rw [View.canon_cons_unit_zero off2_2]
  try sl_unfold_words
  simp only [View.readAt_eq_ld, View.ld_unit_zero (S := S1x3200) off2_2, View.ld_unit_zero (S := S3200x64) off2_2, View.ld_unit_zero (S := S1000x64) off2_2, View.ld_unit_zero (S := S1000x1) off2_2, View.ld_unit_zero (S := S1x64) off2_2, View.readCov_unit_zero (S := S1000x64) _ off2_2]

set_option maxHeartbeats 2000000 in
/-- An edge tile strictly between 0 and 249: the accumulator at s ends at s plus this tile's product. -/
theorem run2_mid (c : Dev nD) (E : Set ℕ) (i : grid2.Coords) (hf : ¬ first2 i) (hl : ¬ last2 i)
    (a2 : Memref sig .tc .vmem S1x3200 .i32) (h2 : a2.IsWhole) (a3 : Memref sig .tc .vmem S3200x64 .f32) (h3 : a3.IsWhole)
    (a4 : Memref sig .tc .vmem S1000x1 .f32) (h4 : a4.IsWhole) (a5 : Memref sig .tc .vmem S1x64 .f32) (h5 : a5.IsWhole)
    (a6 : Memref sig .tc .vmem S1000x64 .f32) (h6 : a6.IsWhole) (a7 : Memref sig .tc .vmem S1000x64 .f32) (h7 : a7.IsWhole)
    (d : Vec F S1x3200 .i32) (g : Vec F S3200x64 .f32) (s : Vec F S1000x64 .f32) (K : PUnit → sProp 𝕄) :
    iprop(owns (c : Thread nD τ) a2 fullShare d ∗ owns (c : Thread nD τ) a3 fullShare g ∗ owns (c : Thread nD τ) a7 fullShare s
        ∗ (iprop(owns (c : Thread nD τ) a2 fullShare d ∗ owns (c : Thread nD τ) a3 fullShare g
            ∗ owns (c : Thread nD τ) a7 fullShare (add2 i d g s)) -∗ K ⟨⟩))
      ⊢ wp frame (wpE (defs₀ (F := F)) Variants.none c none) E (cc2__scatter_kernel i a2 h2 a3 h3 a4 h4 a5 h5 a6 h6 a7 h7) K := by
  simp only [cc2__scatter_kernel_eq_skeleton]; unfold cc2__scatter_kernel_skel
  unfold owns
  iintro ⟨⟨%f2, %hf2, H2⟩, ⟨%f3, %hf3, H3⟩, ⟨%f7, %hf7, H7⟩, Hk⟩
  subst hf2; subst hf3; subst hf7
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  refine (View.read_writes_eq_canon _ _ _ (coverO2 _ _)).trans ?_
  rw [View.canon_cons_unit_zero off2_2]
  try sl_unfold_words
  simp only [View.readAt_eq_ld, View.ld_unit_zero (S := S1x3200) off2_2, View.ld_unit_zero (S := S3200x64) off2_2, View.ld_unit_zero (S := S1000x64) off2_2, View.ld_unit_zero (S := S1000x1) off2_2, View.ld_unit_zero (S := S1x64) off2_2, View.readCov_unit_zero (S := S1000x64) _ off2_2]

set_option maxHeartbeats 2000000 in
/-- Edge tile 249 (not 0): the accumulator at s ends at s plus this tile's product, and the result's staging buffer,
    at anything, ends at that sum scaled by the norm column n and shifted by the bias row b. -/
theorem run2_last (c : Dev nD) (E : Set ℕ) (i : grid2.Coords) (hf : ¬ first2 i) (hl : last2 i)
    (a2 : Memref sig .tc .vmem S1x3200 .i32) (h2 : a2.IsWhole) (a3 : Memref sig .tc .vmem S3200x64 .f32) (h3 : a3.IsWhole)
    (a4 : Memref sig .tc .vmem S1000x1 .f32) (h4 : a4.IsWhole) (a5 : Memref sig .tc .vmem S1x64 .f32) (h5 : a5.IsWhole)
    (a6 : Memref sig .tc .vmem S1000x64 .f32) (h6 : a6.IsWhole) (a7 : Memref sig .tc .vmem S1000x64 .f32) (h7 : a7.IsWhole)
    (d : Vec F S1x3200 .i32) (g : Vec F S3200x64 .f32) (n : Vec F S1000x1 .f32) (b : Vec F S1x64 .f32)
    (s : Vec F S1000x64 .f32) (K : PUnit → sProp 𝕄) :
    iprop(owns (c : Thread nD τ) a2 fullShare d ∗ owns (c : Thread nD τ) a3 fullShare g
        ∗ owns (c : Thread nD τ) a4 fullShare n ∗ owns (c : Thread nD τ) a5 fullShare b
        ∗ (∃ o, owns (c : Thread nD τ) a6 fullShare o)
        ∗ owns (c : Thread nD τ) a7 fullShare s
        ∗ (iprop(owns (c : Thread nD τ) a2 fullShare d ∗ owns (c : Thread nD τ) a3 fullShare g
            ∗ owns (c : Thread nD τ) a4 fullShare n ∗ owns (c : Thread nD τ) a5 fullShare b
            ∗ owns (c : Thread nD τ) a6 fullShare (fin2 (add2 i d g s) n b)
            ∗ owns (c : Thread nD τ) a7 fullShare (add2 i d g s)) -∗ K ⟨⟩))
      ⊢ wp frame (wpE (defs₀ (F := F)) Variants.none c none) E (cc2__scatter_kernel i a2 h2 a3 h3 a4 h4 a5 h5 a6 h6 a7 h7) K := by
  simp only [cc2__scatter_kernel_eq_skeleton]; unfold cc2__scatter_kernel_skel
  unfold owns
  iintro ⟨⟨%f2, %hf2, H2⟩, ⟨%f3, %hf3, H3⟩, ⟨%f4, %hf4, H4⟩, ⟨%f5, %hf5, H5⟩, ⟨%o6, %f6, -, H6⟩, ⟨%f7, %hf7, H7⟩, Hk⟩
  subst hf2; subst hf3; subst hf4; subst hf5; subst hf7
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverO2 _ _)).trans ?_
    rw [View.canon_cons_unit_zero off2_2]
    try sl_unfold_words
    simp only [View.readAt_eq_ld, View.ld_unit_zero (S := S1x3200) off2_2, View.ld_unit_zero (S := S3200x64) off2_2, View.ld_unit_zero (S := S1000x64) off2_2, View.ld_unit_zero (S := S1000x1) off2_2, View.ld_unit_zero (S := S1x64) off2_2, View.readCov_unit_zero (S := S1000x64) _ off2_2]
  iexists _; isplitr
  swap; · iexact H7
  ipureintro
  refine (View.read_writes_eq_canon _ _ _ (coverO2 _ _)).trans ?_
  rw [View.canon_cons_unit_zero off2_2]
  try sl_unfold_words
  simp only [View.readAt_eq_ld, View.ld_unit_zero (S := S1x3200) off2_2, View.ld_unit_zero (S := S3200x64) off2_2, View.ld_unit_zero (S := S1000x64) off2_2, View.ld_unit_zero (S := S1000x1) off2_2, View.ld_unit_zero (S := S1x64) off2_2, View.readCov_unit_zero (S := S1000x64) _ off2_2]

/-! ## The body obligation -/

/-- What the body is handed at point t, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it hands back. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).owesAt () t.succ = (dat2 V c).owesAt () t.castSucc from rfl]
  rw [show (dat2 V c).Φ t.succ = inv2 V c (t.val + 1) t.isLt from rfl, inv2_succ]
  rw [show (dat2 V c).leavesExact 0 t = owns (c : Thread nD τ) (st2_0 t) fullShare ((dat2 V c).after 0 t) from rfl, dat2_after0]
  rw [show (dat2 V c).leavesExact 1 t = owns (c : Thread nD τ) (st2_1 t) fullShare ((dat2 V c).after 1 t) from rfl, dat2_after1]
  rw [show (dat2 V c).leavesExact 2 t = owns (c : Thread nD τ) (st2_2 t) fullShare ((dat2 V c).after 2 t) from rfl, dat2_after2]
  rw [show (dat2 V c).leavesExact 3 t = owns (c : Thread nD τ) (st2_3 t) fullShare ((dat2 V c).after 3 t) from rfl, dat2_after3]
  have hN : t.val < 12500 := lt_of_lt_of_eq t.isLt (show cfg2.N = 12500 from N_2)
  by_cases h0 : t.val % 250 = 0
  · have hf' : first2 (grid2.coords t) := (first2_iff t).mpr h0
    have hl' : ¬ last2 (grid2.coords t) := fun h => by have := (last2_iff t).mp h; omega
    rw [Dat.leavesExact_idle (dat2 V c) 4 t (idle2_4 t hl') (noflush2_4 t hl')]
    rw [acc2_first V c t h0]
    by_cases hz : t.val = 0
    · rw [dat2_inv_start V c t, inv2_zero V c _ _ hz, PhiA2_split]
      iintro ⟨⟨⟨HS, Hb⟩, Hr⟩, Ho, ⟨%d0, H0⟩, ⟨%d1, H1⟩, ⟨%d2, H2⟩, ⟨%d3, H3⟩, ⟨%d4, H4⟩⟩
      iapply (run2_first c Set.univ _ hf' hl' _ _ _ _ _ _ _ _ _ _ _ _ (blk2 V c 0 t) (blk2 V c 1 t) _)
      isplitl [H0]; · iexact H0
      isplitl [H1]; · iexact H1
      isplitl [HS]; · iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      isplitl [H2]; · iexact H2
      isplitl [H3]; · iexact H3
      iexists _; iexact H4
    · rw [dat2_inv_start V c t, inv2_pos V c _ _ hz]
      iintro ⟨⟨⟨HS, Hb⟩, Hr⟩, Ho, ⟨%d0, H0⟩, ⟨%d1, H1⟩, ⟨%d2, H2⟩, ⟨%d3, H3⟩, ⟨%d4, H4⟩⟩
      iapply (run2_first c Set.univ _ hf' hl' _ _ _ _ _ _ _ _ _ _ _ _ (blk2 V c 0 t) (blk2 V c 1 t) _)
      isplitl [H0]; · iexact H0
      isplitl [H1]; · iexact H1
      isplitl [HS]; · iexists _; iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      isplitl [H2]; · iexact H2
      isplitl [H3]; · iexact H3
      iexists _; iexact H4
  · have hf' : ¬ first2 (grid2.coords t) := fun h => h0 ((first2_iff t).mp h)
    have hz : t.val ≠ 0 := fun h => h0 (by rw [h])
    rw [acc2_next V c t h0, dat2_inv_start V c t, inv2_pos V c _ _ hz]
    by_cases h1 : t.val % 250 = 249
    · have hl' : last2 (grid2.coords t) := (last2_iff t).mpr h1
      rw [show (dat2 V c).leavesExact 4 t = owns (c : Thread nD τ) (st2_4 t) fullShare ((dat2 V c).after 4 t) from by
        unfold Dat.leavesExact; rw [live2_4 t hl'], dat2_after4, acc2_next V c t h0]
      iintro ⟨⟨⟨HS, Hb⟩, Hr⟩, Ho, ⟨%d0, H0⟩, ⟨%d1, H1⟩, ⟨%d2, H2⟩, ⟨%d3, H3⟩, ⟨%d4, H4⟩⟩
      iapply (run2_last c Set.univ _ hf' hl' _ _ _ _ _ _ _ _ _ _ _ _ (blk2 V c 0 t) (blk2 V c 1 t) (blk2 V c 2 t) (blk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      isplitl [H2]; · iexact H2
      isplitl [H3]; · iexact H3
      iexact H4
    · have hl' : ¬ last2 (grid2.coords t) := fun h => h1 ((last2_iff t).mp h)
      rw [Dat.leavesExact_idle (dat2 V c) 4 t (idle2_4 t hl') (noflush2_4 t hl')]
      iintro ⟨⟨⟨HS, Hb⟩, Hr⟩, Ho, ⟨%d0, H0⟩, ⟨%d1, H1⟩, ⟨%d2, H2⟩, ⟨%d3, H3⟩, ⟨%d4, H4⟩⟩
      iapply (run2_mid c Set.univ _ hf' hl' _ _ _ _ _ _ _ _ _ _ _ _ (blk2 V c 0 t) (blk2 V c 1 t) _ _)
      isplitl [H0]; · iexact H0
      isplitl [H1]; · iexact H1
      isplitl [HS]; · iexact HS
      iintro ⟨H0, H1, HS⟩
      isplitl [HS Hb Hr]
      · isplitl [HS Hb]
        · isplitl [HS]; · iexact HS
          iexact Hb
        iexact Hr
      isplitl [Ho]; · iexact Ho
      isplitl [H0]; · iexact H0
      isplitl [H1]; · iexact H1
      isplitl [H2]; · iexact H2
      isplitl [H3]; · iexact H3
      iexists _; iexact H4

/-- The library's body obligation for the third call, at every point. -/
theorem obligation2 (c : Dev nD) : BodyObligation (dat2 (F := F) V c) (defs₀ (F := F)) Variants.none () Set.univ := fun t => by
  rw [bigSep_W2, bigSep_W2]
  exact body2 V c t

/-- What the launch hands the call is the invariant before the first point. -/
theorem inv2_in (c : Dev nD) : Pipeline.ΦA spec2 c ⊢ (dat2 V c).Φ 0 := by
  rw [show (dat2 V c).Φ 0 = inv2 V c 0 (Nat.zero_le _) from rfl, inv2_zero V c 0 _ rfl]
  try exact Idealize.SL.BI.Entails.refl _

/-- After the last point the invariant gives the class invariant back: the accumulator's contents are forgotten. -/
theorem inv2_out (c : Dev nD) : (dat2 V c).Φ (Fin.last cfg2.N) ⊢ Pipeline.ΦA spec2 c := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 12500 := N_2; omega), PhiA2_split]
  iintro ⟨⟨HS, Hb⟩, Hr⟩
  isplitl [HS Hb]
  · isplitl [HS]
    · iexists _; iexact HS
    iexact Hb
  iexact Hr

end Cert.KernelIdeal.Hand

end
-- ==== Proof.FI.Chain.lean ====
/-
  The buffer contents at every boundary of @main, a fold from the launch memory: a stretch of host
  operations applies them; a call leaves its arrays at what its write-backs leave (the operand arrays
  as entered, the result array at the fold of the written-back blocks) and every other buffer as entered.
  W0 launch, W1..W3 after the three host stretches (W3 is what the first call finds), W4 after the first
  call, W5 after the reshapes of src and dst (what the second call finds), W6 after the second call,
  W7 after the reshape of the bias (what the third call finds), W8 after the third call.
-/
import proofs.«418634_j45483703664784_1_alg».proof.Proof.FI.Call0
import proofs.«418634_j45483703664784_1_alg».proof.Proof.FI.Call1
import proofs.«418634_j45483703664784_1_alg».proof.Proof.FI.Call2
import proofs.«418634_j45483703664784_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- What the first call finds, read at the TensorCore's references. -/
abbrev E3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b

abbrev W5 : Dev nD → Valuation τ sig (Elt F) := fun c => StableHlo.after hostOps1 (W4 m c)
/-- What the second call finds. -/
abbrev E5 : (c : Dev nD) → (b : Ref sig .tc) → Buf (Elt F) ((c : Thread nD τ).loc b) := fun c b => W5 m c b

def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b

abbrev W7 : Dev nD → Valuation τ sig (Elt F) := fun c => StableHlo.after hostOps2 (W6 m c)
/-- What the third call finds. -/
abbrev E7 : (c : Dev nD) → (b : Ref sig .tc) → Buf (Elt F) ((c : Thread nD τ).loc b) := fun c b => W7 m c b

def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev E8 : (c : Dev nD) → (b : Ref sig .tc) → Buf (Elt F) ((c : Thread nD τ).loc b) := fun c b => W8 m c b

end Cert.KernelIdeal.Hand

end
-- ==== Proof.FI.Run.lean ====
/-
  The run of @main from the launch to the return. @main is eight items: three stretches of host
  operations, the first call, a stretch (the reshapes of src and dst), the second call, a stretch (the
  reshape of the bias), the third call. Each item is a segment over one thread state: every unscoped
  buffer of the core at the contents of the boundary before it (W0 .. W8, a fold from the launch
  memory), the core's generator register at some state, and the core owing nothing. A stretch of host
  operations takes the buffers from W to the contents after its operations. A call takes its arrays
  out of the unscoped buffers, hands the generator register and the scoped buffers no window stages
  to its invariant at the first point, gets them back from the invariant at the last point (the second
  and third calls keep an accumulator among them between points and forget its contents at the end),
  and puts its arrays back at what the write-backs leave. Each segment is entered from exactly what
  the one before it left, so the launch runs @main to every unscoped buffer at W8; and an argument of
  @main, which no operation writes and no call has as a result, holds at W8 what it held at launch.
-/
import proofs.«418634_j45483703664784_1_alg».proof.Proof.FI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What a call leaves: its arrays at the write-backs' fold, every other buffer as found -/

theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)
theorem hF2 (c : Dev nD) (w : Fin cfg2.W) : (dat2 (E7 m) c).arrAt w cfg2.N = E8 m c (Pipeline.arrRef spec2 w) :=
  (W8_arr m c w).symm
theorem hrest2 (c : Dev nD) : ∀ b, b ∉ Finset.univ.image (Pipeline.arrRef spec2) → E8 m c b = E7 m c b :=
  fun b hb => W8_of_ne m c b fun w e => hb (Finset.mem_image.mpr ⟨w, Finset.mem_univ _, e⟩)

/-! ## The arguments end as launched

No host operation writes an argument and no call has one as its result (the first call reads the
features and the weights through operand windows, whose arrays end as entered; the edge list and the
bias bypass every call), so the fold at an argument's buffer walks back to the launch memory. -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (E3 m) c).arrAt_in 0 rfl _).trans (dat0_A (E3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := (W4_arr m c 2).trans (((dat0 (E3 m) c).arrAt_in 2 rfl _).trans (dat0_A (E3 m) c 2))
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-! ## The proof data family and the thread state -/

/-- Every call's proof data, each at the contents its call finds. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the
    core owing nothing. -/
abbrev R (c : Dev nD) : sProp 𝕄 := iprop((∃ r, prngReg c r) ∗ ∃ W, owes (c : Thread nD τ) (0 : CellTallies nD τ sig Unit) W)
/-- A stretch of host operations as a segment: from the unscoped buffers at W to the same buffers after the
    operations, the rest of the thread state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The calls as segments -/

set_option backward.isDefEq.respectTransparency.types false in
/-- The first call over the thread state: entered from every unscoped buffer at W3, left at W4. Its arrays
    are split out of the unscoped buffers and put back at the contents the write-backs leave; the generator
    register goes into the class invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at W5, left at W6. Its arrays
    are split out of the unscoped buffers and put back at the contents the write-backs leave; the generator
    register and the scoped rest make the invariant before the first point, and the invariant after the last point gives them back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E5 m) c).Φ 0 from rfl]
    refine BIBase.Entails.trans ?_ (inv1_in (E5 m) c)
    unfold Pipeline.ΦA
    iintro ⟨Hp, -, Hr⟩
    isplitl [Hr]; · iexact Hr
    iexact Hp
  hout c := by
    rw [Pipeline.ownSems0_none, show (pdats m 1 c).Φ (Fin.last _) = (dat1 (E5 m) c).Φ (Fin.last cfg1.N) from rfl]
    refine BIBase.Entails.trans (inv1_out (E5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call over the thread state: entered from every unscoped buffer at W7, left at W8. Its arrays
    are split out of the unscoped buffers and put back at the contents the write-backs leave; the generator
    register and the scoped rest make the invariant before the first point, and the invariant after the last point gives them back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E7 m) c).Φ 0 from rfl]
    refine BIBase.Entails.trans ?_ (inv2_in (E7 m) c)
    unfold Pipeline.ΦA
    iintro ⟨Hp, -, Hr⟩
    isplitl [Hr]; · iexact Hr
    iexact Hp
  hout c := by
    rw [Pipeline.ownSems0_none, show (pdats m 2 c).Φ (Fin.last _) = (dat2 (E7 m) c).Φ (Fin.last cfg2.N) from rfl]
    refine BIBase.Entails.trans (inv2_out (E7 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]
/-- @main is the run of the segments. -/
theorem main_run (c : Dev nD) : main (F := F) c = Pipeline.Seg.run (segs m) := (main_chain c).trans (by chain_rfl)

set_option backward.isDefEq.respectTransparency.types false in
/-- From any memory with zero counters, every weakly fair execution of @main on the TensorCores terminates, nothing
    faulting, and every final state holds every unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Hand

end
-- ==== Proof.Spec.lean ====
/-
  The three stages of the graph convolution as functions of whole arrays, index by index, over the
  extended reals.

  h[p, q]   = Σ over the 256 input features k of (feat[p, k] · norm[p]) · weight[k, q]
  g[e, q]   = Σ over the 50000 nodes n of [src[e] is the number n] · h[n, q]      (a row gather as a one-hot product)
  out[n, q] = (Σ over the 800000 edges e of [dst[e] is the number n] · g[e, q]) · norm[n] + bias[q]
              (a row scatter-add as a one-hot product, then the rescale and the shift)

  The bracket is the indicator of equality of 32-bit words: a node number below 2^31 is a word, and an index
  word that is no node number matches none.
-/
import Idealize.ShloMosaic.PureOps.Ideal
import Idealize.ShloMosaic.Lib.ValueIdx

noncomputable section

namespace Cert.Spec

open Idealize.ShloMosaic Idealize.ShloMosaic.ValueIdx

/-- 1 when the 32-bit word w is the number n, else 0. -/
def hot (w : BitVec 32) (n : ℕ) : EReal := if w = BitVec.ofNat 32 n then 1 else 0

/-- Stage one: the normalised features times the weights. -/
def hAt (X : (⟨2, ![50000, 256]⟩ : Shape).Idx → EReal) (Nrm : (⟨2, ![50000, 1]⟩ : Shape).Idx → EReal)
    (Wt : (⟨2, ![256, 64]⟩ : Shape).Idx → EReal) (p : Fin 50000) (q : Fin 64) : EReal :=
  ∑ k : Fin 256, (X (ix2 p k) * Nrm (ix2 p (0 : Fin 1))) * Wt (ix2 k q)

/-- Stage two: row src[e] of H, as a sum over all nodes against the indicator. -/
def gAt (S : (⟨2, ![800000, 1]⟩ : Shape).Idx → BitVec 32) (H : (⟨2, ![50000, 64]⟩ : Shape).Idx → EReal)
    (e : Fin 800000) (q : Fin 64) : EReal :=
  ∑ n : Fin 50000, hot (S (ix2 e (0 : Fin 1))) n.val * H (ix2 n q)

/-- Stage three: the rows of G whose edge points at node n, summed, rescaled and shifted. -/
def oAt (D : (⟨2, ![1, 800000]⟩ : Shape).Idx → BitVec 32) (G : (⟨2, ![800000, 64]⟩ : Shape).Idx → EReal)
    (Nrm : (⟨2, ![50000, 1]⟩ : Shape).Idx → EReal) (B : (⟨2, ![1, 64]⟩ : Shape).Idx → EReal)
    (n : Fin 50000) (q : Fin 64) : EReal :=
  (∑ e : Fin 800000, hot (D (ix2 (0 : Fin 1) e)) n.val * G (ix2 e q)) * Nrm (ix2 n (0 : Fin 1)) + B (ix2 (0 : Fin 1) q)

/-! ## The same, as whole arrays, and the composition -/

abbrev SX : Shape := ⟨2, ![50000, 256]⟩
abbrev SW : Shape := ⟨2, ![256, 64]⟩
abbrev SB : Shape := ⟨1, ![64]⟩
abbrev SE : Shape := ⟨2, ![2, 800000]⟩
abbrev SN : Shape := ⟨1, ![50000]⟩
abbrev SNc : Shape := ⟨2, ![50000, 1]⟩
abbrev SH : Shape := ⟨2, ![50000, 64]⟩
abbrev SS : Shape := ⟨2, ![800000, 1]⟩
abbrev SD : Shape := ⟨2, ![1, 800000]⟩
abbrev SG : Shape := ⟨2, ![800000, 64]⟩
abbrev SBr : Shape := ⟨2, ![1, 64]⟩

def hArr (X : SX.Idx → EReal) (Nrm : SNc.Idx → EReal) (Wt : SW.Idx → EReal) : SH.Idx → EReal :=
  fun j => hAt X Nrm Wt (j 0) (j 1)
def gArr (S : SS.Idx → BitVec 32) (H : SH.Idx → EReal) : SG.Idx → EReal :=
  fun j => gAt S H (j 0) (j 1)
def oArr (D : SD.Idx → BitVec 32) (G : SG.Idx → EReal) (Nrm : SNc.Idx → EReal) (B : SBr.Idx → EReal) : SH.Idx → EReal :=
  fun j => oAt D G Nrm B (j 0) (j 1)

/-- Row 0 of the edge list as a column of source indices; row 1 as a row of destination indices. -/
def srcCol (ei : SE.Idx → BitVec 32) : SS.Idx → BitVec 32 := fun j => ei (ix2 (0 : Fin 2) (j 0))
def dstRow (ei : SE.Idx → BitVec 32) : SD.Idx → BitVec 32 := fun j => ei (ix2 (1 : Fin 2) (j 1))
/-- A vector over the nodes as a one-column matrix; a vector over the output features as a one-row matrix. -/
def col (v : SN.Idx → EReal) : SNc.Idx → EReal := fun j => v (ix1 (j 0))
def row (b : SB.Idx → EReal) : SBr.Idx → EReal := fun j => b (ix1 (j 1))

/-- THE RESULT: the three stages composed, from the features, the weights, the bias, the edge list and the
    per-node normaliser. -/
def out (X : SX.Idx → EReal) (Wt : SW.Idx → EReal) (b : SB.Idx → EReal) (ei : SE.Idx → BitVec 32) (nrm : SN.Idx → EReal) :
    SH.Idx → EReal :=
  oArr (dstRow ei) (gArr (srcCol ei) (hArr X (col nrm) Wt)) (col nrm) (row b)

theorem hArr_apply (X : SX.Idx → EReal) (Nrm : SNc.Idx → EReal) (Wt : SW.Idx → EReal) (p : Fin 50000) (q : Fin 64) :
    hArr X Nrm Wt (ix2 p q) = hAt X Nrm Wt p q := rfl
theorem gArr_apply (S : SS.Idx → BitVec 32) (H : SH.Idx → EReal) (e : Fin 800000) (q : Fin 64) :
    gArr S H (ix2 e q) = gAt S H e q := rfl
theorem oArr_apply (D : SD.Idx → BitVec 32) (G : SG.Idx → EReal) (Nrm : SNc.Idx → EReal) (B : SBr.Idx → EReal) (n : Fin 50000) (q : Fin 64) :
    oArr D G Nrm B (ix2 n q) = oAt D G Nrm B n q := rfl

end Cert.Spec

end
-- ==== Proof.FI.Val0.lean ====
/-
  The first call's result array at the ideal instance: after the run it holds, index by index, the
  normalised features times the weights (Cert.Spec.hArr of the three operand arrays as the call found them).
-/
import proofs.«418634_j45483703664784_1_alg».proof.Proof.FI.Call0
import proofs.«418634_j45483703664784_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Val0

/-! ## The body's arithmetic at an index

The contraction pairs row r of the left operand with column q of the right one: the left operand is read at
(r, k), the right one at (k, q), for k over the 256 contracted positions. -/

theorem lhs0_0 (i : S1000x64.Idx) (q : dot_S1000x256_S256x64_S1000x64_1_0_0_1_n_n.contr.Idx) :
    (dot_S1000x256_S256x64_S1000x64_1_0_0_1_n_n.lhsIdx i q 0).val = (i 0).val := by
  unfold DotDims.lhsIdx
  rw [dif_neg (show ¬(0 : Fin S1000x256.rank) ∈ dot_S1000x256_S256x64_S1000x64_1_0_0_1_n_n.lhsBatch by decide), dif_pos (show (0 : Fin S1000x256.rank) ∈ dot_S1000x256_S256x64_S1000x64_1_0_0_1_n_n.lhsNonContracting by decide)]
  rfl
theorem lhs0_1 (i : S1000x64.Idx) (q : dot_S1000x256_S256x64_S1000x64_1_0_0_1_n_n.contr.Idx) :
    (dot_S1000x256_S256x64_S1000x64_1_0_0_1_n_n.lhsIdx i q 1).val = (q ⟨0, by decide⟩).val :=
  dot_S1000x256_S256x64_S1000x64_1_0_0_1_n_n.lhsIdx_val_of_single rfl i q
theorem rhs0_0 (i : S1000x64.Idx) (q : dot_S1000x256_S256x64_S1000x64_1_0_0_1_n_n.contr.Idx) :
    (dot_S1000x256_S256x64_S1000x64_1_0_0_1_n_n.rhsIdx i q 0).val = (q ⟨0, by decide⟩).val :=
  dot_S1000x256_S256x64_S1000x64_1_0_0_1_n_n.rhsIdx_val_of_single rfl i q
theorem rhs0_1 (i : S1000x64.Idx) (q : dot_S1000x256_S256x64_S1000x64_1_0_0_1_n_n.contr.Idx) :
    (dot_S1000x256_S256x64_S1000x64_1_0_0_1_n_n.rhsIdx i q 1).val = (i 1).val := by
  unfold DotDims.rhsIdx
  rw [dif_neg (show ¬(1 : Fin S256x64.rank) ∈ dot_S1000x256_S256x64_S1000x64_1_0_0_1_n_n.rhsBatch by decide), dif_pos (show (1 : Fin S256x64.rank) ∈ dot_S1000x256_S256x64_S1000x64_1_0_0_1_n_n.rhsNonContracting by decide)]
  rfl

/-- The product into the zero block, at an index: the sum over the 256 contracted positions. -/
theorem mm0_apply (a : FVec Ideal S1000x256 .bf16) (b : FVec Ideal S256x64 .bf16) (r : Fin 1000) (q : Fin 64) :
    FloatOps.matmul dot_S1000x256_S256x64_S1000x64_1_0_0_1_n_n none a b (constant (F := Ideal) S1000x64 .f32 0x00000000#32) (ix2 r q)
      = ∑ k : Fin 256, a (ix2 r k) * b (ix2 k q) := by
  rw [Ideal.matmul_constant_zero_apply, ← Equiv.sum_comp (ValueIdx.contrEquiv1 dot_S1000x256_S256x64_S1000x64_1_0_0_1_n_n 256 rfl rfl).symm]
  refine Finset.sum_congr rfl fun k _ => ?_
  have hk := ValueIdx.contrEquiv1_symm_val dot_S1000x256_S256x64_S1000x64_1_0_0_1_n_n 256 rfl rfl k
  have el : dot_S1000x256_S256x64_S1000x64_1_0_0_1_n_n.lhsIdx (ix2 r q) ((ValueIdx.contrEquiv1 dot_S1000x256_S256x64_S1000x64_1_0_0_1_n_n 256 rfl rfl).symm k) = ix2 r k := funext fun a => Fin.ext (by
    match a with
    | ⟨0, _⟩ => exact lhs0_0 _ _
    | ⟨1, _⟩ => exact (lhs0_1 _ _).trans hk)
  have er : dot_S1000x256_S256x64_S1000x64_1_0_0_1_n_n.rhsIdx (ix2 r q) ((ValueIdx.contrEquiv1 dot_S1000x256_S256x64_S1000x64_1_0_0_1_n_n 256 rfl rfl).symm k) = ix2 k q := funext fun a => Fin.ext (by
    match a with
    | ⟨0, _⟩ => exact (rhs0_0 _ _).trans hk
    | ⟨1, _⟩ => exact rhs0_1 _ _)
  rw [el, er]

/-- The column of scale factors spread over the 256 feature positions, at an index. -/
theorem bc0_apply (n : Vec Ideal S1000x1 .f32) (r : Fin 1000) (k : Fin 256) :
    broadcastTo S1000x256 n broadcasts_S1000x1_S1000x256 (ix2 r k) = n (ix2 r (0 : Fin 1)) := by
  refine broadcastTo_apply n broadcasts_S1000x1_S1000x256 (ix2 r k) (ix2 r (0 : Fin 1)) (fun a => ?_)
  match a with
  | ⟨0, _⟩ => show r.val = if (1000 : Nat) = 1 then 0 else r.val; rw [if_neg (by decide)]
  | ⟨1, _⟩ => show 0 = if (1 : Nat) = 1 then 0 else k.val; rw [if_pos rfl]

/-- The body's arithmetic at an index of the result block. -/
theorem pay0_apply (x : Vec Ideal S1000x256 .f32) (n : Vec Ideal S1000x1 .f32) (w : Vec Ideal S256x64 .f32) (r : Fin 1000) (q : Fin 64) :
    k0_pay1 (F := Ideal) x n w (ix2 r q) = ∑ k : Fin 256, (x (ix2 r k) * n (ix2 r (0 : Fin 1))) * w (ix2 k q) := by
  unfold k0_pay1
  refine (mm0_apply _ _ r q).trans ?_
  refine Finset.sum_congr rfl fun k _ => ?_
  rw [shapeCast_self]
  show (x (ix2 r k) * broadcastTo S1000x256 n broadcasts_S1000x1_S1000x256 (ix2 r k)) * w (ix2 k q) = _
  rw [bc0_apply]

/-! ## Where the blocks sit -/

/-- The block indices of the four windows at a point: the row blocks follow the point, the weights stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem emb0_0 (t : Fin cfg0.N) (r : Fin 1000) (k : Fin 256) (h : t.val * 1000 + r.val < 50000) :
    ((cfg0.win 0).blk t).view.emb (ix2 r k) = ix2 (⟨t.val * 1000 + r.val, h⟩ : Fin 50000) k := by
  obtain ⟨e0, e1, -⟩ := idx_facts0 t
  funext a; apply Fin.ext
  match a with
  | ⟨0, _⟩ => show win0_0.index t (0 : Fin 2) * 1000 + 1 * r.val = t.val * 1000 + r.val; rw [e0]; omega
  | ⟨1, _⟩ => show win0_0.index t (1 : Fin 2) * 256 + 1 * k.val = k.val; rw [e1]; omega

theorem emb0_1 (t : Fin cfg0.N) (r : Fin 1000) (k : Fin 1) (h : t.val * 1000 + r.val < 50000) :
    ((cfg0.win 1).blk t).view.emb (ix2 r k) = ix2 (⟨t.val * 1000 + r.val, h⟩ : Fin 50000) k := by
  obtain ⟨-, -, e0, e1, -⟩ := idx_facts0 t
  funext a; apply Fin.ext
  match a with
  | ⟨0, _⟩ => show win0_1.index t (0 : Fin 2) * 1000 + 1 * r.val = t.val * 1000 + r.val; rw [e0]; omega
  | ⟨1, _⟩ => show win0_1.index t (1 : Fin 2) * 1 + 1 * k.val = k.val; rw [e1]; omega

theorem emb0_2 (t : Fin cfg0.N) (k : Fin 256) (q : Fin 64) :
    ((cfg0.win 2).blk t).view.emb (ix2 k q) = ix2 k q := by
  obtain ⟨-, -, -, -, e0, e1, -⟩ := idx_facts0 t
  funext a; apply Fin.ext
  match a with
  | ⟨0, _⟩ => show win0_2.index t (0 : Fin 2) * 256 + 1 * k.val = k.val; rw [e0]; omega
  | ⟨1, _⟩ => show win0_2.index t (1 : Fin 2) * 64 + 1 * q.val = q.val; rw [e1]; omega

theorem emb0_3 (t : Fin cfg0.N) (r : Fin 1000) (q : Fin 64) (h : t.val * 1000 + r.val < 50000) :
    ((cfg0.win 3).blk t).view.emb (ix2 r q) = ix2 (⟨t.val * 1000 + r.val, h⟩ : Fin 50000) q := by
  obtain ⟨-, -, -, -, -, -, e0, e1⟩ := idx_facts0 t
  funext a; apply Fin.ext
  match a with
  | ⟨0, _⟩ => show win0_3.index t (0 : Fin 2) * 1000 + 1 * r.val = t.val * 1000 + r.val; rw [e0]; omega
  | ⟨1, _⟩ => show win0_3.index t (1 : Fin 2) * 64 + 1 * q.val = q.val; rw [e1]; omega

/-- WHAT POINT t WRITES BACK: rows 1000 t … 1000 t + 999 of the specified array. -/
theorem flushed0_eq (c : Dev nD) (t : Fin cfg0.N) :
    (dat0 (F := Ideal) V c).flushed 3 t
      = ((cfg0.win 3).blk t).view.read (Elt Ideal) (Cert.Spec.hArr (V c main_arg0) (V c main_v11) (V c main_arg1)) := by
  show (dat0 (F := Ideal) V c).after 3 t = _
  rw [dat0_after3]
  funext j
  obtain ⟨r, q, rfl⟩ : ∃ (r : Fin 1000) (q : Fin 64), j = ix2 r q := ⟨j 0, j 1, eq_ix2 j⟩
  have ht : t.val < 50 := t.isLt
  have hr : t.val * 1000 + r.val < 50000 := by have := r.isLt; omega
  refine (pay0_apply _ _ _ r q).trans ?_
  rw [View.read_apply, emb0_3 t r q hr, Cert.Spec.hArr_apply]
  unfold Cert.Spec.hAt
  refine Finset.sum_congr rfl fun k _ => ?_
  unfold blk0
  rw [View.read_apply, View.read_apply, View.read_apply, emb0_0 t r k hr, emb0_1 t r 0 hr, emb0_2 t k q]
  rfl

/-- An index of the array is in point t's block iff each coordinate is in the block's range on its axis. -/
theorem mem_blk0 (t : Fin cfg0.N) (i : S50000x64.Idx) :
    i ∈ ((cfg0.win 3).blk t).view.set ↔ ∀ a : Fin 2, win0_3.index t a * S1000x64.size a ≤ (i a).val ∧ (i a).val < win0_3.index t a * S1000x64.size a + S1000x64.size a := by
  show i ∈ ((View.whole main_v12).slice (win0_3.rect t)).set ↔ _
  rw [View.set_slice_whole, Rect.mem_set_unit]
  exact Iff.rfl

/-- Every row lies in the block of the point numbered by its thousand. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  refine ⟨⟨(i 0).val / 1000, by show (i 0).val / 1000 < 50; omega⟩, flush0_3 _, ?_⟩
  rw [mem_blk0]
  obtain ⟨-, -, -, -, -, -, e0, e1⟩ := idx_facts0 ⟨(i 0).val / 1000, by show (i 0).val / 1000 < 50; omega⟩
  intro a
  match a with
  | ⟨0, _⟩ => show win0_3.index _ (0 : Fin 2) * 1000 ≤ (i 0).val ∧ (i 0).val < win0_3.index _ (0 : Fin 2) * 1000 + 1000; rw [e0]; show (i 0).val / 1000 * 1000 ≤ _ ∧ _ < (i 0).val / 1000 * 1000 + 1000; omega
  | ⟨1, _⟩ => show win0_3.index _ (1 : Fin 2) * 64 ≤ (i 1).val ∧ (i 1).val < win0_3.index _ (1 : Fin 2) * 64 + 64; rw [e1]; omega

end Val0

theorem h_value (c : Dev nD) :
    ((dat0 (F := Ideal) V c).arrAt 3 cfg0.N : Cert.Spec.SH.Idx → EReal)
      = Cert.Spec.hArr (V c main_arg0) (V c main_v11) (V c main_arg1) :=
  (dat0 (F := Ideal) V c).arrAt_eq_of_cover 3 _ (fun t _ => Val0.flushed0_eq V c t) Val0.cover0

end Cert.KernelIdeal.Hand

end
-- ==== Proof.FI.Val1.lean ====
/-
  The second call's result array at the ideal instance: after the run it holds, index by index, the
  one-hot product of the source indices against all 50000 rows of h (Cert.Spec.gArr of the two operand
  arrays as the call found them): the sum over the 50 node tiles of each tile's product.
-/
import proofs.«418634_j45483703664784_1_alg».proof.Proof.FI.Call1
import proofs.«418634_j45483703664784_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The indicator, word by word -/

/-- The indicator of equality of two words, as the comparison, the widening and the integer-to-float
    conversion compute it. -/
theorem hot_word (w b : BitVec 32) :
    (FloatOps.sitofp (F := Ideal) .f32 ((IntOp.cmpi .eq w b).setWidth 32) : EReal) = if w = b then 1 else 0 := by
  unfold IntOp.cmpi
  by_cases h : w = b
  · rw [if_pos h]
    have e : (w == b) = true := by rw [h]; exact beq_self_eq_true b
    rw [e]
    show (((((BitVec.ofBool true).setWidth 32).toInt : ℤ) : ℝ) : EReal) = 1
    have : ((BitVec.ofBool true).setWidth 32).toInt = 1 := by decide
    rw [this]; norm_num
  · rw [if_neg h]
    have e : (w == b) = false := by
      cases hb : (w == b)
      · rfl
      · exact absurd (eq_of_beq hb) h
    rw [e]
    show (((((BitVec.ofBool false).setWidth 32).toInt : ℤ) : ℝ) : EReal) = 0
    have : ((BitVec.ofBool false).setWidth 32).toInt = 0 := by decide
    rw [this]; norm_num

/-- A tile's first node number plus a position in the tile, as words. -/
theorem word_tile (a j : ℕ) :
    IntOp.addi (Scalar.muli (BitVec.ofNat 32 a) 1000#32) (BitVec.ofNat 32 j) = BitVec.ofNat 32 (a * 1000 + j) := by
  show BitVec.ofNat 32 a * 1000#32 + BitVec.ofNat 32 j = _
  rw [show (1000#32 : BitVec 32) = BitVec.ofNat 32 1000 from rfl, ← BitVec.ofNat_mul, ← BitVec.ofNat_add]

/-! ## The product of one node tile, at an index -/

theorem lhs_k1_0 (i : S3200x64.Idx) (q : dot_S3200x1000_S1000x64_S3200x64_1_0_0_1_n_n.contr.Idx) :
    (dot_S3200x1000_S1000x64_S3200x64_1_0_0_1_n_n.lhsIdx i q 0).val = (i 0).val := by
  unfold DotDims.lhsIdx
  rw [dif_neg (show ¬(0 : Fin S3200x1000.rank) ∈ dot_S3200x1000_S1000x64_S3200x64_1_0_0_1_n_n.lhsBatch by decide), dif_pos (show (0 : Fin S3200x1000.rank) ∈ dot_S3200x1000_S1000x64_S3200x64_1_0_0_1_n_n.lhsNonContracting by decide)]
  rfl
theorem lhs_k1_1 (i : S3200x64.Idx) (q : dot_S3200x1000_S1000x64_S3200x64_1_0_0_1_n_n.contr.Idx) :
    (dot_S3200x1000_S1000x64_S3200x64_1_0_0_1_n_n.lhsIdx i q 1).val = (q ⟨0, by decide⟩).val :=
  dot_S3200x1000_S1000x64_S3200x64_1_0_0_1_n_n.lhsIdx_val_of_single rfl i q
theorem rhs_k1_0 (i : S3200x64.Idx) (q : dot_S3200x1000_S1000x64_S3200x64_1_0_0_1_n_n.contr.Idx) :
    (dot_S3200x1000_S1000x64_S3200x64_1_0_0_1_n_n.rhsIdx i q 0).val = (q ⟨0, by decide⟩).val :=
  dot_S3200x1000_S1000x64_S3200x64_1_0_0_1_n_n.rhsIdx_val_of_single rfl i q
theorem rhs_k1_1 (i : S3200x64.Idx) (q : dot_S3200x1000_S1000x64_S3200x64_1_0_0_1_n_n.contr.Idx) :
    (dot_S3200x1000_S1000x64_S3200x64_1_0_0_1_n_n.rhsIdx i q 1).val = (i 1).val := by
  unfold DotDims.rhsIdx
  rw [dif_neg (show ¬(1 : Fin S1000x64.rank) ∈ dot_S3200x1000_S1000x64_S3200x64_1_0_0_1_n_n.rhsBatch by decide), dif_pos (show (1 : Fin S1000x64.rank) ∈ dot_S3200x1000_S1000x64_S3200x64_1_0_0_1_n_n.rhsNonContracting by decide)]
  rfl

/-- The edge indices broadcast along the node axis read the edge's own index. -/
theorem src_bcast (x : Vec Ideal S3200x1 .i32) (r : Fin 3200) (k : Fin 1000) :
    broadcastTo S3200x1000 x broadcasts_S3200x1_S3200x1000 (ix2 r k) = x (ix2 r (0 : Fin 1)) :=
  broadcastTo_apply x broadcasts_S3200x1_S3200x1000 (ix2 r k) (ix2 r (0 : Fin 1)) (fun a => match a with
    | ⟨0, _⟩ => by show r.val = if (3200 : Nat) = 1 then 0 else r.val; rw [if_neg (by decide)]
    | ⟨1, _⟩ => by show 0 = if (1 : Nat) = 1 then 0 else _; rw [if_pos rfl])

/-- The node numbers of the tile broadcast along the edge axis read the tile's first number plus the position. -/
theorem node_bcast (a : ℕ) (r : Fin 3200) (k : Fin 1000) :
    broadcastTo S3200x1000 (addi (broadcast S1x1000 (Scalar.muli (BitVec.ofNat 32 a) 1000#32)) (iota .tc S1x1000 32 [1] iota_S1x1000_d1_w32))
      broadcasts_S1x1000_S3200x1000 (ix2 r k) = BitVec.ofNat 32 (a * 1000 + k.val) := by
  refine (broadcastTo_apply _ broadcasts_S1x1000_S3200x1000 (ix2 r k) (ix2 (0 : Fin 1) k) (fun a => match a with
    | ⟨0, _⟩ => by show 0 = if (1 : Nat) = 1 then 0 else _; rw [if_pos rfl]
    | ⟨1, _⟩ => by show k.val = if (1000 : Nat) = 1 then 0 else k.val; rw [if_neg (by decide)])).trans ?_
  show IntOp.addi (Scalar.muli (BitVec.ofNat 32 a) 1000#32) (iota .tc S1x1000 32 [1] iota_S1x1000_d1_w32 (ix2 (0 : Fin 1) k)) = _
  rw [iota_single_apply]
  exact word_tile a k.val

/-- ONE NODE TILE ADDED: at an index, the contents before plus the sum over the tile's 1000 nodes of the indicator
    that the edge's source is that node times the node's row. -/
theorem add1_apply (i : grid1.Coords) (x : Vec Ideal S3200x1 .i32) (h : Vec Ideal S1000x64 .f32) (s : Vec Ideal S3200x64 .f32)
    (r : Fin 3200) (q : Fin 64) :
    add1 (F := Ideal) i x h s (ix2 r q)
      = s (ix2 r q) + ∑ j : Fin 1000, Cert.Spec.hot (x (ix2 r (0 : Fin 1))) ((i 1).val * 1000 + j.val) * h (ix2 j q) := by
  unfold add1 k1_pay2
  simp only [shapeCast_self]
  refine (addf_apply _ _ _).trans ?_
  refine congrArg (s (ix2 r q) + ·) ?_
  refine (Ideal.matmul_constant_zero_apply dot_S3200x1000_S1000x64_S3200x64_1_0_0_1_n_n none _ _ (ix2 r q)).trans ?_
  rw [← Equiv.sum_comp (contrEquiv1 dot_S3200x1000_S1000x64_S3200x64_1_0_0_1_n_n 1000 rfl rfl).symm]
  refine Finset.sum_congr rfl fun k _ => ?_
  have hk := contrEquiv1_symm_val dot_S3200x1000_S1000x64_S3200x64_1_0_0_1_n_n 1000 rfl rfl k
  have el : dot_S3200x1000_S1000x64_S3200x64_1_0_0_1_n_n.lhsIdx (ix2 r q) ((contrEquiv1 dot_S3200x1000_S1000x64_S3200x64_1_0_0_1_n_n 1000 rfl rfl).symm k) = ix2 r k := funext fun a => Fin.ext (by
    match a with
    | ⟨0, _⟩ => exact lhs_k1_0 _ _
    | ⟨1, _⟩ => exact (lhs_k1_1 _ _).trans hk)
  have er : dot_S3200x1000_S1000x64_S3200x64_1_0_0_1_n_n.rhsIdx (ix2 r q) ((contrEquiv1 dot_S3200x1000_S1000x64_S3200x64_1_0_0_1_n_n 1000 rfl rfl).symm k) = ix2 k q := funext fun a => Fin.ext (by
    match a with
    | ⟨0, _⟩ => exact (rhs_k1_0 _ _).trans hk
    | ⟨1, _⟩ => exact rhs_k1_1 _ _)
  rw [el, er]
  refine congrArg (· * h (ix2 k q)) ?_
  show FloatOps.sitofp (F := Ideal) .f32 ((IntOp.cmpi .eq (broadcastTo S3200x1000 x broadcasts_S3200x1_S3200x1000 (ix2 r k))
      (broadcastTo S3200x1000 (addi (broadcast S1x1000 (Scalar.muli (BitVec.ofNat 32 (i 1).val) 1000#32)) (iota .tc S1x1000 32 [1] iota_S1x1000_d1_w32))
        broadcasts_S1x1000_S3200x1000 (ix2 r k))).setWidth 32) = _
  rw [src_bcast, node_bcast, hot_word]
  rfl

/-! ## Where a point's blocks sit in their arrays -/

/-- The grid's coordinates of point t: the edge tile t / 50 and the node tile t % 50. -/
theorem coords1_0 (t : Fin cfg1.N) : (grid1.coords t 0).val = t.val / 50 := by
  have hN : t.val < 12500 := lt_of_lt_of_eq t.isLt (show cfg1.N = 12500 from N_1)
  show t.val / grid1.stride 0 % 250 = _
  rw [show grid1.stride 0 = 50 from by decide]
  omega
theorem coords1_1 (t : Fin cfg1.N) : (grid1.coords t 1).val = t.val % 50 := by
  show t.val / grid1.stride 1 % 50 = _
  rw [show grid1.stride 1 = 1 from by decide]
  omega

/-- The block indices of the three windows at point t. -/
theorem idx1_0 (t : Fin cfg1.N) : win1_0.index t 0 = t.val / 50 ∧ win1_0.index t 1 = 0 := by
  have hN : t.val < 12500 := lt_of_lt_of_eq t.isLt (show cfg1.N = 12500 from N_1)
  refine ⟨?_, rfl⟩
  show (BitVec.ofNat 32 (grid1.coords t 0).val).toNat = _
  rw [BitVec.toNat_ofNat, coords1_0]
  exact Nat.mod_eq_of_lt (by omega)
theorem idx1_1 (t : Fin cfg1.N) : win1_1.index t 0 = t.val % 50 ∧ win1_1.index t 1 = 0 := by
  refine ⟨?_, rfl⟩
  show (BitVec.ofNat 32 (grid1.coords t 1).val).toNat = _
  rw [BitVec.toNat_ofNat, coords1_1]
  exact Nat.mod_eq_of_lt (by omega)
theorem idx1_2 (t : Fin cfg1.N) : win1_2.index t 0 = t.val / 50 ∧ win1_2.index t 1 = 0 := by
  have hN : t.val < 12500 := lt_of_lt_of_eq t.isLt (show cfg1.N = 12500 from N_1)
  refine ⟨?_, rfl⟩
  show (BitVec.ofNat 32 (grid1.coords t 0).val).toNat = _
  rw [BitVec.toNat_ofNat, coords1_0]
  exact Nat.mod_eq_of_lt (by omega)

/-- The source block of point t is rows 3200 · (t / 50) … of the source column. -/
theorem blk1_0_apply (c : Dev nD) (t : Fin cfg1.N) (r : Fin 3200) (p : Fin 800000) (hp : p.val = 3200 * (t.val / 50) + r.val) :
    blk1 V c 0 t (ix2 r (0 : Fin 1)) = V c main_v13 (ix2 p (0 : Fin 1)) := by
  unfold blk1
  rw [View.read_apply]
  show V c main_v13 _ = V c main_v13 _
  congr 1
  funext a
  apply Fin.ext
  match a with
  | ⟨0, _⟩ => show win1_0.index t 0 * 3200 + 1 * r.val = p.val; rw [(idx1_0 t).1, hp]; omega
  | ⟨1, _⟩ => show win1_0.index t 1 * 1 + 1 * 0 = 0; rw [(idx1_0 t).2]

/-- The block of h at point t is rows 1000 · (t % 50) … of h. -/
theorem blk1_1_apply (c : Dev nD) (t : Fin cfg1.N) (j : Fin 1000) (q : Fin 64) (n : Fin 50000) (hn : n.val = (t.val % 50) * 1000 + j.val) :
    blk1 V c 1 t (ix2 j q) = V c main_v12 (ix2 n q) := by
  unfold blk1
  rw [View.read_apply]
  show V c main_v12 _ = V c main_v12 _
  congr 1
  funext a
  apply Fin.ext
  match a with
  | ⟨0, _⟩ => show win1_1.index t 0 * 1000 + 1 * j.val = n.val; rw [(idx1_1 t).1, hn]; omega
  | ⟨1, _⟩ => show win1_1.index t 1 * 64 + 1 * q.val = q.val; rw [(idx1_1 t).2]; omega

/-! ## The accumulator as a sum over the nodes so far -/

/-- The zero block reads zero. -/
theorem zero1_apply (j : S3200x64.Idx) : zero1 (F := Ideal) j = 0 := by
  unfold zero1 k1_pay1
  simp only [shapeCast_self]
  exact Ideal.ofBits_zero_f32

/-- The indicator that the word w is the node n, times row n of H at column q, as a function of the number n
    (zero past the last node). -/
def term1 (w : BitVec 32) (H : Cert.Spec.SH.Idx → EReal) (q : Fin 64) (n : ℕ) : EReal :=
  if hn : n < 50000 then Cert.Spec.hot w n * H (ix2 ⟨n, hn⟩ q) else 0

/-- The product of the node tile of point t, at row r of the block (edge p of the whole list) and column q: the sum
    of the terms of the tile's 1000 node numbers. -/
theorem tile1 (c : Dev nD) (t : Fin cfg1.N) (r : Fin 3200) (q : Fin 64) (p : Fin 800000) (hp : p.val = 3200 * (t.val / 50) + r.val) :
    ∑ j : Fin 1000, Cert.Spec.hot (blk1 V c 0 t (ix2 r (0 : Fin 1))) ((grid1.coords t 1).val * 1000 + j.val) * blk1 V c 1 t (ix2 j q)
      = ∑ j ∈ Finset.range 1000, term1 (V c main_v13 (ix2 p (0 : Fin 1))) (V c main_v12) q ((t.val % 50) * 1000 + j) := by
  rw [Finset.sum_range]
  refine Finset.sum_congr rfl fun j _ => ?_
  have hj : (t.val % 50) * 1000 + j.val < 50000 := by have := j.isLt; omega
  unfold term1
  rw [dif_pos hj, blk1_0_apply V c t r p hp, blk1_1_apply V c t j q ⟨_, hj⟩ rfl, coords1_1]

/-- THE ACCUMULATOR at node tile k of an edge tile: the sum of the terms of the first (k + 1) · 1000 nodes. -/
theorem acc1_sum (c : Dev nD) : ∀ (k : ℕ) (t : Fin cfg1.N), t.val % 50 = k → ∀ (r : Fin 3200) (q : Fin 64) (p : Fin 800000),
    p.val = 3200 * (t.val / 50) + r.val →
    acc1 V c t.val t.isLt (ix2 r q)
      = ∑ n ∈ Finset.range ((k + 1) * 1000), term1 (V c main_v13 (ix2 p (0 : Fin 1))) (V c main_v12) q n
  | 0, t, hk, r, q, p, hp => by
    rw [acc1_first V c t hk]
    refine (add1_apply _ _ _ _ r q).trans ?_
    rw [tile1 V c t r q p hp, hk, zero1_apply, zero_add]
    exact Finset.sum_congr rfl fun j _ => by rw [Nat.zero_mul, Nat.zero_add]
  | k + 1, t, hk, r, q, p, hp => by
    have h0 : ¬ t.val % 50 = 0 := by omega
    have ht : t.val - 1 < cfg1.N := Nat.lt_of_le_of_lt (Nat.sub_le _ _) t.isLt
    rw [acc1_next V c t h0]
    refine (add1_apply _ _ _ _ r q).trans ?_
    rw [tile1 V c t r q p hp, hk,
      acc1_sum c k ⟨t.val - 1, ht⟩ (by show (t.val - 1) % 50 = k; omega) r q p (by show p.val = 3200 * ((t.val - 1) / 50) + r.val; omega),
      show (k + 1 + 1) * 1000 = (k + 1) * 1000 + 1000 by omega, Finset.sum_range_add]

/-- All 50000 terms are the specification's sum over the nodes. -/
theorem sum_term1 (w : BitVec 32) (H : Cert.Spec.SH.Idx → EReal) (q : Fin 64) :
    ∑ n ∈ Finset.range 50000, term1 w H q n = ∑ n : Fin 50000, Cert.Spec.hot w n.val * H (ix2 n q) := by
  rw [Finset.sum_range]
  refine Finset.sum_congr rfl fun n _ => ?_
  unfold term1
  rw [dif_pos n.isLt]

/-! ## The result array -/

/-- Point t's block of an array over the result's indices reads the array at rows 3200 · (t / 50) …. -/
theorem read_blk1_2 (G : Cert.Spec.SG.Idx → EReal) (t : Fin cfg1.N) (r : Fin 3200) (q : Fin 64) (p : Fin 800000)
    (hp : p.val = 3200 * (t.val / 50) + r.val) :
    ((cfg1.win 2).blk t).view.read (Elt Ideal) G (ix2 r q) = G (ix2 p q) := by
  rw [View.read_apply]
  show G _ = G _
  congr 1
  funext a
  apply Fin.ext
  match a with
  | ⟨0, _⟩ => show win1_2.index t 0 * 3200 + 1 * r.val = p.val; rw [(idx1_2 t).1, hp]; omega
  | ⟨1, _⟩ => show win1_2.index t 1 * 64 + 1 * q.val = q.val; rw [(idx1_2 t).2]; omega

/-- WHAT A FLUSHING POINT WRITES BACK is its block of the specification's array. -/
theorem flushed1_eq (c : Dev nD) (t : Fin cfg1.N) (hf : (cfg1.win 2).flush t = true) :
    (dat1 (F := Ideal) V c).flushed 2 t
      = ((cfg1.win 2).blk t).view.read (Elt Ideal) (Cert.Spec.gArr (V c main_v13) (V c main_v12)) := by
  have h49 : t.val % 50 = 49 := (flush1_2 t).mp hf
  have hN : t.val < 12500 := lt_of_lt_of_eq t.isLt (show cfg1.N = 12500 from N_1)
  show (dat1 (F := Ideal) V c).after 2 t = _
  rw [dat1_after2]
  funext j
  obtain ⟨r, q, rfl⟩ : ∃ (r : Fin 3200) (q : Fin 64), j = ix2 r q := ⟨j 0, j 1, eq_ix2 (n0 := 3200) (n1 := 64) j⟩
  have hp : 3200 * (t.val / 50) + r.val < 800000 := by have := r.isLt; omega
  have hR := read_blk1_2 (Cert.Spec.gArr (V c main_v13) (V c main_v12)) t r q ⟨_, hp⟩ rfl
  rw [Cert.Spec.gArr_apply] at hR
  refine ((acc1_sum V c 49 t h49 r q ⟨_, hp⟩ rfl).trans (sum_term1 _ _ q)).trans ?_
  rw [hR]
  unfold Cert.Spec.gAt
  rfl

/-- An index of the result array is in point t's block iff each coordinate is in the block's range on its axis. -/
theorem mem_blk1_2 (t : Fin cfg1.N) (i : Cert.Spec.SG.Idx) :
    i ∈ ((cfg1.win 2).blk t).view.set ↔ ∀ a : Fin 2, win1_2.index t a * S3200x64.size a ≤ (i a).val ∧ (i a).val < win1_2.index t a * S3200x64.size a + S3200x64.size a := by
  show i ∈ ((View.whole main_v15).slice (win1_2.rect t)).set ↔ _
  rw [View.set_slice_whole, Rect.mem_set_unit]
  exact Iff.rfl

/-- Every index of the result array is in the block of the last node tile's point of its edge tile. -/
theorem cover1 (i : Cert.Spec.SG.Idx) :
    ∃ t : Fin cfg1.N, (cfg1.win 2).flush t = true ∧ i ∈ ((cfg1.win 2).blk t).view.set := by
  have hi0 : (i 0).val < 800000 := (i 0).isLt
  have hi1 : (i 1).val < 64 := (i 1).isLt
  have ht : 50 * ((i 0).val / 3200) + 49 < cfg1.N := by rw [show cfg1.N = 12500 from N_1]; omega
  refine ⟨⟨50 * ((i 0).val / 3200) + 49, ht⟩, (flush1_2 _).mpr (by show (50 * ((i 0).val / 3200) + 49) % 50 = 49; omega), ?_⟩
  rw [mem_blk1_2]
  intro a
  match a with
  | ⟨0, _⟩ =>
    show win1_2.index ⟨50 * ((i 0).val / 3200) + 49, ht⟩ 0 * 3200 ≤ (i 0).val ∧ (i 0).val < win1_2.index ⟨50 * ((i 0).val / 3200) + 49, ht⟩ 0 * 3200 + 3200
    rw [(idx1_2 _).1]
    show (50 * ((i 0).val / 3200) + 49) / 50 * 3200 ≤ (i 0).val ∧ (i 0).val < (50 * ((i 0).val / 3200) + 49) / 50 * 3200 + 3200
    omega
  | ⟨1, _⟩ =>
    show win1_2.index ⟨50 * ((i 0).val / 3200) + 49, ht⟩ 1 * 64 ≤ (i 1).val ∧ (i 1).val < win1_2.index ⟨50 * ((i 0).val / 3200) + 49, ht⟩ 1 * 64 + 64
    rw [(idx1_2 _).2]
    omega

/-- THE RESULT ARRAY of the second call: the one-hot product of the source indices against all of h. -/
theorem g_value (c : Dev nD) :
    ((dat1 (F := Ideal) V c).arrAt 2 cfg1.N : Cert.Spec.SG.Idx → EReal)
      = Cert.Spec.gArr (V c main_v13) (V c main_v12) :=
  (dat1 (F := Ideal) V c).arrAt_eq_of_cover 2 (Cert.Spec.gArr (V c main_v13) (V c main_v12))
    (fun t hf => flushed1_eq V c t hf) cover1

end Cert.KernelIdeal.Hand

end
-- ==== Proof.FI.Val2.lean ====
/-
  The third call's result array at the ideal instance: after the run it holds, index by index, the
  one-hot product of the node numbers against the destination indices over all 800000 gathered rows,
  scaled by the norm and shifted by the bias (Cert.Spec.oArr of the four operand arrays as the call
  found them): the sum over the 250 edge tiles of each tile's product, then the epilogue.
-/
import proofs.«418634_j45483703664784_1_alg».proof.Proof.FI.Call2
import proofs.«418634_j45483703664784_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Val2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## Words: the node number of a row, and the indicator -/

/-- Row j of node tile a has the node number a * 1000 + j, as a word. -/
theorem word_tile (a j : ℕ) : BitVec.ofNat 32 a * 1000#32 + BitVec.ofNat 32 j = BitVec.ofNat 32 (a * 1000 + j) := by
  rw [show (1000#32 : BitVec 32) = BitVec.ofNat 32 1000 from rfl, ← BitVec.ofNat_mul, ← BitVec.ofNat_add]

/-- The comparison bit, zero-extended and converted, is the indicator that the word w is the number n. -/
theorem hot_word (w : BitVec 32) (n : ℕ) :
    (FloatOps.sitofp (F := Ideal) .f32 ((IntOp.cmpi .eq (BitVec.ofNat 32 n) w).setWidth 32) : EReal) = Cert.Spec.hot w n := by
  show (((((BitVec.ofBool (BitVec.ofNat 32 n == w)).setWidth 32).toInt : ℝ)) : EReal) = if w = BitVec.ofNat 32 n then 1 else 0
  by_cases h : w = BitVec.ofNat 32 n
  · rw [if_pos h, h]; simp
  · rw [if_neg h]
    have hb : (BitVec.ofNat 32 n == w) = false := by
      rw [beq_eq_false_iff_ne]; exact fun e => h e.symm
    rw [hb]; simp

/-! ## The body's three payloads at an index -/

/-- The reset block is zero everywhere. -/
theorem zero2_apply (y : S1000x64.Idx) : zero2 (F := Ideal) y = 0 := by
  unfold zero2 k2_pay1
  rw [shapeCast_self]
  exact Ideal.ofBits_zero_f32

/-- The epilogue at (r, q): the accumulator scaled by the row's norm and shifted by the column's bias. -/
theorem fin2_apply (s : Vec Ideal S1000x64 .f32) (n : Vec Ideal S1000x1 .f32) (b : Vec Ideal S1x64 .f32)
    (r : Fin 1000) (q : Fin 64) :
    fin2 s n b (ix2 r q) = s (ix2 r q) * n (ix2 r (0 : Fin 1)) + b (ix2 (0 : Fin 1) q) := by
  unfold fin2 k2_pay3
  simp only [shapeCast_self]
  show s (ix2 r q) * broadcastTo S1000x64 n broadcasts_S1000x1_S1000x64 (ix2 r q)
      + broadcastTo S1000x64 b broadcasts_S1x64_S1000x64 (ix2 r q) = _
  rw [broadcastTo_apply n broadcasts_S1000x1_S1000x64 (ix2 r q) (ix2 r (0 : Fin 1)) (fun a => match a with
      | ⟨0, _⟩ => by show r.val = if (1000 : ℕ) = 1 then 0 else r.val; rw [if_neg (by decide)]
      | ⟨1, _⟩ => by show 0 = if (1 : ℕ) = 1 then 0 else q.val; rw [if_pos rfl]),
    broadcastTo_apply b broadcasts_S1x64_S1000x64 (ix2 r q) (ix2 (0 : Fin 1) q) (fun a => match a with
      | ⟨0, _⟩ => by show 0 = if (1 : ℕ) = 1 then 0 else r.val; rw [if_pos rfl]
      | ⟨1, _⟩ => by show q.val = if (64 : ℕ) = 1 then 0 else q.val; rw [if_neg (by decide)])]

/-- The product's operand indices, axis by axis. -/
theorem lhs_k2_0 (i : S1000x64.Idx) (k : dot_S1000x3200_S3200x64_S1000x64_1_0_0_1_n_n.contr.Idx) :
    (dot_S1000x3200_S3200x64_S1000x64_1_0_0_1_n_n.lhsIdx i k 0).val = (i 0).val := by
  unfold DotDims.lhsIdx
  rw [dif_neg (show ¬(0 : Fin S1000x3200.rank) ∈ dot_S1000x3200_S3200x64_S1000x64_1_0_0_1_n_n.lhsBatch by decide), dif_pos (show (0 : Fin S1000x3200.rank) ∈ dot_S1000x3200_S3200x64_S1000x64_1_0_0_1_n_n.lhsNonContracting by decide)]
  rfl
theorem lhs_k2_1 (i : S1000x64.Idx) (k : dot_S1000x3200_S3200x64_S1000x64_1_0_0_1_n_n.contr.Idx) :
    (dot_S1000x3200_S3200x64_S1000x64_1_0_0_1_n_n.lhsIdx i k 1).val = (k ⟨0, by decide⟩).val :=
  dot_S1000x3200_S3200x64_S1000x64_1_0_0_1_n_n.lhsIdx_val_of_single rfl i k
theorem rhs_k2_0 (i : S1000x64.Idx) (k : dot_S1000x3200_S3200x64_S1000x64_1_0_0_1_n_n.contr.Idx) :
    (dot_S1000x3200_S3200x64_S1000x64_1_0_0_1_n_n.rhsIdx i k 0).val = (k ⟨0, by decide⟩).val :=
  dot_S1000x3200_S3200x64_S1000x64_1_0_0_1_n_n.rhsIdx_val_of_single rfl i k
theorem rhs_k2_1 (i : S1000x64.Idx) (k : dot_S1000x3200_S3200x64_S1000x64_1_0_0_1_n_n.contr.Idx) :
    (dot_S1000x3200_S3200x64_S1000x64_1_0_0_1_n_n.rhsIdx i k 1).val = (i 1).val := by
  unfold DotDims.rhsIdx
  rw [dif_neg (show ¬(1 : Fin S3200x64.rank) ∈ dot_S1000x3200_S3200x64_S1000x64_1_0_0_1_n_n.rhsBatch by decide), dif_pos (show (1 : Fin S3200x64.rank) ∈ dot_S1000x3200_S3200x64_S1000x64_1_0_0_1_n_n.rhsNonContracting by decide)]
  rfl

/-- The product of a [1000, 3200] block with a [3200, 64] block into the zero block, at (r, q). -/
theorem matmul_k2_apply (x : FVec Ideal S1000x3200 .bf16) (y : FVec Ideal S3200x64 .bf16) (r : Fin 1000) (q : Fin 64) :
    matmul dot_S1000x3200_S3200x64_S1000x64_1_0_0_1_n_n none x y (constant S1000x64 .f32 0x00000000#32) (ix2 r q)
      = ∑ j : Fin 3200, x (ix2 r j) * y (ix2 j q) := by
  show FloatOps.matmul dot_S1000x3200_S3200x64_S1000x64_1_0_0_1_n_n none x y (constant S1000x64 .f32 0x00000000#32) (ix2 r q) = _
  rw [Ideal.matmul_constant_zero_apply, ← Equiv.sum_comp (ValueIdx.contrEquiv1 dot_S1000x3200_S3200x64_S1000x64_1_0_0_1_n_n 3200 rfl rfl).symm]
  refine Finset.sum_congr rfl fun k _ => ?_
  have hk := ValueIdx.contrEquiv1_symm_val dot_S1000x3200_S3200x64_S1000x64_1_0_0_1_n_n 3200 rfl rfl k
  have el : dot_S1000x3200_S3200x64_S1000x64_1_0_0_1_n_n.lhsIdx (ix2 r q) ((ValueIdx.contrEquiv1 dot_S1000x3200_S3200x64_S1000x64_1_0_0_1_n_n 3200 rfl rfl).symm k) = ix2 r k := funext fun a => Fin.ext (by
    match a with
    | ⟨0, _⟩ => exact lhs_k2_0 _ _
    | ⟨1, _⟩ => exact (lhs_k2_1 _ _).trans hk)
  have er : dot_S1000x3200_S3200x64_S1000x64_1_0_0_1_n_n.rhsIdx (ix2 r q) ((ValueIdx.contrEquiv1 dot_S1000x3200_S3200x64_S1000x64_1_0_0_1_n_n 3200 rfl rfl).symm k) = ix2 k q := funext fun a => Fin.ext (by
    match a with
    | ⟨0, _⟩ => exact (rhs_k2_0 _ _).trans hk
    | ⟨1, _⟩ => exact rhs_k2_1 _ _)
  rw [el, er]

/-- One edge tile's step at (r, q): the contents plus, over the tile's 3200 edges, the indicator that the edge's
    destination is this row's node times the edge's gathered row. -/
theorem add2_apply (i : grid2.Coords) (d : Vec Ideal S1x3200 .i32) (g : Vec Ideal S3200x64 .f32) (s : Vec Ideal S1000x64 .f32)
    (r : Fin 1000) (q : Fin 64) :
    add2 i d g s (ix2 r q)
      = s (ix2 r q) + ∑ j : Fin 3200, Cert.Spec.hot (d (ix2 (0 : Fin 1) j)) ((i 0).val * 1000 + r.val) * g (ix2 j q) := by
  unfold add2 k2_pay2
  simp only [shapeCast_self]
  refine (addf_apply _ _ _).trans ?_
  refine congrArg (s (ix2 r q) + ·) ?_
  refine (matmul_k2_apply _ _ r q).trans ?_
  refine Finset.sum_congr rfl fun j _ => ?_
  refine congrArg (· * g (ix2 j q)) ?_
  show FloatOps.sitofp (F := Ideal) .f32 ((IntOp.cmpi .eq
      (broadcastTo S1000x3200 (addi (broadcast S1000x1 (Scalar.muli (BitVec.ofNat 32 (i 0).val) 1000#32)) (iota .tc S1000x1 32 [0] iota_S1000x1_d0_w32)) broadcasts_S1000x1_S1000x3200 (ix2 r j))
      (broadcastTo S1000x3200 d broadcasts_S1x3200_S1000x3200 (ix2 r j))).setWidth 32) = _
  rw [broadcastTo_apply _ broadcasts_S1000x1_S1000x3200 (ix2 r j) (ix2 r (0 : Fin 1)) (fun a => match a with
      | ⟨0, _⟩ => by show r.val = if (1000 : ℕ) = 1 then 0 else r.val; rw [if_neg (by decide)]
      | ⟨1, _⟩ => by show 0 = if (1 : ℕ) = 1 then 0 else j.val; rw [if_pos rfl]),
    broadcastTo_apply d broadcasts_S1x3200_S1000x3200 (ix2 r j) (ix2 (0 : Fin 1) j) (fun a => match a with
      | ⟨0, _⟩ => by show 0 = if (1 : ℕ) = 1 then 0 else r.val; rw [if_pos rfl]
      | ⟨1, _⟩ => by show j.val = if (3200 : ℕ) = 1 then 0 else j.val; rw [if_neg (by decide)])]
  show FloatOps.sitofp (F := Ideal) .f32 ((IntOp.cmpi .eq
      (BitVec.ofNat 32 (i 0).val * 1000#32 + iota .tc S1000x1 32 [0] iota_S1000x1_d0_w32 (ix2 r (0 : Fin 1)))
      (d (ix2 (0 : Fin 1) j))).setWidth 32) = _
  rw [iota_single_apply, show ((ix2 r (0 : Fin 1) : S1000x1.Idx) 0).val = r.val from rfl, word_tile]
  exact hot_word _ _

/-! ## The grid's coordinates and the windows' block indices at a point -/

theorem lt2 (t : Fin cfg2.N) : t.val < 12500 := by
  exact Nat.lt_of_lt_of_eq (show t.val < grid2.N from t.isLt) N_2

/-- The node tile of point t … -/
theorem coords2_0 (t : Fin cfg2.N) : (grid2.coords t 0).val = t.val / 250 := by
  have ht := lt2 t
  show t.val / grid2.stride 0 % 50 = _
  rw [show grid2.stride 0 = 250 from by decide]
  omega
/-- … and its edge tile. -/
theorem coords2_1 (t : Fin cfg2.N) : (grid2.coords t 1).val = t.val % 250 := by
  show t.val / grid2.stride 1 % 250 = _
  rw [show grid2.stride 1 = 1 from by decide, Nat.div_one]

theorem index2_0 (t : Fin cfg2.N) : win2_0.index t 0 = 0 ∧ win2_0.index t 1 = t.val % 250 := by
  refine ⟨rfl, ?_⟩
  show (BitVec.ofNat 32 (grid2.coords t 1).val).toNat = _
  rw [BitVec.toNat_ofNat, coords2_1, Nat.mod_eq_of_lt (by omega)]
theorem index2_1 (t : Fin cfg2.N) : win2_1.index t 0 = t.val % 250 ∧ win2_1.index t 1 = 0 := by
  refine ⟨?_, rfl⟩
  show (BitVec.ofNat 32 (grid2.coords t 1).val).toNat = _
  rw [BitVec.toNat_ofNat, coords2_1, Nat.mod_eq_of_lt (by omega)]
theorem index2_2 (t : Fin cfg2.N) : win2_2.index t 0 = t.val / 250 ∧ win2_2.index t 1 = 0 := by
  have ht := lt2 t
  refine ⟨?_, rfl⟩
  show (BitVec.ofNat 32 (grid2.coords t 0).val).toNat = _
  rw [BitVec.toNat_ofNat, coords2_0, Nat.mod_eq_of_lt (by omega)]
theorem index2_3 (t : Fin cfg2.N) : win2_3.index t 0 = 0 ∧ win2_3.index t 1 = 0 := ⟨rfl, rfl⟩
theorem index2_4 (t : Fin cfg2.N) : win2_4.index t 0 = t.val / 250 ∧ win2_4.index t 1 = 0 := by
  have ht := lt2 t
  refine ⟨?_, rfl⟩
  show (BitVec.ofNat 32 (grid2.coords t 0).val).toNat = _
  rw [BitVec.toNat_ofNat, coords2_0, Nat.mod_eq_of_lt (by omega)]

/-! ## The four operand blocks of a point, read off their arrays -/

variable (V : (c : Dev nD) → (b : Ref sig .tc) → Buf (Elt Ideal) ((c : Thread nD τ).loc b))

/-- The destination block of point t is columns 3200 * (edge tile) … of the row of destinations. -/
theorem blk2_0_apply (c : Dev nD) (t : Fin cfg2.N) (j : Fin 3200) (e : Fin 800000) (he : e.val = 3200 * (t.val % 250) + j.val) :
    blk2 V c 0 t (ix2 (0 : Fin 1) j) = V c main_v14 (ix2 (0 : Fin 1) e) := by
  unfold blk2
  rw [View.read_apply]
  show V c main_v14 _ = V c main_v14 _
  congr 1
  funext a; apply Fin.ext
  match a with
  | ⟨0, _⟩ => show win2_0.index t 0 * 1 + 1 * 0 = 0; rw [(index2_0 t).1]
  | ⟨1, _⟩ => show win2_0.index t 1 * 3200 + 1 * j.val = e.val; rw [(index2_0 t).2, he]; omega
/-- The gathered block of point t is rows 3200 * (edge tile) … of the gathered rows. -/
theorem blk2_1_apply (c : Dev nD) (t : Fin cfg2.N) (j : Fin 3200) (q : Fin 64) (e : Fin 800000) (he : e.val = 3200 * (t.val % 250) + j.val) :
    blk2 V c 1 t (ix2 j q) = V c main_v15 (ix2 e q) := by
  unfold blk2
  rw [View.read_apply]
  show V c main_v15 _ = V c main_v15 _
  congr 1
  funext a; apply Fin.ext
  match a with
  | ⟨0, _⟩ => show win2_1.index t 0 * 3200 + 1 * j.val = e.val; rw [(index2_1 t).1, he]; omega
  | ⟨1, _⟩ => show win2_1.index t 1 * 64 + 1 * q.val = q.val; rw [(index2_1 t).2]; omega
/-- The norm block of point t is rows 1000 * (node tile) … of the norm column. -/
theorem blk2_2_apply (c : Dev nD) (t : Fin cfg2.N) (r : Fin 1000) (p : Fin 50000) (hp : p.val = (t.val / 250) * 1000 + r.val) :
    blk2 V c 2 t (ix2 r (0 : Fin 1)) = V c main_v11 (ix2 p (0 : Fin 1)) := by
  unfold blk2
  rw [View.read_apply]
  show V c main_v11 _ = V c main_v11 _
  congr 1
  funext a; apply Fin.ext
  match a with
  | ⟨0, _⟩ => show win2_2.index t 0 * 1000 + 1 * r.val = p.val; rw [(index2_2 t).1, hp]; omega
  | ⟨1, _⟩ => show win2_2.index t 1 * 1 + 1 * 0 = 0; rw [(index2_2 t).2]
/-- The bias block of every point is the whole bias row. -/
theorem blk2_3_apply (c : Dev nD) (t : Fin cfg2.N) (q : Fin 64) :
    blk2 V c 3 t (ix2 (0 : Fin 1) q) = V c main_v16 (ix2 (0 : Fin 1) q) := by
  unfold blk2
  rw [View.read_apply]
  show V c main_v16 _ = V c main_v16 _
  congr 1
  funext a; apply Fin.ext
  match a with
  | ⟨0, _⟩ => show win2_3.index t 0 * 1 + 1 * 0 = 0; rw [(index2_3 t).1]
  | ⟨1, _⟩ => show win2_3.index t 1 * 64 + 1 * q.val = q.val; rw [(index2_3 t).2]; omega

/-! ## The sum over the edges, tile by tile -/

/-- Edge e's term in the sum of node n at column q; zero past the last edge. -/
def term (D : Cert.Spec.SD.Idx → BitVec 32) (G : Cert.Spec.SG.Idx → EReal) (n : ℕ) (q : Fin 64) (e : ℕ) : EReal :=
  if h : e < 800000 then Cert.Spec.hot (D (ix2 (0 : Fin 1) ⟨e, h⟩)) n * G (ix2 ⟨e, h⟩ q) else 0

/-- A sum over m consecutive tiles of n positions each is the sum over the first n * m positions. -/
theorem sum_tiles (f : ℕ → EReal) (n : ℕ) : ∀ m : ℕ,
    ∑ s ∈ Finset.range m, ∑ j ∈ Finset.range n, f (n * s + j) = ∑ e ∈ Finset.range (n * m), f e
  | 0 => by simp
  | m + 1 => by rw [Finset.sum_range_succ, sum_tiles f n m, Nat.mul_succ, Finset.sum_range_add]

/-- The whole sum of a node, as the specification writes it. -/
theorem sum_term (D : Cert.Spec.SD.Idx → BitVec 32) (G : Cert.Spec.SG.Idx → EReal) (n : ℕ) (q : Fin 64) :
    ∑ e ∈ Finset.range 800000, term D G n q e = ∑ e : Fin 800000, Cert.Spec.hot (D (ix2 (0 : Fin 1) e)) n * G (ix2 e q) := by
  rw [Finset.sum_range]
  refine Finset.sum_congr rfl fun e _ => ?_
  unfold term
  rw [dif_pos e.isLt]

/-- One point's product at (r, q): the terms of its edge tile's 3200 edges for its node tile's row r. -/
theorem tile_sum (c : Dev nD) (t : Fin cfg2.N) (nb s : ℕ) (hnb : t.val / 250 = nb) (hs : t.val % 250 = s) (r : Fin 1000) (q : Fin 64) :
    ∑ j : Fin 3200, Cert.Spec.hot (blk2 V c 0 t (ix2 (0 : Fin 1) j)) ((grid2.coords t 0).val * 1000 + r.val) * blk2 V c 1 t (ix2 j q)
      = ∑ j ∈ Finset.range 3200, term (V c main_v14) (V c main_v15) (nb * 1000 + r.val) q (3200 * s + j) := by
  rw [Finset.sum_range]
  refine Finset.sum_congr rfl fun j _ => ?_
  have hj := j.isLt
  have hs' : s < 250 := by rw [← hs]; exact Nat.mod_lt _ (by decide)
  have hlt : 3200 * s + j.val < 800000 := by omega
  unfold term
  rw [dif_pos hlt, blk2_0_apply V c t j ⟨3200 * s + j.val, hlt⟩ (by rw [hs]),
    blk2_1_apply V c t j q ⟨3200 * s + j.val, hlt⟩ (by rw [hs]), coords2_0, hnb]

/-- The accumulator at a different spelling of the same position. -/
theorem acc2_congr (c : Dev nD) (n n' : ℕ) (h : n < cfg2.N) (h' : n' < cfg2.N) (e : n = n') : acc2 V c n h = acc2 V c n' h' := by
  subst e; rfl

/-- THE ACCUMULATOR after edge tile k of node tile nb, at (r, q): the terms of the edges of tiles 0 … k. -/
theorem acc2_apply (c : Dev nD) (nb : ℕ) : ∀ (k : ℕ) (hk : k < 250) (h : 250 * nb + k < cfg2.N) (r : Fin 1000) (q : Fin 64),
    acc2 V c (250 * nb + k) h (ix2 r q)
      = ∑ s ∈ Finset.range (k + 1), ∑ j ∈ Finset.range 3200, term (V c main_v14) (V c main_v15) (nb * 1000 + r.val) q (3200 * s + j)
  | 0, hk, h, r, q => by
    have e := acc2_first V c ⟨250 * nb + 0, h⟩ (by show (250 * nb + 0) % 250 = 0; omega)
    rw [show acc2 V c (250 * nb + 0) h = _ from e, add2_apply, zero2_apply, zero_add, Finset.sum_range_one]
    exact tile_sum V c ⟨250 * nb + 0, h⟩ nb 0 (by show (250 * nb + 0) / 250 = nb; omega) (by show (250 * nb + 0) % 250 = 0; omega) r q
  | k + 1, hk, h, r, q => by
    have e := acc2_next V c ⟨250 * nb + (k + 1), h⟩ (by show ¬ (250 * nb + (k + 1)) % 250 = 0; omega)
    have h' : 250 * nb + k < cfg2.N := by omega
    rw [show acc2 V c (250 * nb + (k + 1)) h = _ from e, add2_apply,
      acc2_congr V c _ (250 * nb + k) _ h' (by show 250 * nb + (k + 1) - 1 = 250 * nb + k; omega),
      acc2_apply c nb k (by omega) h' r q, Finset.sum_range_succ _ (k + 1)]
    refine congrArg (_ + ·) ?_
    exact tile_sum V c ⟨250 * nb + (k + 1), h⟩ nb (k + 1) (by show (250 * nb + (k + 1)) / 250 = nb; omega)
      (by show (250 * nb + (k + 1)) % 250 = k + 1; omega) r q

/-! ## What a flushing point writes back, the cover, and the array -/

/-- The result block of point t, read off any array: rows 1000 * (node tile) … . -/
theorem read_blk4 (G : Cert.Spec.SH.Idx → EReal) (t : Fin cfg2.N) (r : Fin 1000) (q : Fin 64) (p : Fin 50000)
    (hp : p.val = t.val / 250 * 1000 + r.val) :
    ((cfg2.win 4).blk t).view.read (Elt Ideal) G (ix2 r q) = G (ix2 p q) := by
  rw [View.read_apply]
  show G _ = G _
  congr 1
  funext a; apply Fin.ext
  match a with
  | ⟨0, _⟩ => show win2_4.index t 0 * 1000 + 1 * r.val = p.val; rw [(index2_4 t).1, hp]; omega
  | ⟨1, _⟩ => show win2_4.index t 1 * 64 + 1 * q.val = q.val; rw [(index2_4 t).2]; omega

/-- The result block at a flushing point, at (r, q): the specification's value at row 1000 * (node tile) + r. -/
theorem fin2_acc2_apply (c : Dev nD) (t : Fin cfg2.N) (h249 : t.val % 250 = 249) (r : Fin 1000) (q : Fin 64) (p : Fin 50000)
    (hp : p.val = t.val / 250 * 1000 + r.val) :
    fin2 (acc2 V c t.val t.isLt) (blk2 V c 2 t) (blk2 V c 3 t) (ix2 r q)
      = Cert.Spec.oAt (V c main_v14) (V c main_v15) (V c main_v11) (V c main_v16) p q := by
  have ht := lt2 t
  rw [fin2_apply, blk2_2_apply V c t r p hp, blk2_3_apply,
    acc2_congr V c t.val (250 * (t.val / 250) + 249) t.isLt (Nat.lt_of_lt_of_eq (by omega : _ < 12500) N_2.symm) (by omega),
    acc2_apply V c (t.val / 250) 249 (by omega) _ r q,
    sum_tiles _ 3200 250, sum_term, ← hp]
  unfold Cert.Spec.oAt
  rfl

/-- WHAT A FLUSHING POINT WRITES BACK is its block of the specification's array. -/
theorem flushed2_eq (c : Dev nD) (t : Fin cfg2.N) (hf : (cfg2.win 4).flush t = true) :
    (dat2 (F := Ideal) V c).flushed 4 t
      = ((cfg2.win 4).blk t).view.read (Elt Ideal)
          (Cert.Spec.oArr (V c main_v14) (V c main_v15) (V c main_v11) (V c main_v16)) := by
  have h249 : t.val % 250 = 249 := (flush2_4 t).mp hf
  have ht := lt2 t
  show (cfg2.win 4).cut (grid2.coords t) ((dat2 V c).after 4 t) = _
  rw [dat2_after4]
  funext y
  obtain ⟨r, q, rfl⟩ : ∃ (r : Fin 1000) (q : Fin 64), y = ix2 r q := ⟨y 0, y 1, eq_ix2 (n0 := 1000) (n1 := 64) y⟩
  have hr := r.isLt
  have hp : t.val / 250 * 1000 + r.val < 50000 := by omega
  refine Eq.trans ?_ (read_blk4 _ t r q ⟨t.val / 250 * 1000 + r.val, hp⟩ rfl).symm
  refine Eq.trans ?_ (Cert.Spec.oArr_apply _ _ _ _ ⟨t.val / 250 * 1000 + r.val, hp⟩ q).symm
  exact fin2_acc2_apply V c t h249 r q ⟨t.val / 250 * 1000 + r.val, hp⟩ rfl
/-- Row p of the result lies in the block of the last edge tile's point of its node tile. -/
theorem cover2 (i : Cert.Spec.SH.Idx) :
    ∃ t : Fin cfg2.N, (cfg2.win 4).flush t = true ∧ i ∈ ((cfg2.win 4).blk t).view.set := by
  have h0 : (i 0).val < 50000 := (i 0).isLt
  have h1 : (i 1).val < 64 := (i 1).isLt
  have hN : 250 * ((i 0).val / 1000) + 249 < cfg2.N := Nat.lt_of_lt_of_eq (by omega : _ < 12500) N_2.symm
  have hd : (250 * ((i 0).val / 1000) + 249) / 250 = (i 0).val / 1000 := by omega
  refine ⟨⟨250 * ((i 0).val / 1000) + 249, hN⟩,
    (flush2_4 _).mpr (by show (250 * ((i 0).val / 1000) + 249) % 250 = 249; omega), ?_⟩
  show i ∈ ((View.whole main_v17).slice (win2_4.rect ⟨250 * ((i 0).val / 1000) + 249, hN⟩)).set
  rw [View.set_slice_whole, Rect.mem_set_unit]
  intro a
  match a with
  | ⟨0, _⟩ =>
    show win2_4.index ⟨250 * ((i 0).val / 1000) + 249, hN⟩ 0 * 1000 ≤ (i 0).val
      ∧ (i 0).val < win2_4.index ⟨250 * ((i 0).val / 1000) + 249, hN⟩ 0 * 1000 + 1000
    rw [(index2_4 _).1]
    show (250 * ((i 0).val / 1000) + 249) / 250 * 1000 ≤ (i 0).val ∧ (i 0).val < (250 * ((i 0).val / 1000) + 249) / 250 * 1000 + 1000
    rw [hd]; omega
  | ⟨1, _⟩ =>
    show win2_4.index ⟨250 * ((i 0).val / 1000) + 249, hN⟩ 1 * 64 ≤ (i 1).val
      ∧ (i 1).val < win2_4.index ⟨250 * ((i 0).val / 1000) + 249, hN⟩ 1 * 64 + 64
    rw [(index2_4 _).2]; omega

/-- THE RESULT ARRAY after the call is the specification's, index by index. -/
theorem o_value (c : Dev nD) :
    ((dat2 (F := Ideal) V c).arrAt 4 cfg2.N : Cert.Spec.SH.Idx → EReal)
      = Cert.Spec.oArr (V c main_v14) (V c main_v15) (V c main_v11) (V c main_v16) :=
  (dat2 (F := Ideal) V c).arrAt_eq_of_cover 4
    (Cert.Spec.oArr (V c main_v14) (V c main_v15) (V c main_v11) (V c main_v16))
    (fun t hf => flushed2_eq V c t hf) cover2

end Cert.KernelIdeal.Hand.Val2

end
-- ==== Proof.KernelValue.lean ====
/-
  The kernel's result array at the ideal instance, as a function of its four arguments.

  The three calls' result arrays are the three stages of Cert.Spec (FI/Val0, Val1, Val2) of the arrays each
  call finds; the arrays a call finds are earlier calls' results or host reshapes of the arguments: the norm
  vector as a column, row 0 of the edge list as a column (src), row 1 as a row (dst), the bias as a row. Chained,
  the last call's result is Cert.Spec.out of the arguments and of the per-node normaliser the host prefix
  computes (the degree histogram, clipped below at one, to the power -1/2); that normaliser is the same
  host chain the reference runs.
-/
import proofs.«418634_j45483703664784_1_alg».proof.Proof.FI.Chain
import proofs.«418634_j45483703664784_1_alg».proof.Proof.FI.Val0
import proofs.«418634_j45483703664784_1_alg».proof.Proof.FI.Val1
import proofs.«418634_j45483703664784_1_alg».proof.Proof.FI.Val2
import proofs.«418634_j45483703664784_1_alg».proof.Proof.Spec
import proofs.«418634_j45483703664784_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ)

/-- The per-node normaliser the host prefix leaves (the contents of %10). -/
abbrev nrmK (c : Dev nD) : Cert.Spec.SN.Idx → EReal := W3 m c (Proc.devRef .tc main_v10)

/-! ## Buffers no later item writes keep their contents -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W2_keep (c : Dev nD) (r : Ref sig .tc) (h : r ∉ hostOps0_1_W) : W2 m c (Proc.devRef .tc r) = W1 m c (Proc.devRef .tc r) :=
  StableHlo.after_of_writes_sub hostOps0_1 _ hostOps0_1_writes h
theorem W3_keep (c : Dev nD) (r : Ref sig .tc) (h : r ∉ hostOps0_2_W) : W3 m c (Proc.devRef .tc r) = W2 m c (Proc.devRef .tc r) :=
  StableHlo.after_of_writes_sub hostOps0_2 _ hostOps0_2_writes h
theorem W5_keep (c : Dev nD) (r : Ref sig .tc) (h : r ∉ hostOps1_W) : W5 m c (Proc.devRef .tc r) = W4 m c (Proc.devRef .tc r) :=
  StableHlo.after_of_writes_sub hostOps1 _ hostOps1_writes h
theorem W7_keep (c : Dev nD) (r : Ref sig .tc) (h : r ∉ hostOps2_W) : W7 m c (Proc.devRef .tc r) = W6 m c (Proc.devRef .tc r) :=
  StableHlo.after_of_writes_sub hostOps2 _ hostOps2_writes h

/-! ## What the first call finds -/

theorem E3_arg0 (c : Dev nD) : E3 m c main_arg0 = m ((c : Thread nD τ).loc main_arg0) :=
  (W3_keep m c main_arg0 (by decide)).trans ((W2_keep m c main_arg0 (by decide)).trans ((W1_keep m c main_arg0 (by decide)).trans rfl))
theorem E3_arg1 (c : Dev nD) : E3 m c main_arg1 = m ((c : Thread nD τ).loc main_arg1) :=
  (W3_keep m c main_arg1 (by decide)).trans ((W2_keep m c main_arg1 (by decide)).trans ((W1_keep m c main_arg1 (by decide)).trans rfl))

/-- %11, the normaliser reshaped to a column. -/
theorem W3_v11 (c : Dev nD) : (W3 m c (Proc.devRef .tc main_v11) : Cert.Spec.SNc.Idx → EReal) = Cert.Spec.col (nrmK m c) := by
  have e : (W3 m c (Proc.devRef .tc main_v11) : S50000x1.Idx → EReal)
      = shapeCast S50000x1 (W3 m c (Proc.devRef .tc main_v10) : S50000.Idx → EReal) shapeCasts_S50000_S50000x1 := by
    show StableHlo.after hostOps0_2 (W2 m c) (Proc.devRef .tc main_v11)
      = shapeCast S50000x1 (StableHlo.after hostOps0_2 (W2 m c) (Proc.devRef .tc main_v10)) shapeCasts_S50000_S50000x1
    after_results; rfl
  funext j
  obtain ⟨n, z, rfl⟩ : ∃ (n : Fin 50000) (z : Fin 1), j = ix2 n z := ⟨j 0, j 1, eq_ix2 j⟩
  rw [e]
  show shapeCast S50000x1 _ shapeCasts_S50000_S50000x1 (ix2 n z) = W3 m c (Proc.devRef .tc main_v10) (ix1 n)
  refine shapeCast_apply _ _ _ _ ?_
  simp only [Shape.rowMajor_val_two, Shape.rowMajor_val_one]
  have := z.isLt
  show (n : ℕ) = (n : ℕ) * 1 + (z : ℕ)
  omega

theorem E3_v11 (c : Dev nD) : (E3 m c main_v11 : Cert.Spec.SNc.Idx → EReal) = Cert.Spec.col (nrmK m c) := W3_v11 m c

/-! ## The edge list's two rows as vectors -/

/-- %1: row 0 of the edge list, flattened. -/
theorem W1_v1 (c : Dev nD) (e : Fin 800000) :
    (W1 m c (Proc.devRef .tc main_v1) : S800000.Idx → BitVec 32) (ix1 e) = m ((c : Thread nD τ).loc main_arg3) (ix2 (0 : Fin 2) e) := by
  have h : (W1 m c (Proc.devRef .tc main_v1) : S800000.Idx → BitVec 32)
      = shapeCast S800000 (extractStridedSlice S1x800000 ![0, 0] (m ((c : Thread nD τ).loc main_arg3)) slices_S2x800000_S1x800000_0_0) shapeCasts_S1x800000_S800000 := by
    show StableHlo.after hostOps0 (W0 m c) (Proc.devRef .tc main_v1) = _
    after_results; rfl
  rw [h]
  refine (shapeCast_apply _ _ (ix1 e) (ix2 (0 : Fin 1) e) ?_).trans ?_
  · simp only [Shape.rowMajor_val_two, Shape.rowMajor_val_one]
    show (0 : ℕ) * 800000 + (e : ℕ) = (e : ℕ)
    omega
  · refine extractStridedSlice_apply _ _ _ _ (ix2 (0 : Fin 2) e) fun a => ?_
    match a with
    | ⟨0, _⟩ => rfl
    | ⟨1, _⟩ => show (e : ℕ) = 0 + (e : ℕ); omega

/-- %3: row 1 of the edge list, flattened. -/
theorem W1_v3 (c : Dev nD) (e : Fin 800000) :
    (W1 m c (Proc.devRef .tc main_v3) : S800000.Idx → BitVec 32) (ix1 e) = m ((c : Thread nD τ).loc main_arg3) (ix2 (1 : Fin 2) e) := by
  have h : (W1 m c (Proc.devRef .tc main_v3) : S800000.Idx → BitVec 32)
      = shapeCast S800000 (extractStridedSlice S1x800000 ![1, 0] (m ((c : Thread nD τ).loc main_arg3)) slices_S2x800000_S1x800000_1_0) shapeCasts_S1x800000_S800000 := by
    show StableHlo.after hostOps0 (W0 m c) (Proc.devRef .tc main_v3) = _
    after_results; rfl
  rw [h]
  refine (shapeCast_apply _ _ (ix1 e) (ix2 (0 : Fin 1) e) ?_).trans ?_
  · simp only [Shape.rowMajor_val_two, Shape.rowMajor_val_one]
    show (0 : ℕ) * 800000 + (e : ℕ) = (e : ℕ)
    omega
  · refine extractStridedSlice_apply _ _ _ _ (ix2 (1 : Fin 2) e) fun a => ?_
    match a with
    | ⟨0, _⟩ => rfl
    | ⟨1, _⟩ => show (e : ℕ) = 0 + (e : ℕ); omega

theorem W4_v1 (c : Dev nD) : W4 m c (Proc.devRef .tc main_v1) = W1 m c (Proc.devRef .tc main_v1) :=
  (W4_of_ne m c main_v1 (by decide)).trans ((W3_keep m c main_v1 (by decide)).trans (W2_keep m c main_v1 (by decide)))
theorem W4_v3 (c : Dev nD) : W4 m c (Proc.devRef .tc main_v3) = W1 m c (Proc.devRef .tc main_v3) :=
  (W4_of_ne m c main_v3 (by decide)).trans ((W3_keep m c main_v3 (by decide)).trans (W2_keep m c main_v3 (by decide)))

/-! ## What the second call finds -/

/-- %13: the source indices as a column. -/
theorem E5_v13 (c : Dev nD) : (E5 m c main_v13 : Cert.Spec.SS.Idx → BitVec 32) = Cert.Spec.srcCol (m ((c : Thread nD τ).loc main_arg3)) := by
  have h : (W5 m c (Proc.devRef .tc main_v13) : S800000x1.Idx → BitVec 32)
      = shapeCast S800000x1 (W4 m c (Proc.devRef .tc main_v1) : S800000.Idx → BitVec 32) shapeCasts_S800000_S800000x1 := by
    show StableHlo.after hostOps1 (W4 m c) (Proc.devRef .tc main_v13) = _
    after_results; rfl
  funext j
  obtain ⟨e, z, rfl⟩ : ∃ (e : Fin 800000) (z : Fin 1), j = ix2 e z := ⟨j 0, j 1, eq_ix2 j⟩
  show W5 m c (Proc.devRef .tc main_v13) (ix2 e z) = m ((c : Thread nD τ).loc main_arg3) (ix2 (0 : Fin 2) e)
  rw [h, W4_v1]
  refine (shapeCast_apply _ _ (ix2 e z) (ix1 e) ?_).trans (W1_v1 m c e)
  simp only [Shape.rowMajor_val_two, Shape.rowMajor_val_one]
  have := z.isLt
  show (e : ℕ) = (e : ℕ) * 1 + (z : ℕ)
  omega

/-- %12, the first call's result: stage one of the arguments. -/
theorem E5_v12 (c : Dev nD) : (E5 m c main_v12 : Cert.Spec.SH.Idx → EReal)
    = Cert.Spec.hArr (m ((c : Thread nD τ).loc main_arg0)) (Cert.Spec.col (nrmK m c)) (m ((c : Thread nD τ).loc main_arg1)) := by
  have h1 : E5 m c main_v12 = W4 m c (Proc.devRef .tc main_v12) := W5_keep m c main_v12 (by decide)
  have h2 : W4 m c (Proc.devRef .tc main_v12) = (dat0 (E3 m) c).arrAt 3 cfg0.N := W4_arr m c 3
  rw [h1, h2, h_value (E3 m) c, E3_arg0, E3_arg1, E3_v11]

/-! ## What the third call finds -/

/-- %14: the destination indices as a row. -/
theorem E7_v14 (c : Dev nD) : (E7 m c main_v14 : Cert.Spec.SD.Idx → BitVec 32) = Cert.Spec.dstRow (m ((c : Thread nD τ).loc main_arg3)) := by
  have h0 : E7 m c main_v14 = W5 m c (Proc.devRef .tc main_v14) :=
    (W7_keep m c main_v14 (by decide)).trans (W6_of_ne m c main_v14 (by decide))
  have h : (W5 m c (Proc.devRef .tc main_v14) : S1x800000.Idx → BitVec 32)
      = shapeCast S1x800000 (W4 m c (Proc.devRef .tc main_v3) : S800000.Idx → BitVec 32) shapeCasts_S800000_S1x800000 := by
    show StableHlo.after hostOps1 (W4 m c) (Proc.devRef .tc main_v14) = _
    after_results; rfl
  funext j
  obtain ⟨z, e, rfl⟩ : ∃ (z : Fin 1) (e : Fin 800000), j = ix2 z e := ⟨j 0, j 1, eq_ix2 j⟩
  show E7 m c main_v14 (ix2 z e) = m ((c : Thread nD τ).loc main_arg3) (ix2 (1 : Fin 2) e)
  rw [h0, h, W4_v3]
  refine (shapeCast_apply _ _ (ix2 z e) (ix1 e) ?_).trans (W1_v3 m c e)
  simp only [Shape.rowMajor_val_two, Shape.rowMajor_val_one]
  have := z.isLt
  show (e : ℕ) = (z : ℕ) * 800000 + (e : ℕ)
  omega

/-- %15, the second call's result: stage two of the source column and stage one. -/
theorem E7_v15 (c : Dev nD) : (E7 m c main_v15 : Cert.Spec.SG.Idx → EReal)
    = Cert.Spec.gArr (Cert.Spec.srcCol (m ((c : Thread nD τ).loc main_arg3)))
        (Cert.Spec.hArr (m ((c : Thread nD τ).loc main_arg0)) (Cert.Spec.col (nrmK m c)) (m ((c : Thread nD τ).loc main_arg1))) := by
  have h1 : E7 m c main_v15 = W6 m c (Proc.devRef .tc main_v15) := W7_keep m c main_v15 (by decide)
  have h2 : W6 m c (Proc.devRef .tc main_v15) = (dat1 (E5 m) c).arrAt 2 cfg1.N := W6_arr m c 2
  rw [h1, h2, g_value (E5 m) c, E5_v13, E5_v12]

/-- %11 again: the normaliser column, untouched since the first call read it. -/
theorem E7_v11 (c : Dev nD) : (E7 m c main_v11 : Cert.Spec.SNc.Idx → EReal) = Cert.Spec.col (nrmK m c) := by
  have h1 : E7 m c main_v11 = W4 m c (Proc.devRef .tc main_v11) :=
    (W7_keep m c main_v11 (by decide)).trans ((W6_of_ne m c main_v11 (by decide)).trans (W5_keep m c main_v11 (by decide)))
  have h2 : W4 m c (Proc.devRef .tc main_v11) = E3 m c main_v11 :=
    (W4_arr m c 1).trans (((dat0 (E3 m) c).arrAt_in 1 rfl _).trans (dat0_A (E3 m) c 1))
  rw [h1, h2, E3_v11]

/-- %16: the bias as a row. -/
theorem E7_v16 (c : Dev nD) : (E7 m c main_v16 : Cert.Spec.SBr.Idx → EReal) = Cert.Spec.row (m ((c : Thread nD τ).loc main_arg2)) := by
  have hb : W6 m c (Proc.devRef .tc main_arg2) = m ((c : Thread nD τ).loc main_arg2) :=
    (W6_of_ne m c main_arg2 (by decide)).trans ((W5_keep m c main_arg2 (by decide)).trans ((W4_of_ne m c main_arg2 (by decide)).trans
      ((W3_keep m c main_arg2 (by decide)).trans ((W2_keep m c main_arg2 (by decide)).trans ((W1_keep m c main_arg2 (by decide)).trans rfl)))))
  have h : (W7 m c (Proc.devRef .tc main_v16) : S1x64.Idx → EReal)
      = shapeCast S1x64 (W6 m c (Proc.devRef .tc main_arg2) : S64.Idx → EReal) shapeCasts_S64_S1x64 := by
    show StableHlo.after hostOps2 (W6 m c) (Proc.devRef .tc main_v16) = _
    after_results; rfl
  funext j
  obtain ⟨z, q, rfl⟩ : ∃ (z : Fin 1) (q : Fin 64), j = ix2 z q := ⟨j 0, j 1, eq_ix2 j⟩
  show W7 m c (Proc.devRef .tc main_v16) (ix2 z q) = m ((c : Thread nD τ).loc main_arg2) (ix1 q)
  rw [h, hb]
  refine shapeCast_apply _ _ (ix2 z q) (ix1 q) ?_
  simp only [Shape.rowMajor_val_two, Shape.rowMajor_val_one]
  have := z.isLt
  show (q : ℕ) = (z : ℕ) * 64 + (q : ℕ)
  omega

/-! ## The result -/

/-- THE KERNEL'S RESULT: the contents of %17 after the third call are the three stages composed. -/
theorem kernel_out (c : Dev nD) :
    (W8 m c (Proc.devRef .tc main_v17) : Cert.Spec.SH.Idx → EReal)
      = Cert.Spec.out (m ((c : Thread nD τ).loc main_arg0)) (m ((c : Thread nD τ).loc main_arg1)) (m ((c : Thread nD τ).loc main_arg2))
          (m ((c : Thread nD τ).loc main_arg3)) (nrmK m c) := by
  have h : W8 m c (Proc.devRef .tc main_v17) = (dat2 (E7 m) c).arrAt 4 cfg2.N := W8_arr m c 4
  rw [h, Val2.o_value (E7 m) c, E7_v14, E7_v15, E7_v11, E7_v16]
  rfl

end Cert.KernelIdeal.Hand

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.NormAgree.lean ====
/-
  The per-node normaliser the kernel's host prefix leaves is the reference's.

  Both programs open with the same host operations on row 0 of the edge list: the row sliced out and reshaped to a
  vector, broadcast to a column of scatter indices; ones scatter-added into zeros at those indices (the degree
  histogram); the maximum with one; the power -1/2. On the kernel's side the contents of %10 after the three host
  stretches are read off stretch by stretch, each stretch over an arbitrary valuation of the buffers it reads, and
  composed into one term over the edge list. That term is the reference's %10 operation by operation: the index
  column, the three broadcast constants and the scatter's dimension numbers are the reference's by unfolding, the two
  programs' shapes being the same literals and their side conditions propositions.
-/
import proofs.«418634_j45483703664784_1_alg».proof.Proof.FI.Chain
import proofs.«418634_j45483703664784_1_alg».proof.Proof.Spec
import proofs.«418634_j45483703664784_1_alg».proof.Proof.Gen.ReferenceIdeal.Read
import proofs.«418634_j45483703664784_1_alg».proof.Proof.LibRowOps
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Cert.KernelIdeal Cert.KernelIdeal.Gen

/-- %10 from %8 across the last stretch. -/
private theorem ops2_v10 (V : Valuation τ sig (Elt Ideal)) :
    (StableHlo.after hostOps0_2 V (Proc.devRef .tc main_v10) : S50000.Idx → EReal)
      = Host.powf (F := Ideal) (φ := .f32) (V (Proc.devRef .tc main_v8) : S50000.Idx → EReal)
          (broadcastInDim S50000 ![] bcast_S_S50000 (constant (F := Ideal) S_ .f32 0xBF000000#32)) := by
  after_results

/-- %8 from %7 and the constant one across the stretch of the clip. -/
private theorem ops1_v8 (V : Valuation τ sig (Elt Ideal)) :
    (StableHlo.after hostOps0_1 V (Proc.devRef .tc main_v8) : S50000.Idx → EReal)
      = maximumf (F := Ideal) (φ := .f32) (broadcastInDim (α := EReal) S50000 ![] bcast_S_S50000 (V (Proc.devRef .tc main_cst_1) : S_.Idx → EReal))
          (V (Proc.devRef .tc main_v7) : S50000.Idx → EReal) := by
  after_results
  rfl

/-- The constant one the first stretch leaves. -/
private theorem ops0_cst1 (V : Valuation τ sig (Elt Ideal)) :
    (StableHlo.after hostOps0 V (Proc.devRef .tc main_cst_1) : S_.Idx → EReal)
      = constant (F := Ideal) S_ .f32 0x3F800000#32 := by
  after_results

/-- %7, the degree histogram, from the edge list across the first stretch. -/
private theorem ops0_v7 (V : Valuation τ sig (Elt Ideal)) :
    (StableHlo.after hostOps0 V (Proc.devRef .tc main_v7) : S50000.Idx → EReal)
      = Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0
            (shapeCast S800000 (extractStridedSlice S1x800000 ![0, 0] (V (Proc.devRef .tc main_arg3) : S2x800000.Idx → BitVec 32) slices_S2x800000_S1x800000_0_0) shapeCasts_S1x800000_S800000))
          (broadcastInDim S800000 ![] bcast_S_S800000 (constant (F := Ideal) S_ .f32 0x3F800000#32)) := by
  after_results
  rfl

/-- The two programs' scatter dimension numbers are the same record. -/
private theorem scat_eq : (scatter_S50000_S800000x1_S800000_n_0_0_1 : ScatterDims S50000 S800000x1 S800000)
    = Cert.ReferenceIdeal.scatter_S50000_S800000x1_S800000_n_0_0_1 := rfl

/-- The column of scatter indices is the reference's %6. -/
private theorem idx_eq (x3 : S2x800000.Idx → BitVec 32) :
    (broadcastInDim S800000x1 ![0] bcast_S800000_S800000x1_0
      (shapeCast S800000 (extractStridedSlice S1x800000 ![0, 0] x3 slices_S2x800000_S1x800000_0_0) shapeCasts_S1x800000_S800000)
        : S800000x1.Idx → BitVec 32)
      = Cert.ReferenceIdeal.Read.val_main_v6 (F := Ideal) x3 := rfl

/-- The broadcast constants are the reference's %5, %4, @clip's %1 and %9. -/
private theorem v5_eq : (broadcastInDim S50000 ![] bcast_S_S50000 (constant (F := Ideal) S_ .f32 0x00000000#32) : S50000.Idx → EReal)
    = Cert.ReferenceIdeal.Read.val_main_v5 (F := Ideal) := rfl
private theorem v4_eq : (broadcastInDim S800000 ![] bcast_S_S800000 (constant (F := Ideal) S_ .f32 0x3F800000#32) : S800000.Idx → EReal)
    = Cert.ReferenceIdeal.Read.val_main_v4 (F := Ideal) := rfl
private theorem c1_eq : (broadcastInDim S50000 ![] bcast_S_S50000 (constant (F := Ideal) S_ .f32 0x3F800000#32) : S50000.Idx → EReal)
    = Cert.ReferenceIdeal.Read.val_main_call0_v1 (F := Ideal) := rfl
private theorem v9_eq : (broadcastInDim S50000 ![] bcast_S_S50000 (constant (F := Ideal) S_ .f32 0xBF000000#32) : S50000.Idx → EReal)
    = Cert.ReferenceIdeal.Read.val_main_v9 (F := Ideal) := rfl

/-- The host prefix's value as one term over row 0 of the edge list is the reference's %10. -/
private theorem kterm_eq (x3 : S2x800000.Idx → BitVec 32) :
    (Host.powf (F := Ideal) (φ := .f32)
      (maximumf (F := Ideal) (φ := .f32)
        (broadcastInDim (α := EReal) S50000 ![] bcast_S_S50000 (constant (F := Ideal) S_ .f32 0x3F800000#32))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0
            (shapeCast S800000 (extractStridedSlice S1x800000 ![0, 0] x3 slices_S2x800000_S1x800000_0_0) shapeCasts_S1x800000_S800000))
          (broadcastInDim S800000 ![] bcast_S_S800000 (constant (F := Ideal) S_ .f32 0x3F800000#32))))
      (broadcastInDim S50000 ![] bcast_S_S50000 (constant (F := Ideal) S_ .f32 0xBF000000#32)) : S50000.Idx → EReal)
      = Cert.ReferenceIdeal.Read.val_main_v10 (F := Ideal) x3 := by
  rw [idx_eq, v5_eq, v4_eq, c1_eq, v9_eq, scat_eq]
  rfl

variable (m : (ℓ : Loc nD τ sig) → Buf (Elt Ideal) ℓ)

/-- The normaliser the first call finds in %10 is the reference's %10 of the same edge list. -/
theorem nrm_agree (c : Dev nD) :
    (W3 m c (Proc.devRef .tc main_v10) : S50000.Idx → EReal)
      = Cert.ReferenceIdeal.Read.val_main_v10 (F := Ideal) (m ((c : Thread nD τ).loc main_arg3)) := by
  show StableHlo.after hostOps0_2 (StableHlo.after hostOps0_1 (StableHlo.after hostOps0 (W0 m c))) (Proc.devRef .tc main_v10) = _
  rw [ops2_v10, ops1_v8, ops0_v7, ops0_cst1]
  exact kterm_eq (W0 m c (Proc.devRef .tc main_arg3))

end Cert.KernelIdeal.Hand

end
-- ==== Proof.RefSide.lean ====
/-
  The reference's result as a function of its arguments, read one operation at a time, and its equality with
  the three-stage specification.

  At (n, q) the reference is
    (0 + Σ over the edges e whose destination, read signed, is n of h[clamp(wrap(src e)), q]) · norm[n] + bias[q],
    h[p, q] = Σ over the 256 input features k of (feat[p, k] · norm[p]) · weight[k, q],
  wrap(s) = s + 50000 when s < 0 else s, clamp(t) = min t 49999. The specification is
    (Σ over all edges e of [dst e is n] · (Σ over all nodes n' of [src e is n'] · h[n', q])) · norm[n] + bias[q].
  When every source index lies in [0, 50000) the wrap and the clamp do nothing, the inner indicator sum keeps
  the one node the source names, and the outer indicator is the condition of the filtered sum: a word is the
  number n < 50000 exactly when its signed reading is n. Nothing is asked of the destinations: one that is no
  node number matches no n on either side. No finiteness is used: 0 · x = 0 and 1 · x = x hold for every
  extended real x.
-/
import proofs.«418634_j45483703664784_1_alg».proof.Proof.Gen.ReferenceIdeal.Run
import proofs.«418634_j45483703664784_1_alg».proof.Proof.Gen.ReferenceIdeal.Read
import proofs.«418634_j45483703664784_1_alg».proof.Proof.LibRowOps
import proofs.«418634_j45483703664784_1_alg».proof.Proof.Spec
import Idealize.ShloMosaic.Lib.ValueIdx
import Idealize.ShloMosaic.PureOps.Ideal.Laws

noncomputable section

namespace Cert.ReferenceIdeal.Hand

open Idealize.ShloMosaic Idealize.ShloMosaic.TcCoe Idealize.SL.Sem
open Cert.ReferenceIdeal Cert.ReferenceIdeal.Gen Cert.ReferenceIdeal.Read
open Idealize.ShloMosaic.StableHlo Idealize.ShloMosaic.ValueIdx

/-! ## The layout operations, read at coordinates -/

/-- The normaliser broadcast along the output features is the normaliser of the row. -/
theorem v26_read (x3 : (⟨S2x800000, .i32⟩ : BufTy).Contents (Elt Ideal)) (n : Fin 50000) (q : Fin 64) :
    val_main_v26 (F := Ideal) x3 (ix2 n q) = val_main_v10 (F := Ideal) x3 (ix1 n) := by
  rw [val_main_v26_apply, val_main_v25_apply]
  congr 1
  funext a
  match a with
  | ⟨0, _⟩ => rfl

/-- The normaliser broadcast along the input features is the normaliser of the row. -/
theorem v12_read (x3 : (⟨S2x800000, .i32⟩ : BufTy).Contents (Elt Ideal)) (p : Fin 50000) (k : Fin 256) :
    val_main_v12 (F := Ideal) x3 (ix2 p k) = val_main_v10 (F := Ideal) x3 (ix1 p) := by
  rw [val_main_v12_apply, val_main_v11_apply]
  congr 1
  funext a
  match a with
  | ⟨0, _⟩ => rfl

/-- The bias broadcast along the nodes is the bias of the column. -/
theorem v29_read (x2 : (⟨S64, .f32⟩ : BufTy).Contents (Elt Ideal)) (n : Fin 50000) (q : Fin 64) :
    val_main_v29 (F := Ideal) x2 (ix2 n q) = x2 (ix1 q) := by
  rw [val_main_v29_apply, val_main_v28_apply]
  congr 1
  funext a
  match a with
  | ⟨0, _⟩ => rfl

/-- The source index of edge e, as a column entry, is row 0 of the edge list at e. -/
theorem v1_read (x3 : (⟨S2x800000, .i32⟩ : BufTy).Contents (Elt Ideal)) (e : Fin 800000) :
    val_main_v1 (F := Ideal) x3 (ix1 e) = x3 (ix2 (0 : Fin 2) e) := by
  rw [val_main_v1_apply, val_main_v0_apply]
  congr 1
  funext a
  have he : e.val % 800000 = e.val := Nat.mod_eq_of_lt e.isLt
  match a with
  | ⟨0, _⟩ => rfl
  | ⟨1, _⟩ => exact Fin.ext he

/-- The destination index of edge e, as a column entry, is row 1 of the edge list at e. -/
theorem v23_read (x3 : (⟨S2x800000, .i32⟩ : BufTy).Contents (Elt Ideal)) (e : Fin 800000) :
    val_main_v23 (F := Ideal) x3 (ix2 e (0 : Fin 1)) = x3 (ix2 (1 : Fin 2) e) := by
  rw [val_main_v23_apply, val_main_v3_apply, val_main_v2_apply]
  congr 1
  funext a
  have he : e.val % 800000 = e.val := Nat.mod_eq_of_lt e.isLt
  match a with
  | ⟨0, _⟩ => rfl
  | ⟨1, _⟩ => exact Fin.ext he

/-- The wrapped source index of edge e, as a column entry. -/
theorem v20_read (x3 : (⟨S2x800000, .i32⟩ : BufTy).Contents (Elt Ideal)) (e : Fin 800000) :
    val_main_v20 (F := Ideal) x3 (ix2 e (0 : Fin 1))
      = Scalar.select (IntOp.cmpi .slt (x3 (ix2 (0 : Fin 2) e)) 0#32) (IntOp.addi (x3 (ix2 (0 : Fin 2) e)) 50000#32) (x3 (ix2 (0 : Fin 2) e)) := by
  have hi : idx_main_v20 (ix2 e (0 : Fin 1)) = ix1 e := by
    funext a
    match a with
    | ⟨0, _⟩ => rfl
  rw [val_main_v20_apply, hi, val_main_v19_apply, val_main_v16_apply, val_main_v18_apply, val_main_v15_apply, val_main_v17_apply,
    val_main_c_apply, val_main_c_3_apply, v1_read]

/-- The source index column of the degree count is row 0 of the edge list. -/
theorem v6_read (x3 : (⟨S2x800000, .i32⟩ : BufTy).Contents (Elt Ideal)) (e : Fin 800000) :
    val_main_v6 (F := Ideal) x3 (ix2 e (0 : Fin 1)) = x3 (ix2 (0 : Fin 2) e) := by
  have hi : idx_main_v6 (ix2 e (0 : Fin 1)) = ix1 e := by
    funext a
    match a with
    | ⟨0, _⟩ => rfl
  rw [val_main_v6_apply, hi, v1_read]

/-- The zero the aggregate starts from. -/
theorem v22_read (n : Fin 50000) (q : Fin 64) : val_main_v22 (F := Ideal) (ix2 n q) = 0 := by
  rw [val_main_v22_apply, val_main_cst_4_apply]
  exact Ideal.ofBits_zero_f32

/-- The normalised features times the weights, read at (p, q). -/
theorem v14_read (x0 : (⟨S50000x256, .f32⟩ : BufTy).Contents (Elt Ideal)) (x1 : (⟨S256x64, .f32⟩ : BufTy).Contents (Elt Ideal))
    (x3 : (⟨S2x800000, .i32⟩ : BufTy).Contents (Elt Ideal)) (p : Fin 50000) (q : Fin 64) :
    val_main_v14 (F := Ideal) x0 x1 x3 (ix2 p q)
      = ∑ k : Fin 256, (x0 (ix2 p k) * val_main_v10 (F := Ideal) x3 (ix1 p)) * x1 (ix2 k q) := by
  rw [val_main_v14_apply]
  refine Finset.sum_congr rfl fun k _ => ?_
  have hl : lidx_main_v14 (ix2 p q) k = ix2 p k := by
    funext a
    match a with
    | ⟨0, _⟩ => rfl
    | ⟨1, _⟩ => rfl
  have hr : ridx_main_v14 (ix2 p q) k = ix2 k q := by
    funext a
    match a with
    | ⟨0, _⟩ => rfl
    | ⟨1, _⟩ => rfl
  rw [hl, hr, val_main_v13_apply, v12_read]
  rfl

/-! ## The two row operations, read at coordinates -/

/-- The host's accumulating scatter over the extended reals is the exact sum. -/
theorem host_scatterAdd_eq {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The row scatter's dimension numbers are those of a scatter of rows of a matrix. -/
theorem rec24_eq : scatter_S50000x64_S800000x1_S800000x64_1_0_0_1
    = Cert.Lib.RowOps.scat2 50000 64 800000 scatter_S50000x64_S800000x1_S800000x64_1_0_0_1_wf := rfl

/-- The row gather's dimension numbers are those of a gather of rows of a matrix. -/
theorem rec21_eq : gather_S50000x64_S800000x1_S800000x64_1_0_n_n_0_1_164
    = Cert.Lib.RowOps.gath2 50000 64 800000 gather_S50000x64_S800000x1_S800000x64_1_0_n_n_0_1_164_wf := rfl

/-- The scatter-add into the aggregate, read at (n, q): the start value plus the gathered rows of the edges
    whose destination, read signed, is n. -/
theorem v24_apply (x0 : (⟨S50000x256, .f32⟩ : BufTy).Contents (Elt Ideal)) (x1 : (⟨S256x64, .f32⟩ : BufTy).Contents (Elt Ideal))
    (x3 : (⟨S2x800000, .i32⟩ : BufTy).Contents (Elt Ideal)) (n : Fin 50000) (q : Fin 64) :
    val_main_v24 (F := Ideal) x0 x1 x3 (ix2 n q)
      = val_main_v22 (F := Ideal) (ix2 n q)
        + ∑ e ∈ Finset.univ.filter (fun e : Fin 800000 => (val_main_v23 (F := Ideal) x3 (ix2 e (0 : Fin 1))).toInt = (n.val : Int)),
            val_main_v21 (F := Ideal) x0 x1 x3 (ix2 e q) := by
  unfold val_main_v24
  rw [rec24_eq, host_scatterAdd_eq, Cert.Lib.RowOps.scat2_apply]

theorem clamp_lt (t : Nat) : min t (50000 - 1) < 50000 := by omega

/-- The row gather, read at (e, q): the row of the wrapped source index, clamped. -/
theorem v21_apply (x0 : (⟨S50000x256, .f32⟩ : BufTy).Contents (Elt Ideal)) (x1 : (⟨S256x64, .f32⟩ : BufTy).Contents (Elt Ideal))
    (x3 : (⟨S2x800000, .i32⟩ : BufTy).Contents (Elt Ideal)) (e : Fin 800000) (q : Fin 64) :
    val_main_v21 (F := Ideal) x0 x1 x3 (ix2 e q)
      = val_main_v14 (F := Ideal) x0 x1 x3
          (ix2 (⟨min (val_main_v20 (F := Ideal) x3 (ix2 e (0 : Fin 1))).toInt.toNat (50000 - 1), clamp_lt _⟩ : Fin 50000) q) := by
  unfold val_main_v21
  rw [rec21_eq, Cert.Lib.RowOps.gath2_apply (Nat.succ_pos 49999)]

/-! ## Words and numbers -/

/-- A word is the number n (below 50000) exactly when its signed reading is n. -/
theorem word_eq_ofNat_iff (w : BitVec 32) (n : ℕ) (hn : n < 50000) :
    w = BitVec.ofNat 32 n ↔ w.toInt = (n : Int) := by
  have hw := w.isLt
  have hc := BitVec.toInt_eq_toNat_cond w
  constructor
  · rintro rfl
    rw [hc, BitVec.toNat_ofNat]
    split_ifs with h <;> omega
  · intro h
    apply BitVec.eq_of_toNat_eq
    rw [BitVec.toNat_ofNat]
    rw [hc] at h
    split_ifs at h <;> omega

/-- A word whose signed reading lies in [0, 50000) is the number n' exactly when n' is that reading. -/
theorem word_eq_ofNat_iff_toNat (w : BitVec 32) (h0 : 0 ≤ w.toInt) (n' : ℕ) (hn : n' < 50000) :
    w = BitVec.ofNat 32 n' ↔ n' = w.toInt.toNat := by
  rw [word_eq_ofNat_iff w n' hn]
  omega

/-- A non-negative index is left unchanged by the negative-index wrap. -/
theorem wrap_of_nonneg (w : BitVec 32) (h0 : 0 ≤ w.toInt) :
    Scalar.select (IntOp.cmpi .slt w 0#32) (IntOp.addi w 50000#32) w = w := by
  unfold Scalar.select
  rw [if_neg]
  show ¬ BitVec.ofBool (w.slt 0#32) = 1#1
  have : w.slt 0#32 = false := by
    rw [BitVec.slt, BitVec.toInt_zero, decide_eq_false_iff_not]
    omega
  rw [this]
  decide

/-- An index in [0, 50000) is its own clamp into [0, 49999]. -/
theorem clamp_of_lt (t : Int) (h0 : 0 ≤ t) (h1 : t < 50000) : min t.toNat (50000 - 1) = t.toNat := by
  omega

/-! ## Indicators of index words -/

open Cert.Spec in
/-- Against the indicator of the word w, a sum over all nodes keeps the one node w names. -/
theorem sum_hot_mul (w : BitVec 32) (h0 : 0 ≤ w.toInt) (h1 : w.toInt < 50000) (H : Fin 50000 → EReal) :
    ∑ n' : Fin 50000, hot w n'.val * H n' = H ⟨w.toInt.toNat, by omega⟩ := by
  rw [Finset.sum_eq_single (⟨w.toInt.toNat, by omega⟩ : Fin 50000)]
  · unfold hot
    rw [if_pos ((word_eq_ofNat_iff_toNat w h0 _ (by omega)).mpr rfl), one_mul]
  · intro b _ hb
    unfold hot
    rw [if_neg, zero_mul]
    intro h
    exact hb (Fin.ext ((word_eq_ofNat_iff_toNat w h0 b.val b.isLt).mp h))
  · intro h
    exact absurd (Finset.mem_univ _) h

open Cert.Spec in
/-- The indicator of the word w at node n keeps a term exactly when w, read signed, is n. -/
theorem hot_mul (w : BitVec 32) (n : Fin 50000) (X : EReal) :
    hot w n.val * X = if w.toInt = (n.val : Int) then X else 0 := by
  unfold hot
  by_cases h : w.toInt = (n.val : Int)
  · rw [if_pos h, if_pos ((word_eq_ofNat_iff w n.val n.isLt).mpr h), one_mul]
  · rw [if_neg h, if_neg (fun h' => h ((word_eq_ofNat_iff w n.val n.isLt).mp h')), zero_mul]

/-- A function of a node read at two spellings of one node number. -/
theorem apply_fin_congr (H : Fin 50000 → EReal) (a b : Nat) (ha : a < 50000) (hb : b < 50000) (hab : a = b) :
    H ⟨a, ha⟩ = H ⟨b, hb⟩ := by
  subst hab
  rfl

/-! ## The reference against the specification -/

/-- The reference's per-node normaliser. -/
abbrev nrmR (x3 : (⟨Cert.ReferenceIdeal.S2x800000, .i32⟩ : BufTy).Contents (Elt Ideal)) : Cert.Spec.SN.Idx → EReal :=
  Cert.ReferenceIdeal.Read.val_main_v10 (F := Ideal) x3

open Cert.Spec in
/-- The specification's result at (n, q), its three stages spelt out. -/
theorem spec_out_apply (X : SX.Idx → EReal) (Wt : SW.Idx → EReal) (b : SB.Idx → EReal) (ei : SE.Idx → BitVec 32)
    (nrm : SN.Idx → EReal) (n : Fin 50000) (q : Fin 64) :
    Cert.Spec.out X Wt b ei nrm (ix2 n q)
      = (∑ e : Fin 800000, hot (ei (ix2 (1 : Fin 2) e)) n.val
            * ∑ n' : Fin 50000, hot (ei (ix2 (0 : Fin 2) e)) n'.val
                * ∑ k : Fin 256, (X (ix2 n' k) * nrm (ix1 n')) * Wt (ix2 k q))
          * nrm (ix1 n) + b (ix1 q) := rfl

/-- The reference's result is the specification's, at the reference's own normaliser, when every source index
    is a node number. -/
theorem ref_value (x0 : (⟨S50000x256, .f32⟩ : BufTy).Contents (Elt Ideal)) (x1 : (⟨S256x64, .f32⟩ : BufTy).Contents (Elt Ideal))
    (x2 : (⟨S64, .f32⟩ : BufTy).Contents (Elt Ideal)) (x3 : (⟨S2x800000, .i32⟩ : BufTy).Contents (Elt Ideal))
    (hsrc : ∀ e : Fin 800000, 0 ≤ (x3 (ix2 (0 : Fin 2) e)).toInt ∧ (x3 (ix2 (0 : Fin 2) e)).toInt < 50000) :
    Cert.ReferenceIdeal.Read.val_main_v30 (F := Ideal) x0 x1 x2 x3 = Cert.Spec.out x0 x1 x2 x3 (nrmR x3) := by
  funext j
  obtain ⟨n, q, rfl⟩ : ∃ n q, j = ix2 n q := ⟨j 0, j 1, eq_ix2 j⟩
  rw [spec_out_apply, val_main_v30_apply, val_main_v27_apply, v24_apply, v22_read, v26_read, v29_read, Ideal.addf_def,
    Ideal.mulf_def, zero_add, Finset.sum_filter]
  refine congrArg (fun A => A * val_main_v10 (F := Ideal) x3 (ix1 n) + x2 (ix1 q)) (Finset.sum_congr rfl fun e _ => ?_)
  obtain ⟨h0, h1⟩ := hsrc e
  have hrow : (∑ n' : Fin 50000, Cert.Spec.hot (x3 (ix2 (0 : Fin 2) e)) n'.val
        * ∑ k : Fin 256, (x0 (ix2 n' k) * nrmR x3 (ix1 n')) * x1 (ix2 k q))
      = val_main_v21 (F := Ideal) x0 x1 x3 (ix2 e q) := by
    calc (∑ n' : Fin 50000, Cert.Spec.hot (x3 (ix2 (0 : Fin 2) e)) n'.val
            * ∑ k : Fin 256, (x0 (ix2 n' k) * nrmR x3 (ix1 n')) * x1 (ix2 k q))
        = ∑ n' : Fin 50000, Cert.Spec.hot (x3 (ix2 (0 : Fin 2) e)) n'.val
            * (fun p : Fin 50000 => val_main_v14 (F := Ideal) x0 x1 x3 (ix2 p q)) n' :=
          Finset.sum_congr rfl fun n' _ =>
            congrArg (fun t => Cert.Spec.hot (x3 (ix2 (0 : Fin 2) e)) n'.val * t) (v14_read x0 x1 x3 n' q).symm
      _ = val_main_v14 (F := Ideal) x0 x1 x3 (ix2 (⟨(x3 (ix2 (0 : Fin 2) e)).toInt.toNat, by omega⟩ : Fin 50000) q) :=
          sum_hot_mul (x3 (ix2 (0 : Fin 2) e)) h0 h1 (fun p : Fin 50000 => val_main_v14 (F := Ideal) x0 x1 x3 (ix2 p q))
      _ = val_main_v21 (F := Ideal) x0 x1 x3 (ix2 e q) := by
          rw [v21_apply, v20_read, wrap_of_nonneg _ h0]
          exact apply_fin_congr (fun p : Fin 50000 => val_main_v14 (F := Ideal) x0 x1 x3 (ix2 p q)) _ _ _ _
            (clamp_of_lt _ h0 h1).symm
  rw [v23_read, hrow, hot_mul]

end Cert.ReferenceIdeal.Hand

end
-- ==== Proof.PreRange.lean ====
/-
  The precondition's index range, decoded. The predicate ends in
  all ((edge_index[0] ≥ 0) ∧ (edge_index[0] < 50000)): row 0 of the [2, 800000] table of 32-bit words is cut out,
  flattened to a vector, compared (signed) against the constants 0 and 50000, the two masks are met, and the
  meet is reduced by "and" over its one axis; the result is met with the finiteness of the float inputs. When the
  whole predicate is 1, its last conjunct is 1, so every element of the reduced mask is 1, so at each edge e the
  word edge_index[0, e] satisfies 0 ≤ w and w < 50000 as a signed integer.
-/
import proofs.«418634_j45483703664784_1_alg».proof.Pre_finite_inputs
import proofs.«418634_j45483703664784_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.Hand.PreRange

open Idealize.ShloMosaic Idealize.ShloMosaic.ValueIdx
open Cert.Pre_finite_inputs

/-- The scalar shape has one index. -/
instance subsingleton_S_ : Subsingleton S_.Idx := ⟨fun a b => funext fun d => d.elim0⟩

/-- A 32-bit word that is ≥ 0 and < 50000 under the signed comparisons has its signed value in [0, 50000). -/
theorem word_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e5 : (50000#32 : BitVec 32).toInt = 50000 := by decide
  rw [e0] at h0
  rw [e5] at h1
  exact ⟨h0, h1⟩

/-- Row 0 of a [2, n] table, cut out as a [1, n] block and flattened to a vector, reads at position e the
    table's entry (0, e): the flattening keeps the row-major position 0 · n + e = e, and the cut starts at (0, 0). -/
theorem row0_read {α : Type} {n : Nat} (x : (⟨2, ![2, n]⟩ : Shape).Idx → α)
    (hs : (⟨2, ![2, n]⟩ : Shape).Slices ![0, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![0, 0] x hs) hc (ix1 e) = x (ix2 (0 : Fin 2) e) := by
  refine (shapeCast_apply _ hc (ix1 e) (ix2 (0 : Fin 1) e) (by
    rw [Shape.rowMajor_val_two, Shape.rowMajor_val_one]
    show 0 * n + e.val = e.val
    omega)).trans ?_
  exact extractStridedSlice_apply _ _ hs (ix2 (0 : Fin 1) e) (ix2 (0 : Fin 2) e) (by
    intro a
    match a with
    | ⟨0, _⟩ => rfl
    | ⟨1, _⟩ => show e.val = 0 + e.val; omega)

/-- THE PRECONDITION DECODED at edge e: the source node index edge_index[0, e] lies in [0, 50000). -/
theorem src_range {F : FTy → Type} [FloatOps F] [Facts]
    (a0 : FVec F S50000x256 .f32) (a1 : FVec F S256x64 .f32) (a2 : FVec F S64 .f32) (a3 : IVec S2x800000 32)
    (h : fn (F := F) a0 a1 a2 a3 = fun _ => 1#1) (e : Fin 800000) :
    0 ≤ (a3 (ix2 (0 : Fin 2) e)).toInt ∧ (a3 (ix2 (0 : Fin 2) e)).toInt < 50000 := by
  have h0 := congrFun h ix0
  dsimp only [fn, fn_part1] at h0
  -- the last conjunct of the scalar meet: the reduction of the range mask is 1
  have hred := (IntOp.andi_eq_one.1 h0).2
  -- so the range mask is 1 at every edge
  have hall := Host.reduce_andi_all _ _ _ _ ix0 hred (ix1 e)
  -- both comparisons hold at e
  obtain ⟨hge, hlt⟩ := IntOp.andi_eq_one.1 hall
  have hr := row0_read a3 Facts.slices_S2x800000_S1x800000_0_0 Facts.shapeCasts_S1x800000_S800000 e
  rw [← hr]
  exact word_range _ hge hlt

end Cert.Hand.PreRange

end
-- ==== Proof.lean ====
/-
  The certificate of a graph convolution as three Pallas calls against its jnp reference.

  The kernel computes  out = (scatter-add over dst of (row gather over src of h)) · norm + bias  with
  h = (feat · norm) @ weight and norm = clip(deg(src), 1)^(-1/2); the gather and the scatter-add are
  one-hot products on the matrix unit, accumulated tile by tile in a scratch buffer, so an index word that
  is no node number contributes nothing. The reference gathers rows of h with jnp indexing (negative
  indices wrapped, then clamped into range) and scatter-adds with segment_sum (out-of-range rows dropped).
  The two agree exactly when every source index is a node number: the precondition's range conjunct on
  row 0 of the edge list (an out-of-range destination is dropped on both sides and needs no hypothesis).

  Frames (all three programs run to the end and leave their arguments unchanged): the kernel's at both
  instances from the launch of its eight items (three host stretches, call, stretch, call, stretch, call)
  with each call's proof data (Proof/FI for the idealized program, Proof/FB for the word-level one, the same
  text); the reference's from its generated run. Values at the ideal instance: the kernel's result array
  is Cert.Spec.out of the arguments and of the normaliser its host prefix computes (Proof/KernelValue); the
  reference's result is Cert.Spec.out of the arguments and of its own normaliser, under the range hypothesis
  (Proof/RefSide); the two normalisers are the same host chain (Proof/NormAgree). No ideal-pass rewrite was
  applied, so the idealization claim is trivial.
-/
import proofs.«418634_j45483703664784_1_alg».proof.Defs
import proofs.«418634_j45483703664784_1_alg».proof.Proof.Gen.Kernel
import proofs.«418634_j45483703664784_1_alg».proof.Proof.Gen.KernelIdeal
import proofs.«418634_j45483703664784_1_alg».proof.Proof.Gen.ReferenceIdeal
import proofs.«418634_j45483703664784_1_alg».proof.Proof.Gen.Pre_finite_inputs
import proofs.«418634_j45483703664784_1_alg».proof.Proof.Gen.ReferenceIdeal.Run
import proofs.«418634_j45483703664784_1_alg».proof.Proof.Gen.ReferenceIdeal.Read
import proofs.«418634_j45483703664784_1_alg».proof.Proof.FB.Run
import proofs.«418634_j45483703664784_1_alg».proof.Proof.FI.Run
import proofs.«418634_j45483703664784_1_alg».proof.Proof.KernelValue
import proofs.«418634_j45483703664784_1_alg».proof.Proof.NormAgree
import proofs.«418634_j45483703664784_1_alg».proof.Proof.RefSide
import proofs.«418634_j45483703664784_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs and leaves its four arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W8_main_arg0 m c),
     (h c _ (Cert.Kernel.Hand.mem_uc Cert.Kernel.main_arg1 (by decide))).trans (Cert.Kernel.Hand.W8_main_arg1 m c),
     (h c _ (Cert.Kernel.Hand.mem_uc Cert.Kernel.main_arg2 (by decide))).trans (Cert.Kernel.Hand.W8_main_arg2 m c),
     (h c _ (Cert.Kernel.Hand.mem_uc Cert.Kernel.main_arg3 (by decide))).trans (Cert.Kernel.Hand.W8_main_arg3 m c)⟩)
    (Cert.Kernel.Hand.run_all (F := Bits) m ρ)

/-- The idealized kernel runs and leaves its four arguments as launched. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W8_main_arg0 m c),
     (h c _ (Cert.KernelIdeal.Hand.mem_uc Cert.KernelIdeal.main_arg1 (by decide))).trans (Cert.KernelIdeal.Hand.W8_main_arg1 m c),
     (h c _ (Cert.KernelIdeal.Hand.mem_uc Cert.KernelIdeal.main_arg2 (by decide))).trans (Cert.KernelIdeal.Hand.W8_main_arg2 m c),
     (h c _ (Cert.KernelIdeal.Hand.mem_uc Cert.KernelIdeal.main_arg3 (by decide))).trans (Cert.KernelIdeal.Hand.W8_main_arg3 m c)⟩)
    (Cert.KernelIdeal.Hand.run_all (F := Ideal) m ρ)

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- Both idealized programs end with Cert.Spec.out of the arguments and the shared normaliser. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.KernelIdeal.Hand.nrmK m c), ?_, ?_⟩
  · refine (θ_run Cert.KernelIdeal.defs _ _).mono (fun r h c => ⟨?_,
      (h c _ (Cert.KernelIdeal.Hand.mem_uc Cert.KernelIdeal.main_arg0 (by decide))).trans (Cert.KernelIdeal.Hand.W8_main_arg0 m c),
      (h c _ (Cert.KernelIdeal.Hand.mem_uc Cert.KernelIdeal.main_arg1 (by decide))).trans (Cert.KernelIdeal.Hand.W8_main_arg1 m c),
      (h c _ (Cert.KernelIdeal.Hand.mem_uc Cert.KernelIdeal.main_arg2 (by decide))).trans (Cert.KernelIdeal.Hand.W8_main_arg2 m c),
      (h c _ (Cert.KernelIdeal.Hand.mem_uc Cert.KernelIdeal.main_arg3 (by decide))).trans (Cert.KernelIdeal.Hand.W8_main_arg3 m c)⟩)
      (Cert.KernelIdeal.Hand.run_all (F := Ideal) m ρ)
    exact (h c _ (Cert.KernelIdeal.Hand.mem_uc Cert.KernelIdeal.main_v17 (by decide))).trans (Cert.KernelIdeal.Hand.kernel_out m c)
  · refine (θ_run Cert.ReferenceIdeal.defs _ _).mono (fun r h c => ⟨(h c).1.trans ?_, (h c).2⟩)
      (Cert.ReferenceIdeal.Value.run (F := Ideal) m' ρ')
    have hsrc : ∀ e : Fin 800000,
        0 ≤ (m ((c.tc : Thread Cert.KernelIdeal.nD Cert.KernelIdeal.τ).loc Cert.KernelIdeal.main_arg3) (ValueIdx.ix2 (0 : Fin 2) e)).toInt
        ∧ (m ((c.tc : Thread Cert.KernelIdeal.nD Cert.KernelIdeal.τ).loc Cert.KernelIdeal.main_arg3) (ValueIdx.ix2 (0 : Fin 2) e)).toInt < 50000 :=
      fun e => Cert.Hand.PreRange.src_range _ _ _ _ (hpre c) e
    rw [(hagree c).1, (hagree c).2.1, (hagree c).2.2.1, (hagree c).2.2.2]
    rw [Cert.ReferenceIdeal.Read.val_main_v30_eq]
    rw [Cert.ReferenceIdeal.Hand.ref_value _ _ _ _ hsrc]
    exact congrArg (Cert.Spec.out _ _ _ _) (Cert.KernelIdeal.Hand.nrm_agree m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
